-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part6 {F : FTy → Type} [FloatOps F] (main_arg18 : FVec F S128 .f32) (main_v99 : IVec S_ 1) (main_v102 : IVec S_ 1) : IVec S_ 1 :=
  let main_v103 : IVec S_ 1 := andi main_v99 main_v102
  let main_cst_39 : FVec F S_ .f32 := constant S_ .f32 0x00000000#32
  let main_v104 : FVec F S128 .f32 := broadcastInDim S128 ![] bcast_S_S128 main_cst_39
  let main_v105 : IVec S128 1 := cmpf .oge main_arg18 main_v104
  let main_c_40 : IVec S_ 1 := constantI S_ 1 1#1
  let main_v106 : IVec S_ 1 := (fun x v => Host.reduce IntOp.andi x v reducesTo_S128_S_d0 h_S_) main_v105 main_c_40
  let main_v107 : IVec S_ 1 := andi main_v103 main_v106
  main_v107

def fn_part5 {F : FTy → Type} [FloatOps F] (main_arg1 : IVec S2x1600000 32) (main_arg14 : FVec F S128 .f32) (main_arg18 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : IVec S1x1600000 32 := (extractStridedSlice S1x1600000 ![0, 0] · slices_S2x1600000_S1x1600000_0_0) main_arg1
  let main_v90 : IVec S1600000 32 := shapeCast S1600000 main_v89 shapeCasts_S1x1600000_S1600000
  let main_c_34 : IVec S_ 32 := constantI S_ 32 0#32
  let main_v91 : IVec S1600000 32 := broadcastInDim S1600000 ![] bcast_S_S1600000 main_c_34
  let main_v92 : IVec S1600000 1 := cmpi .sge main_v90 main_v91
  let main_v93 : IVec S1x1600000 32 := (extractStridedSlice S1x1600000 ![0, 0] · slices_S2x1600000_S1x1600000_0_0) main_arg1
  let main_v94 : IVec S1600000 32 := shapeCast S1600000 main_v93 shapeCasts_S1x1600000_S1600000
  let main_c_35 : IVec S_ 32 := constantI S_ 32 100000#32
  let main_v95 : IVec S1600000 32 := broadcastInDim S1600000 ![] bcast_S_S1600000 main_c_35
  let main_v96 : IVec S1600000 1 := cmpi .slt main_v94 main_v95
  let main_v97 : IVec S1600000 1 := andi main_v92 main_v96
  let main_c_36 : IVec S_ 1 := constantI S_ 1 1#1
  let main_v98 : IVec S_ 1 := (fun x v => Host.reduce IntOp.andi x v reducesTo_S1600000_S_d0 h_S_) main_v97 main_c_36
  let main_v99 : IVec S_ 1 := andi main_v88 main_v98
  let main_cst_37 : FVec F S_ .f32 := constant S_ .f32 0x00000000#32
  let main_v100 : FVec F S128 .f32 := broadcastInDim S128 ![] bcast_S_S128 main_cst_37
  let main_v101 : IVec S128 1 := cmpf .oge main_arg14 main_v100
  let main_c_38 : IVec S_ 1 := constantI S_ 1 1#1
  let main_v102 : IVec S_ 1 := (fun x v => Host.reduce IntOp.andi x v reducesTo_S128_S_d0 h_S_) main_v101 main_c_38
  fn_part6 (F := F) main_arg18 main_v99 main_v102

def fn_part4 {F : FTy → Type} [FloatOps F] (main_arg1 : IVec S2x1600000 32) (main_arg14 : FVec F S128 .f32) (main_arg15 : FVec F S128 .f32) (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg1 main_arg14 main_arg18 main_v83 main_v84 main_cst_32

def fn_part3 {F : FTy → Type} [FloatOps F] (main_arg1 : IVec S2x1600000 32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg14 main_arg15 main_arg16 main_arg17 main_arg18 main_v63 main_v67

def fn_part2 {F : FTy → Type} [FloatOps F] (main_arg1 : IVec S2x1600000 32) (main_arg8 : FVec F S128x16 .f32) (main_arg9 : FVec F S16 .f32) (main_arg10 : FVec F S128x16 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v33 : IVec S_ 1) : IVec S_ 1 :=
  let main_v34 : FVec F S128x16 .f32 := Host.absf main_arg8
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S128x16 .f32 := Host.absf main_arg10
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_arg15 main_arg16 main_arg17 main_arg18 main_v48 main_v49 main_v50

def fn_part1 {F : FTy → Type} [FloatOps F] (main_arg1 : IVec S2x1600000 32) (main_arg5 : FVec F S128x128 .f32) (main_arg6 : FVec F S128 .f32) (main_arg7 : FVec F S128x128 .f32) (main_arg8 : FVec F S128x16 .f32) (main_arg9 : FVec F S16 .f32) (main_arg10 : FVec F S128x16 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x16 .f32) (main_arg9 : FVec F S16 .f32) (main_arg10 : FVec F S128x16 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S5000x1 : Shape := ⟨2, ![5000, 1]⟩
abbrev S100000x16 : Shape := ⟨2, ![100000, 16]⟩
abbrev S5000x16 : Shape := ⟨2, ![5000, 16]⟩
abbrev S1600000x16 : Shape := ⟨2, ![1600000, 16]⟩
abbrev S1x16 : Shape := ⟨2, ![1, 16]⟩

abbrev nBuf : Space → Nat
  | .hbm => 146
  | .vmem => 57
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x16, .f32⟩
  | 9 => ⟨S16, .f32⟩
  | 10 => ⟨S128x16, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S1x1600000, .i32⟩
  | 20 => ⟨S1600000, .i32⟩
  | 21 => ⟨S1x1600000, .i32⟩
  | 22 => ⟨S1600000, .i32⟩
  | 23 => ⟨S_, .f32⟩
  | 24 => ⟨S1600000x1, .f32⟩
  | 25 => ⟨S_, .f32⟩
  | 26 => ⟨S100000x1, .f32⟩
  | 27 => ⟨S1600000x1, .i32⟩
  | 28 => ⟨S100000x1, .f32⟩
  | 29 => ⟨S_, .f32⟩
  | 30 => ⟨S128, .f32⟩
  | 31 => ⟨S128, .f32⟩
  | 32 => ⟨S128, .f32⟩
  | 33 => ⟨S128, .f32⟩
  | 34 => ⟨S128, .f32⟩
  | 35 => ⟨S128, .f32⟩
  | 36 => ⟨S_, .f32⟩
  | 37 => ⟨S128, .f32⟩
  | 38 => ⟨S128, .f32⟩
  | 39 => ⟨S128, .f32⟩
  | 40 => ⟨S128, .f32⟩
  | 41 => ⟨S128, .f32⟩
  | 42 => ⟨S128, .f32⟩
  | 43 => ⟨S_, .f32⟩
  | 44 => ⟨S16, .f32⟩
  | 45 => ⟨S_, .f32⟩
  | 46 => ⟨S16, .f32⟩
  | 47 => ⟨S100000x128, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1, .i32⟩
  | 58 => ⟨S_, .i32⟩
  | 59 => ⟨S1600000x1, .i32⟩
  | 60 => ⟨S1600000x1, .i1⟩
  | 61 => ⟨S1x1, .i32⟩
  | 62 => ⟨S1600000x1, .i32⟩
  | 63 => ⟨S1600000x1, .i1⟩
  | 64 => ⟨S1600000x1, .i1⟩
  | 65 => ⟨S_, .i1⟩
  | 66 => ⟨S1600000, .i1⟩
  | 67 => ⟨S1600000x128, .f32⟩
  | 68 => ⟨S1600000x128, .i1⟩
  | 69 => ⟨S_, .f32⟩
  | 70 => ⟨S1600000x128, .f32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S1x128, .f32⟩
  | 77 => ⟨S1x128, .f32⟩
  | 78 => ⟨S1x128, .f32⟩
  | 79 => ⟨S100000x128, .f32⟩
  | 80 => ⟨S100000x128, .f32⟩
  | 81 => ⟨S100000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1, .i32⟩
  | 91 => ⟨S_, .i32⟩
  | 92 => ⟨S1600000x1, .i32⟩
  | 93 => ⟨S1600000x1, .i1⟩
  | 94 => ⟨S1x1, .i32⟩
  | 95 => ⟨S1600000x1, .i32⟩
  | 96 => ⟨S1600000x1, .i1⟩
  | 97 => ⟨S1600000x1, .i1⟩
  | 98 => ⟨S_, .i1⟩
  | 99 => ⟨S1600000, .i1⟩
  | 100 => ⟨S1600000x128, .f32⟩
  | 101 => ⟨S1600000x128, .i1⟩
  | 102 => ⟨S_, .f32⟩
  | 103 => ⟨S1600000x128, .f32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S1x128, .f32⟩
  | 110 => ⟨S1x128, .f32⟩
  | 111 => ⟨S1x128, .f32⟩
  | 112 => ⟨S100000x128, .f32⟩
  | 113 => ⟨S100000x16, .f32⟩
  | 114 => ⟨S100000x16, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1, .i32⟩
  | 124 => ⟨S_, .i32⟩
  | 125 => ⟨S1600000x1, .i32⟩
  | 126 => ⟨S1600000x1, .i1⟩
  | 127 => ⟨S1x1, .i32⟩
  | _ => ⟨S100000x128, .f32⟩

abbrev hbmTy0_1 (i : Nat) : BufTy := match i % 128 with
  | 0 => ⟨S1600000x1, .i32⟩
  | 1 => ⟨S1600000x1, .i1⟩
  | 2 => ⟨S1600000x1, .i1⟩
  | 3 => ⟨S_, .i1⟩
  | 4 => ⟨S1600000, .i1⟩
  | 5 => ⟨S1600000x16, .f32⟩
  | 6 => ⟨S1600000x16, .i1⟩
  | 7 => ⟨S_, .f32⟩
  | 8 => ⟨S1600000x16, .f32⟩
  | 9 => ⟨S1600000x16, .f32⟩
  | 10 => ⟨S_, .f32⟩
  | 11 => ⟨S100000x16, .f32⟩
  | 12 => ⟨S1600000x1, .i32⟩
  | 13 => ⟨S100000x16, .f32⟩
  | 14 => ⟨S1x16, .f32⟩
  | 15 => ⟨S1x16, .f32⟩
  | 16 => ⟨S1x16, .f32⟩
  | 17 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x16, .f32⟩
  | .local _ .vmem, ⟨41, _⟩ => ⟨S128x16, .f32⟩
  | .local _ .vmem, ⟨42, _⟩ => ⟨S5000x16, .f32⟩
  | .local _ .vmem, ⟨43, _⟩ => ⟨S5000x16, .f32⟩
  | .local _ .vmem, ⟨44, _⟩ => ⟨S5000x16, .f32⟩
  | .local _ .vmem, ⟨45, _⟩ => ⟨S5000x16, .f32⟩
  | .local _ .vmem, ⟨46, _⟩ => ⟨S5000x16, .f32⟩
  | .local _ .vmem, ⟨47, _⟩ => ⟨S5000x16, .f32⟩
  | .local _ .vmem, ⟨48, _⟩ => ⟨S5000x1, .f32⟩
  | .local _ .vmem, ⟨49, _⟩ => ⟨S5000x1, .f32⟩
  | .local _ .vmem, ⟨50, _⟩ => ⟨S5000x16, .f32⟩
  | .local _ .vmem, ⟨51, _⟩ => ⟨S5000x16, .f32⟩
  | .local _ .vmem, ⟨52, _⟩ => ⟨S1x16, .f32⟩
  | .local _ .vmem, ⟨53, _⟩ => ⟨S1x16, .f32⟩
  | .local _ .vmem, ⟨54, _⟩ => ⟨S1x16, .f32⟩
  | .local _ .vmem, ⟨55, _⟩ => ⟨S5000x16, .f32⟩
  | .local _ .vmem, ⟨56, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22_0 : Ref sig .tc := ⟨.hbm, 47, rfl⟩
abbrev main_v22_1 : Ref sig .tc := ⟨.hbm, 48, rfl⟩
abbrev main_call0_c : Ref sig .tc := ⟨.hbm, 49, rfl⟩
abbrev main_call0_v0 : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_c_1 : Ref sig .tc := ⟨.hbm, 57, rfl⟩
abbrev main_call0_c_2 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_3 : Ref sig .tc := ⟨.hbm, 65, rfl⟩
abbrev main_call0_v12 : Ref sig .tc := ⟨.hbm, 66, rfl⟩
abbrev main_call0_v13 : Ref sig .tc := ⟨.hbm, 67, rfl⟩
abbrev main_call0_v14 : Ref sig .tc := ⟨.hbm, 68, rfl⟩
abbrev main_call0_cst : Ref sig .tc := ⟨.hbm, 69, rfl⟩
abbrev main_call0_v15 : Ref sig .tc := ⟨.hbm, 70, rfl⟩
abbrev main_v23 : Ref sig .tc := ⟨.hbm, 71, rfl⟩
abbrev main_cst_5 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31_0 : Ref sig .tc := ⟨.hbm, 80, rfl⟩
abbrev main_v31_1 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v32 : Ref sig .tc := ⟨.hbm, 104, rfl⟩
abbrev main_cst_6 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40_0 : Ref sig .tc := ⟨.hbm, 113, rfl⟩
abbrev main_v40_1 : Ref sig .tc := ⟨.hbm, 114, rfl⟩
abbrev main_call2_c : Ref sig .tc := ⟨.hbm, 115, rfl⟩
abbrev main_call2_v0 : Ref sig .tc := ⟨.hbm, 116, rfl⟩
abbrev main_call2_v1 : Ref sig .tc := ⟨.hbm, 117, rfl⟩
abbrev main_call2_c_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_c_1 : Ref sig .tc := ⟨.hbm, 123, rfl⟩
abbrev main_call2_c_2 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_c_3 : Ref sig .tc := ⟨.hbm, 131, rfl⟩
abbrev main_call2_v12 : Ref sig .tc := ⟨.hbm, 132, rfl⟩
abbrev main_call2_v13 : Ref sig .tc := ⟨.hbm, 133, rfl⟩
abbrev main_call2_v14 : Ref sig .tc := ⟨.hbm, 134, rfl⟩
abbrev main_call2_cst : Ref sig .tc := ⟨.hbm, 135, rfl⟩
abbrev main_call2_v15 : Ref sig .tc := ⟨.hbm, 136, rfl⟩
abbrev main_v41 : Ref sig .tc := ⟨.hbm, 137, rfl⟩
abbrev main_cst_7 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg4_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg6_0 : Ref sig .tc := ⟨.vmem, 55, rfl⟩
abbrev cc5_stg6_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem3_1 : DmaSem sig := 43
abbrev cc4_sem4_0 : DmaSem sig := 44
abbrev cc4_sem4_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem6_1 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x16 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x16 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S128 : S_.BroadcastsInDim S128 (![] : Fin 0 → Fin S128.rank)
  bcast_S_S16 : S_.BroadcastsInDim S16 (![] : Fin 0 → Fin S16.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1600000_S1600000x16_0 : S1600000.BroadcastsInDim S1600000x16 (![0] : Fin 1 → Fin S1600000x16.rank)
  bcast_S_S1600000x16 : S_.BroadcastsInDim S1600000x16 (![] : Fin 0 → Fin S1600000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000x1_S1600000x1_S1600000x1_1_0_0_1_wf : ScatterDims.WF S100000x1 S1600000x1 S1600000x1 [1] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x16_S5000x16_1_0_0_1_n_n_wf : DotDims.WF S5000x128 S128x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x16.size a ≤ S128x16.size a
  hwx4_2 : ∀ i : grid4.Coords, EltTy.bits .f32 = 32 ∨ (Rect.block (s := S128x16) S128x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S100000x16.size a
  hwx4_3 : ∀ i : grid4.Coords, EltTy.bits .f32 = 32 ∨ (Rect.block (s := S100000x16) S5000x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x16.size a ≤ S100000x16.size a
  hwx4_4 : ∀ i : grid4.Coords, EltTy.bits .f32 = 32 ∨ (Rect.block (s := S100000x16) S5000x16.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S100000x16.size a
  hwx5_2 : ∀ i : grid5.Coords, EltTy.bits .f32 = 32 ∨ (Rect.block (s := S100000x16) S5000x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x16.size a ≤ S1x16.size a
  hwx5_3 : ∀ i : grid5.Coords, EltTy.bits .f32 = 32 ∨ (Rect.block (s := S1x16) S1x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x16.size a ≤ S1x16.size a
  hwx5_4 : ∀ i : grid5.Coords, EltTy.bits .f32 = 32 ∨ (Rect.block (s := S1x16) S1x16.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x16.size a ≤ S1x16.size a
  hwx5_5 : ∀ i : grid5.Coords, EltTy.bits .f32 = 32 ∨ (Rect.block (s := S1x16) S1x16.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x16.size a ≤ S100000x16.size a
  hwx5_6 : ∀ i : grid5.Coords, EltTy.bits .f32 = 32 ∨ (Rect.block (s := S100000x16) S5000x16.size (cc5_transform_6 i) (hinb5_6 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22_1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v31_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v35) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31_1) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v39) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v39) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v40_0) S5000x16.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v40_1) S5000x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v44) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v40_1) S5000x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v45) S1x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v46) S1x16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v47) S1x16.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v48) S5000x16.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x16, .f32⟩
  | 9 => ⟨S16, .f32⟩
  | 10 => ⟨S128x16, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S_, .f32⟩
  | 37 => ⟨S1600000x1, .f32⟩
  | 38 => ⟨S_, .f32⟩
  | 39 => ⟨S100000x1, .f32⟩
  | 40 => ⟨S1600000x1, .i32⟩
  | 41 => ⟨S100000x1, .f32⟩
  | 42 => ⟨S_, .f32⟩
  | 43 => ⟨S100000x1, .f32⟩
  | 44 => ⟨S100000x1, .f32⟩
  | 45 => ⟨S100000x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S128, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S_, .f32⟩
  | 86 => ⟨S1600000x1, .f32⟩
  | 87 => ⟨S_, .f32⟩
  | 88 => ⟨S100000x1, .f32⟩
  | 89 => ⟨S1600000x1, .i32⟩
  | 90 => ⟨S100000x1, .f32⟩
  | 91 => ⟨S_, .f32⟩
  | 92 => ⟨S100000x1, .f32⟩
  | 93 => ⟨S100000x1, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S128, .f32⟩
  | 107 => ⟨S128, .f32⟩
  | 108 => ⟨S128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x128, .f32⟩

abbrev hbmTy0_1 (i : Nat) : BufTy := match i % 128 with
  | 0 => ⟨S1600000x1, .i32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S_, .f32⟩
  | 7 => ⟨S1600000x1, .f32⟩
  | 8 => ⟨S_, .f32⟩
  | 9 => ⟨S100000x1, .f32⟩
  | 10 => ⟨S1600000x1, .i32⟩
  | 11 => ⟨S100000x1, .f32⟩
  | 12 => ⟨S_, .f32⟩
  | 13 => ⟨S100000x1, .f32⟩
  | 14 => ⟨S100000x1, .f32⟩
  | 15 => ⟨S100000x128, .f32⟩
  | 16 => ⟨S100000x128, .f32⟩
  | 17 => ⟨S100000x16, .f32⟩
  | 18 => ⟨S1x16, .f32⟩
  | 19 => ⟨S100000x16, .f32⟩
  | 20 => ⟨S100000x16, .f32⟩
  | 21 => ⟨S100000x16, .f32⟩
  | 22 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call0_cst : Ref sig .tc := ⟨.hbm, 69, rfl⟩
abbrev main_call0_v0 : Ref sig .tc := ⟨.hbm, 70, rfl⟩
abbrev main_v43 : Ref sig .tc := ⟨.hbm, 71, rfl⟩
abbrev main_c_5 : Ref sig .tc := ⟨.hbm, 72, rfl⟩
abbrev main_v44 : Ref sig .tc := ⟨.hbm, 73, rfl⟩
abbrev main_v45 : Ref sig .tc := ⟨.hbm, 74, rfl⟩
abbrev main_c_6 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_10 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_11 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call1_cst : Ref sig .tc := ⟨.hbm, 118, rfl⟩
abbrev main_call1_v0 : Ref sig .tc := ⟨.hbm, 119, rfl⟩
abbrev main_v83 : Ref sig .tc := ⟨.hbm, 120, rfl⟩
abbrev main_c_12 : Ref sig .tc := ⟨.hbm, 121, rfl⟩
abbrev main_v84 : Ref sig .tc := ⟨.hbm, 122, rfl⟩
abbrev main_v85 : Ref sig .tc := ⟨.hbm, 123, rfl⟩
abbrev main_c_13 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_14 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_15 : Ref sig .tc := ⟨.hbm, 134, rfl⟩
abbrev main_v94 : Ref sig .tc := ⟨.hbm, 135, rfl⟩
abbrev main_cst_16 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_17 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.Spec.lean ====
/-
  A three-layer mean-aggregating graph network over 100000 nodes and 1600000 directed edges, written twice as a
  function of its inputs over the extended reals, in curried coordinates.

  One layer takes node features h (width 128) to width C. With D(i) the edges whose destination is node i, s(e) the
  source row of edge e, and c(i) = max(|D(i)|, 1):

    the projected form     ((∑_{e ∈ D(i)} ∑_k h[s(e),k]·Wn[k,j]) / c(i) + ∑_k h[i,k]·Ws[k,j] + b[j]) · scale[j] + shift[j]
    the aggregated form    ∑_k ((∑_{e ∈ D(i)} h[s(e),k]) / c(i)) · Wn[k,j] + b[j] + ∑_k h[i,k]·Ws[k,j],
                           then ((p − rm[j]) · rsqrt(rv[j] + ε)) · g[j] + be[j]

  with scale = g · rsqrt(rv + ε) and shift = be − rm · scale. The first projects every node's row and then averages the
  projected rows of its in-neighbours; the second averages the rows and then projects. They agree wherever every
  quantity is a real number (the mean is linear, and the two normalisations differ by distributing scale over a
  difference): that is proved in the module that imports this one.
-/
import Idealize.ShloMosaic.PureOps.Ideal
import Idealize.ShloMosaic.Lib.ValueIdx

noncomputable section

open scoped BigOperators

namespace Cert.Sage

open Idealize.ShloMosaic Idealize.ShloMosaic.ValueIdx

/-- The number of nodes. -/
abbrev nodes : ℕ := 100000
/-- The number of edges. -/
abbrev edges : ℕ := 1600000

/-- A rank-2 array read at a pair of coordinates. -/
abbrev at2 {α : Type} {A B : ℕ} (x : (⟨2, ![A, B]⟩ : Shape).Idx → α) (i : Fin A) (j : Fin B) : α := x (ix2 i j)
/-- A rank-1 array read at a coordinate. -/
abbrev at1 {α : Type} {A : ℕ} (x : (⟨1, ![A]⟩ : Shape).Idx → α) (i : Fin A) : α := x (ix1 i)

/-- The edge list as a 2 × edges array of 32-bit words: row 0 the sources, row 1 the destinations. -/
abbrev EdgeArr : Type := IVec (⟨2, ![2, edges]⟩ : Shape) 32

/-- The source word of each edge: row 0 of the edge list, as a slice then a reshape to rank 1 read at a coordinate. -/
def srcOf (ei : EdgeArr) (hs : (⟨2, ![2, edges]⟩ : Shape).Slices ![0, 0] ⟨2, ![1, edges]⟩)
    (hc : (⟨2, ![1, edges]⟩ : Shape).ShapeCasts ⟨1, ![edges]⟩) : Fin edges → BitVec 32 :=
  fun e => shapeCast ⟨1, ![edges]⟩ (extractStridedSlice ⟨2, ![1, edges]⟩ ![0, 0] ei hs) hc (ix1 e)

/-- The destination word of each edge: row 1 of the edge list, the same way. -/
def dstOf (ei : EdgeArr) (hs : (⟨2, ![2, edges]⟩ : Shape).Slices ![1, 0] ⟨2, ![1, edges]⟩)
    (hc : (⟨2, ![1, edges]⟩ : Shape).ShapeCasts ⟨1, ![edges]⟩) : Fin edges → BitVec 32 :=
  fun e => shapeCast ⟨1, ![edges]⟩ (extractStridedSlice ⟨2, ![1, edges]⟩ ![1, 0] ei hs) hc (ix1 e)

/-- The node row a 32-bit index word names: read signed, clamped into the table (a word in range names itself). -/
def rowOf (s : BitVec 32) : Fin nodes :=
  ⟨min s.toInt.toNat (nodes - 1), Nat.lt_of_le_of_lt (Nat.min_le_right _ _) (by decide)⟩

section Layers

variable (src dst : Fin edges → BitVec 32)

/-- The edges whose destination word reads, signed, as node i. -/
def into (i : Fin nodes) : Finset (Fin edges) := Finset.univ.filter fun e => (dst e).toInt = (i.val : ℤ)

/-- The in-degree of node i, as a sum of ones. -/
def deg (i : Fin nodes) : EReal := ∑ _e ∈ into dst i, (1 : EReal)

/-- The positive part. -/
def relu (v : EReal) : EReal := max v 0

/-- One layer in the projected form: project, average the projected in-neighbour rows, add the node's own projection and
    the bias, apply an affine map per column, then the activation. -/
def kLayer (act : EReal → EReal) {C : ℕ} (h : Fin nodes → Fin 128 → EReal) (Wn Ws : Fin 128 → Fin C → EReal)
    (b sc sh : Fin C → EReal) (i : Fin nodes) (j : Fin C) : EReal :=
  act (((Ideal.div (∑ e ∈ into dst i, ∑ k : Fin 128, h (rowOf (src e)) k * Wn k j) (max (deg dst i) 1)
        + ∑ k : Fin 128, h i k * Ws k j) + b j) * sc j + sh j)

/-- One layer in the aggregated form, before normalisation: average the in-neighbour rows, project the average, add the
    bias and the node's own projection. -/
def rLayer {C : ℕ} (h : Fin nodes → Fin 128 → EReal) (Wn Ws : Fin 128 → Fin C → EReal) (b : Fin C → EReal)
    (i : Fin nodes) (j : Fin C) : EReal :=
  ((∑ k : Fin 128, Ideal.div (∑ e ∈ into dst i, h (rowOf (src e)) k) (max (deg dst i) 1) * Wn k j) + b j)
    + ∑ k : Fin 128, h i k * Ws k j

end Layers

/-- The per-column factor of a normalisation folded into one affine map. -/
def scaleOf (eps : EReal) (g rv : Fin 128 → EReal) (j : Fin 128) : EReal := g j * Ideal.rsqrt (rv j + eps)
/-- The per-column offset of a normalisation folded into one affine map. -/
def shiftOf (eps : EReal) (g rv be rm : Fin 128 → EReal) (j : Fin 128) : EReal := be j - rm j * scaleOf eps g rv j

/-- Normalisation by running statistics, then the positive part. -/
def bnRelu (eps : EReal) (g be rm rv : Fin 128 → EReal) (p : Fin nodes → Fin 128 → EReal) (i : Fin nodes) (j : Fin 128) :
    EReal :=
  relu ((((p i j - rm j) * Ideal.rsqrt (rv j + eps)) * g j) + be j)

section Nets

variable (src dst : Fin edges → BitVec 32) (eps : EReal)
  (x : Fin nodes → Fin 128 → EReal)
  (Wn0 : Fin 128 → Fin 128 → EReal) (b0 : Fin 128 → EReal) (Ws0 : Fin 128 → Fin 128 → EReal)
  (Wn1 : Fin 128 → Fin 128 → EReal) (b1 : Fin 128 → EReal) (Ws1 : Fin 128 → Fin 128 → EReal)
  (Wn2 : Fin 128 → Fin 16 → EReal) (b2 : Fin 16 → EReal) (Ws2 : Fin 128 → Fin 16 → EReal)
  (g0 be0 rm0 rv0 g1 be1 rm1 rv1 : Fin 128 → EReal)

/-- The first hidden layer, projected form. -/
def kHidden1 : Fin nodes → Fin 128 → EReal :=
  kLayer src dst relu x Wn0 Ws0 b0 (scaleOf eps g0 rv0) (shiftOf eps g0 rv0 be0 rm0)
/-- The second hidden layer, projected form. -/
def kHidden2 : Fin nodes → Fin 128 → EReal :=
  kLayer src dst relu (kHidden1 src dst eps x Wn0 b0 Ws0 g0 be0 rm0 rv0) Wn1 Ws1 b1 (scaleOf eps g1 rv1)
    (shiftOf eps g1 rv1 be1 rm1)
/-- The network, projected form: the last layer has the identity affine map and no positive part. -/
def kNet : Fin nodes → Fin 16 → EReal :=
  kLayer src dst id (kHidden2 src dst eps x Wn0 b0 Ws0 Wn1 b1 Ws1 g0 be0 rm0 rv0 g1 be1 rm1 rv1) Wn2 Ws2 b2
    (fun _ => 1) (fun _ => 0)

/-- The first hidden layer, aggregated form. -/
def rHidden1 : Fin nodes → Fin 128 → EReal := bnRelu eps g0 be0 rm0 rv0 (rLayer src dst x Wn0 Ws0 b0)
/-- The second hidden layer, aggregated form. -/
def rHidden2 : Fin nodes → Fin 128 → EReal :=
  bnRelu eps g1 be1 rm1 rv1 (rLayer src dst (rHidden1 src dst eps x Wn0 b0 Ws0 g0 be0 rm0 rv0) Wn1 Ws1 b1)
/-- The network, aggregated form. -/
def rNet : Fin nodes → Fin 16 → EReal :=
  rLayer src dst (rHidden2 src dst eps x Wn0 b0 Ws0 Wn1 b1 Ws1 g0 be0 rm0 rv0 g1 be1 rm1 rv1) Wn2 Ws2 b2

end Nets

end Cert.Sage

end
-- ==== Proof.Eps.lean ====
/-
  The one float literal both programs carry besides zero and one: the word 0x3727C5AC, the binary32 nearest 1e-5. It is
  the positive real 10995116 · 2⁻⁴⁰ (exponent field 110, fraction field 0x27C5AC); the proof needs only that it is a
  real number and positive.
-/
import Idealize.ShloMosaic.PureOps.Ideal
import Idealize.ShloMosaic.Lib.IdealHost

noncomputable section

namespace Cert.Sage

open Idealize.ShloMosaic

/-- The variance offset ε of both programs, as the extended real its binary32 word denotes. -/
def eps32 : EReal := Ideal.ofBits .f32 0x3727C5AC#32

/-- ε is a positive real number. -/
theorem eps32_pos : ∃ r : ℝ, 0 < r ∧ eps32 = (r : EReal) := by
  refine ⟨(10995116 : ℝ) / 2 ^ 40, by positivity, ?_⟩
  unfold eps32
  simp [Ideal.ofBits, Ideal.ieee, -EReal.coe_mul]
  norm_num

end Cert.Sage

end
-- ==== Proof.Algebra.lean ====
/-
  The two forms of the network agree where every input is a real number, the variances are non-negative and ε is a
  positive real.

  Every quantity of both forms is then a real number, so each layer is computed by a real-valued function and the
  equality is real algebra: the mean is linear through the projection, the normalisation distributes over a
  difference, and the last layer's affine map is the identity.
-/
import proofs.«420429_j56581899157895_2_alg».proof.Proof.Spec

noncomputable section

open scoped BigOperators

namespace Cert.Sage

open Idealize.ShloMosaic Idealize.ShloMosaic.ValueIdx

/-! ### Coercion of reals into the extended reals commutes with finite sums and with max -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of two reals is the maximum of the coercions. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The reciprocal square root of a positive real is the real reciprocal of its square root. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

/-! ### One layer over the reals -/

section RealLayers

variable (src dst : Fin edges → BitVec 32)

/-- The divisor of the mean at node i as a real number: the in-degree, or one where there is no in-edge. -/
def cnt (i : Fin nodes) : ℝ := max (∑ _e ∈ into dst i, (1 : ℝ)) 1

theorem cnt_ne_zero (i : Fin nodes) : cnt dst i ≠ 0 :=
  ne_of_gt (lt_of_lt_of_le one_pos (le_max_right _ _))

/-- The divisor of the mean is the coercion of the real divisor. -/
theorem max_deg_eq (i : Fin nodes) : max (deg dst i) 1 = ((cnt dst i : ℝ) : EReal) := by
  unfold deg cnt
  rw [coe_max, coe_sum, EReal.coe_one]

/-- The projected form of one layer over the reals, before the affine map. -/
def realK {C : ℕ} (h : Fin nodes → Fin 128 → ℝ) (Wn Ws : Fin 128 → Fin C → ℝ) (b : Fin C → ℝ)
    (i : Fin nodes) (j : Fin C) : ℝ :=
  ((∑ e ∈ into dst i, ∑ k : Fin 128, h (rowOf (src e)) k * Wn k j) * (1 / cnt dst i)
    + ∑ k : Fin 128, h i k * Ws k j) + b j

/-- The aggregated form of one layer over the reals, before normalisation. -/
def realR {C : ℕ} (h : Fin nodes → Fin 128 → ℝ) (Wn Ws : Fin 128 → Fin C → ℝ) (b : Fin C → ℝ)
    (i : Fin nodes) (j : Fin C) : ℝ :=
  ((∑ k : Fin 128, ((∑ e ∈ into dst i, h (rowOf (src e)) k) * (1 / cnt dst i)) * Wn k j) + b j)
    + ∑ k : Fin 128, h i k * Ws k j

/-- The mean is linear through the projection: projecting then averaging is averaging then projecting. -/
theorem realK_eq_realR {C : ℕ} (h : Fin nodes → Fin 128 → ℝ) (Wn Ws : Fin 128 → Fin C → ℝ) (b : Fin C → ℝ)
    (i : Fin nodes) (j : Fin C) : realK src dst h Wn Ws b i j = realR src dst h Wn Ws b i j := by
  unfold realK realR
  have hlin : (∑ e ∈ into dst i, ∑ k : Fin 128, h (rowOf (src e)) k * Wn k j) * (1 / cnt dst i)
      = ∑ k : Fin 128, ((∑ e ∈ into dst i, h (rowOf (src e)) k) * (1 / cnt dst i)) * Wn k j := by
    rw [Finset.sum_comm, Finset.sum_mul]
    refine Finset.sum_congr rfl fun k _ => ?_
    rw [← Finset.sum_mul]
    ring
  rw [hlin]
  ring

/-- The projected layer on coerced real inputs is the activation of the coerced real layer. -/
theorem kLayer_coe (act : EReal → EReal) {C : ℕ} (h : Fin nodes → Fin 128 → ℝ) (Wn Ws : Fin 128 → Fin C → ℝ)
    (b sc sh : Fin C → ℝ) (i : Fin nodes) (j : Fin C) :
    kLayer src dst act (fun i k => (h i k : EReal)) (fun k j => (Wn k j : EReal)) (fun k j => (Ws k j : EReal))
        (fun j => (b j : EReal)) (fun j => (sc j : EReal)) (fun j => (sh j : EReal)) i j
      = act ((realK src dst h Wn Ws b i j * sc j + sh j : ℝ) : EReal) := by
  unfold kLayer realK
  rw [max_deg_eq, Ideal.div_coe (cnt_ne_zero dst i)]
  simp only [EReal.coe_add, EReal.coe_mul, coe_sum]

/-- The aggregated layer on coerced real inputs is the coerced real layer. -/
theorem rLayer_coe {C : ℕ} (h : Fin nodes → Fin 128 → ℝ) (Wn Ws : Fin 128 → Fin C → ℝ) (b : Fin C → ℝ)
    (i : Fin nodes) (j : Fin C) :
    rLayer src dst (fun i k => (h i k : EReal)) (fun k j => (Wn k j : EReal)) (fun k j => (Ws k j : EReal))
        (fun j => (b j : EReal)) i j
      = ((realR src dst h Wn Ws b i j : ℝ) : EReal) := by
  unfold rLayer realR
  rw [max_deg_eq]
  simp only [Ideal.div_coe (cnt_ne_zero dst i), EReal.coe_add, EReal.coe_mul, coe_sum]

end RealLayers

/-! ### The normalisation over the reals -/

/-- The folded factor on coerced real inputs, where the variance plus ε is positive. -/
theorem scaleOf_coe (e : ℝ) (g rv : Fin 128 → ℝ) (j : Fin 128) (hpos : 0 < rv j + e) :
    scaleOf (e : EReal) (fun j => (g j : EReal)) (fun j => (rv j : EReal)) j
      = ((g j * (Real.sqrt (rv j + e))⁻¹ : ℝ) : EReal) := by
  simp only [scaleOf]
  rw [← EReal.coe_add, rsqrt_pos hpos, ← EReal.coe_mul]

/-- The folded offset on coerced real inputs, where the variance plus ε is positive. -/
theorem shiftOf_coe (e : ℝ) (g rv be rm : Fin 128 → ℝ) (j : Fin 128) (hpos : 0 < rv j + e) :
    shiftOf (e : EReal) (fun j => (g j : EReal)) (fun j => (rv j : EReal)) (fun j => (be j : EReal))
        (fun j => (rm j : EReal)) j
      = ((be j - rm j * (g j * (Real.sqrt (rv j + e))⁻¹) : ℝ) : EReal) := by
  simp only [shiftOf]
  rw [scaleOf_coe e g rv j hpos, ← EReal.coe_mul, ← EReal.coe_sub]

/-- The normalisation then the positive part, on coerced real inputs. -/
theorem bnRelu_coe (e : ℝ) (g be rm rv : Fin 128 → ℝ) (p : Fin nodes → Fin 128 → ℝ) (i : Fin nodes) (j : Fin 128)
    (hpos : 0 < rv j + e) :
    bnRelu (e : EReal) (fun j => (g j : EReal)) (fun j => (be j : EReal)) (fun j => (rm j : EReal))
        (fun j => (rv j : EReal)) (fun i j => (p i j : EReal)) i j
      = ((max ((((p i j - rm j) * (Real.sqrt (rv j + e))⁻¹) * g j) + be j) 0 : ℝ) : EReal) := by
  simp only [bnRelu, relu]
  rw [← EReal.coe_add, rsqrt_pos hpos]
  simp only [coe_max, EReal.coe_add, EReal.coe_mul, EReal.coe_sub, EReal.coe_zero]

section Hidden

variable (src dst : Fin edges → BitVec 32)

/-- One hidden layer over the reals: the aggregated layer, normalised, then the positive part. -/
def realHidden (e : ℝ) (h : Fin nodes → Fin 128 → ℝ) (Wn Ws : Fin 128 → Fin 128 → ℝ) (b g be rm rv : Fin 128 → ℝ)
    (i : Fin nodes) (j : Fin 128) : ℝ :=
  max ((((realR src dst h Wn Ws b i j - rm j) * (Real.sqrt (rv j + e))⁻¹) * g j) + be j) 0

/-- A hidden layer in the projected form, on coerced real inputs, is the coerced real hidden layer. -/
theorem kHidden_coe (e : ℝ) (h : Fin nodes → Fin 128 → ℝ) (Wn Ws : Fin 128 → Fin 128 → ℝ)
    (b g be rm rv : Fin 128 → ℝ) (hpos : ∀ j, 0 < rv j + e) :
    kLayer src dst relu (fun i k => (h i k : EReal)) (fun k j => (Wn k j : EReal)) (fun k j => (Ws k j : EReal))
        (fun j => (b j : EReal)) (scaleOf (e : EReal) (fun j => (g j : EReal)) (fun j => (rv j : EReal)))
        (shiftOf (e : EReal) (fun j => (g j : EReal)) (fun j => (rv j : EReal)) (fun j => (be j : EReal))
          (fun j => (rm j : EReal)))
      = fun i j => ((realHidden src dst e h Wn Ws b g be rm rv i j : ℝ) : EReal) := by
  have hsc : scaleOf (e : EReal) (fun j => (g j : EReal)) (fun j => (rv j : EReal))
      = fun j => ((g j * (Real.sqrt (rv j + e))⁻¹ : ℝ) : EReal) :=
    funext fun j => scaleOf_coe e g rv j (hpos j)
  have hsh : shiftOf (e : EReal) (fun j => (g j : EReal)) (fun j => (rv j : EReal)) (fun j => (be j : EReal))
        (fun j => (rm j : EReal))
      = fun j => ((be j - rm j * (g j * (Real.sqrt (rv j + e))⁻¹) : ℝ) : EReal) :=
    funext fun j => shiftOf_coe e g rv be rm j (hpos j)
  funext i j
  rw [hsc, hsh, kLayer_coe, realK_eq_realR]
  have hreal : realR src dst h Wn Ws b i j * (g j * (Real.sqrt (rv j + e))⁻¹)
        + (be j - rm j * (g j * (Real.sqrt (rv j + e))⁻¹))
      = (((realR src dst h Wn Ws b i j - rm j) * (Real.sqrt (rv j + e))⁻¹) * g j) + be j := by
    ring
  rw [hreal]
  simp only [relu, realHidden, coe_max, EReal.coe_zero]

/-- A hidden layer in the aggregated form, on coerced real inputs, is the same coerced real hidden layer. -/
theorem rHidden_coe (e : ℝ) (h : Fin nodes → Fin 128 → ℝ) (Wn Ws : Fin 128 → Fin 128 → ℝ)
    (b g be rm rv : Fin 128 → ℝ) (hpos : ∀ j, 0 < rv j + e) :
    bnRelu (e : EReal) (fun j => (g j : EReal)) (fun j => (be j : EReal)) (fun j => (rm j : EReal))
        (fun j => (rv j : EReal))
        (rLayer src dst (fun i k => (h i k : EReal)) (fun k j => (Wn k j : EReal)) (fun k j => (Ws k j : EReal))
          (fun j => (b j : EReal)))
      = fun i j => ((realHidden src dst e h Wn Ws b g be rm rv i j : ℝ) : EReal) := by
  have hr : rLayer src dst (fun i k => (h i k : EReal)) (fun k j => (Wn k j : EReal)) (fun k j => (Ws k j : EReal))
        (fun j => (b j : EReal))
      = fun i j => ((realR src dst h Wn Ws b i j : ℝ) : EReal) :=
    funext fun i => funext fun j => rLayer_coe src dst h Wn Ws b i j
  funext i j
  rw [hr, bnRelu_coe e g be rm rv (realR src dst h Wn Ws b) i j (hpos j)]
  rfl

/-- The last layer: with the identity affine map and no activation the projected form is the aggregated form. -/
theorem kLast_eq_rLayer {C : ℕ} (h : Fin nodes → Fin 128 → ℝ) (Wn Ws : Fin 128 → Fin C → ℝ) (b : Fin C → ℝ) :
    kLayer src dst id (fun i k => (h i k : EReal)) (fun k j => (Wn k j : EReal)) (fun k j => (Ws k j : EReal))
        (fun j => (b j : EReal)) (fun _ => 1) (fun _ => 0)
      = rLayer src dst (fun i k => (h i k : EReal)) (fun k j => (Wn k j : EReal)) (fun k j => (Ws k j : EReal))
        (fun j => (b j : EReal)) := by
  funext i j
  have hk := kLayer_coe src dst id h Wn Ws b (fun _ => 1) (fun _ => 0) i j
  simp only [EReal.coe_one, EReal.coe_zero] at hk
  rw [hk, rLayer_coe, realK_eq_realR, mul_one, add_zero]
  rfl

end Hidden

/-- The projected and the aggregated form of the network are one function of inputs that are real numbers, when both
    running variances are non-negative and ε is a positive real. -/
theorem kNet_eq_rNet (src dst : Fin edges → BitVec 32) (eps : EReal) (heps : ∃ r : ℝ, 0 < r ∧ eps = (r : EReal))
    (x : Fin nodes → Fin 128 → EReal)
    (Wn0 : Fin 128 → Fin 128 → EReal) (b0 : Fin 128 → EReal) (Ws0 : Fin 128 → Fin 128 → EReal)
    (Wn1 : Fin 128 → Fin 128 → EReal) (b1 : Fin 128 → EReal) (Ws1 : Fin 128 → Fin 128 → EReal)
    (Wn2 : Fin 128 → Fin 16 → EReal) (b2 : Fin 16 → EReal) (Ws2 : Fin 128 → Fin 16 → EReal)
    (g0 be0 rm0 rv0 g1 be1 rm1 rv1 : Fin 128 → EReal)
    (hx : ∀ i k, ∃ r : ℝ, x i k = (r : EReal))
    (hWn0 : ∀ k j, ∃ r : ℝ, Wn0 k j = (r : EReal)) (hb0 : ∀ j, ∃ r : ℝ, b0 j = (r : EReal))
    (hWs0 : ∀ k j, ∃ r : ℝ, Ws0 k j = (r : EReal))
    (hWn1 : ∀ k j, ∃ r : ℝ, Wn1 k j = (r : EReal)) (hb1 : ∀ j, ∃ r : ℝ, b1 j = (r : EReal))
    (hWs1 : ∀ k j, ∃ r : ℝ, Ws1 k j = (r : EReal))
    (hWn2 : ∀ k j, ∃ r : ℝ, Wn2 k j = (r : EReal)) (hb2 : ∀ j, ∃ r : ℝ, b2 j = (r : EReal))
    (hWs2 : ∀ k j, ∃ r : ℝ, Ws2 k j = (r : EReal))
    (hg0 : ∀ j, ∃ r : ℝ, g0 j = (r : EReal)) (hbe0 : ∀ j, ∃ r : ℝ, be0 j = (r : EReal))
    (hrm0 : ∀ j, ∃ r : ℝ, rm0 j = (r : EReal)) (hrv0 : ∀ j, ∃ r : ℝ, rv0 j = (r : EReal))
    (hg1 : ∀ j, ∃ r : ℝ, g1 j = (r : EReal)) (hbe1 : ∀ j, ∃ r : ℝ, be1 j = (r : EReal))
    (hrm1 : ∀ j, ∃ r : ℝ, rm1 j = (r : EReal)) (hrv1 : ∀ j, ∃ r : ℝ, rv1 j = (r : EReal))
    (hrv0_nn : ∀ j, 0 ≤ rv0 j) (hrv1_nn : ∀ j, 0 ≤ rv1 j) :
    kNet src dst eps x Wn0 b0 Ws0 Wn1 b1 Ws1 Wn2 b2 Ws2 g0 be0 rm0 rv0 g1 be1 rm1 rv1
      = rNet src dst eps x Wn0 b0 Ws0 Wn1 b1 Ws1 Wn2 b2 Ws2 g0 be0 rm0 rv0 g1 be1 rm1 rv1 := by
  obtain ⟨e, he, rfl⟩ := heps
  choose x' hx' using hx
  choose Wn0' hWn0' using hWn0
  choose b0' hb0' using hb0
  choose Ws0' hWs0' using hWs0
  choose Wn1' hWn1' using hWn1
  choose b1' hb1' using hb1
  choose Ws1' hWs1' using hWs1
  choose Wn2' hWn2' using hWn2
  choose b2' hb2' using hb2
  choose Ws2' hWs2' using hWs2
  choose g0' hg0' using hg0
  choose be0' hbe0' using hbe0
  choose rm0' hrm0' using hrm0
  choose rv0' hrv0' using hrv0
  choose g1' hg1' using hg1
  choose be1' hbe1' using hbe1
  choose rm1' hrm1' using hrm1
  choose rv1' hrv1' using hrv1
  have hp0 : ∀ j, 0 < rv0' j + e := fun j => by
    have hnn := hrv0_nn j
    rw [hrv0' j] at hnn
    exact add_pos_of_nonneg_of_pos (EReal.coe_nonneg.mp hnn) he
  have hp1 : ∀ j, 0 < rv1' j + e := fun j => by
    have hnn := hrv1_nn j
    rw [hrv1' j] at hnn
    exact add_pos_of_nonneg_of_pos (EReal.coe_nonneg.mp hnn) he
  obtain rfl : x = fun i k => (x' i k : EReal) := funext fun i => funext fun k => hx' i k
  obtain rfl : Wn0 = fun k j => (Wn0' k j : EReal) := funext fun k => funext fun j => hWn0' k j
  obtain rfl : b0 = fun j => (b0' j : EReal) := funext fun j => hb0' j
  obtain rfl : Ws0 = fun k j => (Ws0' k j : EReal) := funext fun k => funext fun j => hWs0' k j
  obtain rfl : Wn1 = fun k j => (Wn1' k j : EReal) := funext fun k => funext fun j => hWn1' k j
  obtain rfl : b1 = fun j => (b1' j : EReal) := funext fun j => hb1' j
  obtain rfl : Ws1 = fun k j => (Ws1' k j : EReal) := funext fun k => funext fun j => hWs1' k j
  obtain rfl : Wn2 = fun k j => (Wn2' k j : EReal) := funext fun k => funext fun j => hWn2' k j
  obtain rfl : b2 = fun j => (b2' j : EReal) := funext fun j => hb2' j
  obtain rfl : Ws2 = fun k j => (Ws2' k j : EReal) := funext fun k => funext fun j => hWs2' k j
  obtain rfl : g0 = fun j => (g0' j : EReal) := funext fun j => hg0' j
  obtain rfl : be0 = fun j => (be0' j : EReal) := funext fun j => hbe0' j
  obtain rfl : rm0 = fun j => (rm0' j : EReal) := funext fun j => hrm0' j
  obtain rfl : rv0 = fun j => (rv0' j : EReal) := funext fun j => hrv0' j
  obtain rfl : g1 = fun j => (g1' j : EReal) := funext fun j => hg1' j
  obtain rfl : be1 = fun j => (be1' j : EReal) := funext fun j => hbe1' j
  obtain rfl : rm1 = fun j => (rm1' j : EReal) := funext fun j => hrm1' j
  obtain rfl : rv1 = fun j => (rv1' j : EReal) := funext fun j => hrv1' j
  unfold kNet rNet kHidden2 rHidden2 kHidden1 rHidden1
  rw [kHidden_coe src dst e x' Wn0' Ws0' b0' g0' be0' rm0' rv0' hp0,
    rHidden_coe src dst e x' Wn0' Ws0' b0' g0' be0' rm0' rv0' hp0,
    kHidden_coe src dst e (realHidden src dst e x' Wn0' Ws0' b0' g0' be0' rm0' rv0') Wn1' Ws1' b1' g1' be1' rm1' rv1'
      hp1,
    rHidden_coe src dst e (realHidden src dst e x' Wn0' Ws0' b0' g0' be0' rm0' rv0') Wn1' Ws1' b1' g1' be1' rm1' rv1'
      hp1]
  exact kLast_eq_rLayer src dst _ Wn2' Ws2' b2'

end Cert.Sage

end
-- ==== Proof.PreFacts.lean ====
/-
  What the precondition says of the inputs: every float input is a real number at every entry, both running variances
  are non-negative, and every source word of the edge list reads, signed, as a node number.
-/
import proofs.«420429_j56581899157895_2_alg».proof.Pre_finite_inputs
import proofs.«420429_j56581899157895_2_alg».proof.Proof.Gen.Pre_finite_inputs
import proofs.«420429_j56581899157895_2_alg».proof.Proof.Spec
import Idealize.ShloMosaic.Lib.ReduceAll

noncomputable section

namespace Cert.Sage

open Idealize.ShloMosaic Idealize.ShloMosaic.ValueIdx

/-! ## One element, then one array -/

open Cert.Pre_finite_inputs in
/-- The rank-0 shape has one index. -/
instance : Subsingleton S_.Idx := ⟨fun a b => funext fun d => d.elim0⟩

/-- A Boolean as a one-bit word is 1 exactly when it is true. -/
theorem ofBool_one {b : Bool} : BitVec.ofBool b = 1#1 ↔ b = true := by cases b <;> decide

/-- The pattern of positive zero denotes 0. -/
theorem zero_f32 : Ideal.ofBits .f32 0x00000000#32 = (0 : EReal) := by
  simp [Ideal.ofBits, Ideal.ieee]

/-- The pattern with all exponent bits set and no fraction bit denotes +∞. -/
theorem top_f32 : Ideal.ofBits .f32 0x7F800000#32 = (⊤ : EReal) := by
  simp [Ideal.ofBits, Ideal.ieee]

/-- An extended real whose absolute value max(x, −x) is below +∞ is a real number. -/
theorem real_of_abs_lt_top {x : EReal}
    (h : Ideal.cmp .olt (max x (-x)) (Ideal.ofBits .f32 0x7F800000#32) = 1#1) : ∃ r : ℝ, x = (r : EReal) := by
  rw [top_f32] at h
  have h' : max x (-x) < ⊤ := by
    simpa [Ideal.cmp, ofBool_one] using h
  induction x using EReal.rec with
  | bot => simp at h'
  | coe r => exact ⟨r, rfl⟩
  | top => simp at h'

/-- The comparison x ≥ 0, read back. -/
theorem nonneg_of_oge_zero {x : EReal}
    (h : Ideal.cmp .oge x (Ideal.ofBits .f32 0x00000000#32) = 1#1) : 0 ≤ x := by
  rw [zero_f32] at h
  simpa [Ideal.cmp, ofBool_one] using h

/-- Every entry is a real number. -/
abbrev AllReal {s : Shape} (a : FVec Ideal s .f32) : Prop := ∀ i, ∃ r : ℝ, a i = (r : EReal)
/-- Every entry is at least 0. -/
abbrev AllNonneg {s : Shape} (a : FVec Ideal s .f32) : Prop := ∀ i, 0 ≤ a i
/-- Every word reads, signed, in [0, 100000). -/
abbrev AllInRange {s : Shape} (w : IVec s 32) : Prop := ∀ i, 0 ≤ (w i).toInt ∧ (w i).toInt < 100000

section Arrays

open Cert.Pre_finite_inputs

variable {s : Shape} {axes : List (Fin s.rank)}

/-- A conjunction of one-bit arrays that is 1 at an index has both operands 1 there. -/
theorem vandi_one (x y : IVec s 1) (i : s.Idx) (h : andi x y i = 1#1) : x i = 1#1 ∧ y i = 1#1 :=
  IntOp.andi_eq_one.1 h

/-- all(|a| < +∞) = 1 makes every entry of a a real number. -/
theorem finite_all' (a : FVec Ideal s .f32) (c : FVec Ideal s .f32) (hc : ∀ i, c i = Ideal.ofBits .f32 0x7F800000#32)
    (init : IVec S_ 1) (hr : s.ReducesTo axes S_) (hu : 0 < S_.numel)
    (e : Host.reduce IntOp.andi (cmpf .olt (Host.absf a) c) init hr hu ix0 = 1#1) : AllReal a := fun i => by
  have h1 : Ideal.cmp .olt (max (a i) (-(a i))) (c i) = 1#1 := Host.reduce_andi_all _ _ hr hu ix0 e i
  rw [hc i] at h1
  exact real_of_abs_lt_top h1

/-- The same with the bound written as the broadcast of the constant. -/
theorem finite_all (a : FVec Ideal s .f32)
    (hb : S_.BroadcastsInDim s (![] : Fin 0 → Fin s.rank)) (init : IVec S_ 1) (hr : s.ReducesTo axes S_) (hu : 0 < S_.numel)
    (e : Host.reduce IntOp.andi (cmpf .olt (Host.absf a) (broadcastInDim s ![] hb (constant S_ .f32 0x7F800000#32)))
      init hr hu ix0 = 1#1) : AllReal a :=
  finite_all' a _ (fun _ => rfl) init hr hu e

/-- all(a ≥ 0) = 1 makes every entry of a at least 0. -/
theorem nonneg_all (a : FVec Ideal s .f32)
    (hb : S_.BroadcastsInDim s (![] : Fin 0 → Fin s.rank)) (init : IVec S_ 1) (hr : s.ReducesTo axes S_) (hu : 0 < S_.numel)
    (e : Host.reduce IntOp.andi (cmpf .oge a (broadcastInDim s ![] hb (constant S_ .f32 0x00000000#32)))
      init hr hu ix0 = 1#1) : AllNonneg a := fun i =>
  nonneg_of_oge_zero (Host.reduce_andi_all _ _ hr hu ix0 e i)

/-- all((w ≥ 0) & (w < 100000)) = 1, signed, puts every word of w in [0, 100000). -/
theorem range_all (w : IVec s 32)
    (hb : S_.BroadcastsInDim s (![] : Fin 0 → Fin s.rank)) (init : IVec S_ 1) (hr : s.ReducesTo axes S_) (hu : 0 < S_.numel)
    (e : Host.reduce IntOp.andi
      (andi (cmpi .sge w (broadcastInDim s ![] hb (constantI S_ 32 0#32)))
        (cmpi .slt w (broadcastInDim s ![] hb (constantI S_ 32 100000#32))))
      init hr hu ix0 = 1#1) : AllInRange w := fun i => by
  have h1 : IntOp.andi (IntOp.cmpi .sge (w i) 0#32) (IntOp.cmpi .slt (w i) 100000#32) = 1#1 :=
    Host.reduce_andi_all _ _ hr hu ix0 e i
  obtain ⟨h0, h2⟩ := IntOp.andi_eq_one.1 h1
  have a0 := IntOp.cmpi_sge.1 h0
  have a1 := IntOp.cmpi_slt.1 h2
  have z0 : (0#32 : BitVec 32).toInt = 0 := by decide
  have z1 : (100000#32 : BitVec 32).toInt = 100000 := by decide
  rw [z0] at a0; rw [z1] at a1
  exact ⟨a0, a1⟩

end Arrays

/-! ## The printed chain, part by part from its end

Each part's result is the conjunction of the bit it is handed with the reductions it computes, then the later parts'; so a
part that is 1 gives that bit and its own facts, and the next part's. -/

section Parts

open Cert.Pre_finite_inputs

/-- The source words as the chain computes them: row 0 of the edge list, reshaped to rank 1. -/
abbrev srcWords (a1 : IVec S2x1600000 32) : IVec S1600000 32 :=
  shapeCast S1600000 (extractStridedSlice S1x1600000 ![0, 0] a1 Facts.slices_S2x1600000_S1x1600000_0_0)
    Facts.shapeCasts_S1x1600000_S1600000

theorem part6 (a18 : FVec Ideal S128 .f32) (v99 v102 : IVec S_ 1)
    (h : fn_part6 (F := Ideal) a18 v99 v102 ix0 = 1#1) :
    v99 ix0 = 1#1 ∧ v102 ix0 = 1#1 ∧ AllNonneg a18 := by
  dsimp only [fn_part6] at h
  obtain ⟨h1, h2⟩ := vandi_one _ _ _ h
  obtain ⟨h3, h4⟩ := vandi_one _ _ _ h1
  exact ⟨h3, h4, nonneg_all a18 _ _ _ _ h2⟩

theorem part5 (a1 : IVec S2x1600000 32) (a14 a18 : FVec Ideal S128 .f32) (v83 : IVec S_ 1)
    (h : fn_part5 (F := Ideal) a1 a14 a18 v83 (Host.absf a18) (constant S_ .f32 0x7F800000#32) ix0 = 1#1) :
    v83 ix0 = 1#1 ∧ AllReal a18 ∧ AllInRange (srcWords a1) ∧ AllNonneg a14 ∧ AllNonneg a18 := by
  dsimp only [fn_part5] at h
  obtain ⟨h99, h102, n18⟩ := part6 _ _ _ h
  obtain ⟨h88, h98⟩ := vandi_one _ _ _ h99
  obtain ⟨h83, h87⟩ := vandi_one _ _ _ h88
  exact ⟨h83, finite_all a18 _ _ _ _ h87, range_all (srcWords a1) _ _ _ _ h98, nonneg_all a14 _ _ _ _ h102, n18⟩

theorem part4 (a1 : IVec S2x1600000 32) (a14 a15 a16 a17 a18 : FVec Ideal S128 .f32) (v63 v67 : IVec S_ 1)
    (h : fn_part4 (F := Ideal) a1 a14 a15 a16 a17 a18 v63 v67 ix0 = 1#1) :
    v63 ix0 = 1#1 ∧ v67 ix0 = 1#1 ∧ AllReal a15 ∧ AllReal a16 ∧ AllReal a17 ∧ AllReal a18 ∧
      AllInRange (srcWords a1) ∧ AllNonneg a14 ∧ AllNonneg a18 := by
  dsimp only [fn_part4] at h
  obtain ⟨h83, tail⟩ := part5 _ _ _ _ h
  obtain ⟨h78, h82⟩ := vandi_one _ _ _ h83
  obtain ⟨h73, h77⟩ := vandi_one _ _ _ h78
  obtain ⟨h68, h72⟩ := vandi_one _ _ _ h73
  obtain ⟨h63, h67⟩ := vandi_one _ _ _ h68
  exact ⟨h63, h67, finite_all a15 _ _ _ _ h72, finite_all a16 _ _ _ _ h77, finite_all a17 _ _ _ _ h82, tail⟩

theorem part3 (a1 : IVec S2x1600000 32) (a11 a12 a13 a14 a15 a16 a17 a18 : FVec Ideal S128 .f32) (v48 : IVec S_ 1)
    (h : fn_part3 (F := Ideal) a1 a12 a13 a14 a15 a16 a17 a18 v48 (Host.absf a11)
      (broadcastInDim S128 ![] Facts.bcast_S_S128 (constant S_ .f32 0x7F800000#32)) ix0 = 1#1) :
    v48 ix0 = 1#1 ∧ AllReal a11 ∧ AllReal a12 ∧ AllReal a13 ∧ AllReal a14 ∧ AllReal a15 ∧ AllReal a16 ∧ AllReal a17 ∧
      AllReal a18 ∧ AllInRange (srcWords a1) ∧ AllNonneg a14 ∧ AllNonneg a18 := by
  dsimp only [fn_part3] at h
  obtain ⟨h63, h67, tail⟩ := part4 _ _ _ _ _ _ _ _ h
  obtain ⟨h58, h62⟩ := vandi_one _ _ _ h63
  obtain ⟨h53, h57⟩ := vandi_one _ _ _ h58
  obtain ⟨h48, h52⟩ := vandi_one _ _ _ h53
  exact ⟨h48, finite_all a11 _ _ _ _ h52, finite_all a12 _ _ _ _ h57, finite_all a13 _ _ _ _ h62,
    finite_all a14 _ _ _ _ h67, tail⟩

theorem part2 (a1 : IVec S2x1600000 32) (a8 : FVec Ideal S128x16 .f32) (a9 : FVec Ideal S16 .f32)
    (a10 : FVec Ideal S128x16 .f32) (a11 a12 a13 a14 a15 a16 a17 a18 : FVec Ideal S128 .f32) (v33 : IVec S_ 1)
    (h : fn_part2 (F := Ideal) a1 a8 a9 a10 a11 a12 a13 a14 a15 a16 a17 a18 v33 ix0 = 1#1) :
    v33 ix0 = 1#1 ∧ AllReal a8 ∧ AllReal a9 ∧ AllReal a10 ∧ AllReal a11 ∧ AllReal a12 ∧ AllReal a13 ∧ AllReal a14 ∧
      AllReal a15 ∧ AllReal a16 ∧ AllReal a17 ∧ AllReal a18 ∧ AllInRange (srcWords a1) ∧ AllNonneg a14 ∧ AllNonneg a18 := by
  dsimp only [fn_part2] at h
  obtain ⟨h48, tail⟩ := part3 _ _ _ _ _ _ _ _ _ _ h
  obtain ⟨h43, h47⟩ := vandi_one _ _ _ h48
  obtain ⟨h38, h42⟩ := vandi_one _ _ _ h43
  obtain ⟨h33, h37⟩ := vandi_one _ _ _ h38
  exact ⟨h33, finite_all a8 _ _ _ _ h37, finite_all a9 _ _ _ _ h42, finite_all a10 _ _ _ _ h47, tail⟩

theorem part1 (a1 : IVec S2x1600000 32) (a4 a5 : FVec Ideal S128x128 .f32) (a6 : FVec Ideal S128 .f32)
    (a7 : FVec Ideal S128x128 .f32) (a8 : FVec Ideal S128x16 .f32) (a9 : FVec Ideal S16 .f32)
    (a10 : FVec Ideal S128x16 .f32) (a11 a12 a13 a14 a15 a16 a17 a18 : FVec Ideal S128 .f32) (v13 : IVec S_ 1)
    (h : fn_part1 (F := Ideal) a1 a5 a6 a7 a8 a9 a10 a11 a12 a13 a14 a15 a16 a17 a18 v13
      (cmpf .olt (Host.absf a4) (broadcastInDim S128x128 ![] Facts.bcast_S_S128x128 (constant S_ .f32 0x7F800000#32)))
      ix0 = 1#1) :
    v13 ix0 = 1#1 ∧ AllReal a4 ∧ AllReal a5 ∧ AllReal a6 ∧ AllReal a7 ∧ AllReal a8 ∧ AllReal a9 ∧ AllReal a10 ∧
      AllReal a11 ∧ AllReal a12 ∧ AllReal a13 ∧ AllReal a14 ∧ AllReal a15 ∧ AllReal a16 ∧ AllReal a17 ∧ AllReal a18 ∧
      AllInRange (srcWords a1) ∧ AllNonneg a14 ∧ AllNonneg a18 := by
  dsimp only [fn_part1] at h
  obtain ⟨h33, tail⟩ := part2 _ _ _ _ _ _ _ _ _ _ _ _ _ h
  obtain ⟨h28, h32⟩ := vandi_one _ _ _ h33
  obtain ⟨h23, h27⟩ := vandi_one _ _ _ h28
  obtain ⟨h18, h22⟩ := vandi_one _ _ _ h23
  obtain ⟨h13, h17⟩ := vandi_one _ _ _ h18
  exact ⟨h13, finite_all a4 _ _ _ _ h17, finite_all a5 _ _ _ _ h22, finite_all a6 _ _ _ _ h27,
    finite_all a7 _ _ _ _ h32, tail⟩

end Parts

/-- The facts about the nineteen inputs (in the order of the network's arguments; a1 is the edge list) that the
    equality of the two forms rests on. -/
structure InputFacts (a0 : FVec Ideal (⟨2, ![nodes, 128]⟩ : Shape) .f32) (a1 : EdgeArr)
    (a2 : FVec Ideal (⟨2, ![128, 128]⟩ : Shape) .f32) (a3 : FVec Ideal (⟨1, ![128]⟩ : Shape) .f32)
    (a4 a5 : FVec Ideal (⟨2, ![128, 128]⟩ : Shape) .f32) (a6 : FVec Ideal (⟨1, ![128]⟩ : Shape) .f32)
    (a7 : FVec Ideal (⟨2, ![128, 128]⟩ : Shape) .f32) (a8 : FVec Ideal (⟨2, ![128, 16]⟩ : Shape) .f32)
    (a9 : FVec Ideal (⟨1, ![16]⟩ : Shape) .f32) (a10 : FVec Ideal (⟨2, ![128, 16]⟩ : Shape) .f32)
    (a11 a12 a13 a14 a15 a16 a17 a18 : FVec Ideal (⟨1, ![128]⟩ : Shape) .f32)
    (hs : (⟨2, ![2, edges]⟩ : Shape).Slices ![0, 0] ⟨2, ![1, edges]⟩)
    (hc : (⟨2, ![1, edges]⟩ : Shape).ShapeCasts ⟨1, ![edges]⟩) : Prop where
  hx : ∀ i k, ∃ r : ℝ, at2 a0 i k = (r : EReal)
  hWn0 : ∀ k j, ∃ r : ℝ, at2 a2 k j = (r : EReal)
  hb0 : ∀ j, ∃ r : ℝ, at1 a3 j = (r : EReal)
  hWs0 : ∀ k j, ∃ r : ℝ, at2 a4 k j = (r : EReal)
  hWn1 : ∀ k j, ∃ r : ℝ, at2 a5 k j = (r : EReal)
  hb1 : ∀ j, ∃ r : ℝ, at1 a6 j = (r : EReal)
  hWs1 : ∀ k j, ∃ r : ℝ, at2 a7 k j = (r : EReal)
  hWn2 : ∀ k j, ∃ r : ℝ, at2 a8 k j = (r : EReal)
  hb2 : ∀ j, ∃ r : ℝ, at1 a9 j = (r : EReal)
  hWs2 : ∀ k j, ∃ r : ℝ, at2 a10 k j = (r : EReal)
  hg0 : ∀ j, ∃ r : ℝ, at1 a11 j = (r : EReal)
  hbe0 : ∀ j, ∃ r : ℝ, at1 a12 j = (r : EReal)
  hrm0 : ∀ j, ∃ r : ℝ, at1 a13 j = (r : EReal)
  hrv0 : ∀ j, ∃ r : ℝ, at1 a14 j = (r : EReal)
  hg1 : ∀ j, ∃ r : ℝ, at1 a15 j = (r : EReal)
  hbe1 : ∀ j, ∃ r : ℝ, at1 a16 j = (r : EReal)
  hrm1 : ∀ j, ∃ r : ℝ, at1 a17 j = (r : EReal)
  hrv1 : ∀ j, ∃ r : ℝ, at1 a18 j = (r : EReal)
  hrv0_nn : ∀ j, 0 ≤ at1 a14 j
  hrv1_nn : ∀ j, 0 ≤ at1 a18 j
  hsrc : ∀ e, 0 ≤ (srcOf a1 hs hc e).toInt ∧ (srcOf a1 hs hc e).toInt < (nodes : ℤ)

/-- The printed precondition, all ones on the nineteen inputs, gives those facts. -/
theorem inputFacts_of_pre (a0 : FVec Ideal (⟨2, ![nodes, 128]⟩ : Shape) .f32) (a1 : EdgeArr)
    (a2 : FVec Ideal (⟨2, ![128, 128]⟩ : Shape) .f32) (a3 : FVec Ideal (⟨1, ![128]⟩ : Shape) .f32)
    (a4 a5 : FVec Ideal (⟨2, ![128, 128]⟩ : Shape) .f32) (a6 : FVec Ideal (⟨1, ![128]⟩ : Shape) .f32)
    (a7 : FVec Ideal (⟨2, ![128, 128]⟩ : Shape) .f32) (a8 : FVec Ideal (⟨2, ![128, 16]⟩ : Shape) .f32)
    (a9 : FVec Ideal (⟨1, ![16]⟩ : Shape) .f32) (a10 : FVec Ideal (⟨2, ![128, 16]⟩ : Shape) .f32)
    (a11 a12 a13 a14 a15 a16 a17 a18 : FVec Ideal (⟨1, ![128]⟩ : Shape) .f32)
    (hs : (⟨2, ![2, edges]⟩ : Shape).Slices ![0, 0] ⟨2, ![1, edges]⟩)
    (hc : (⟨2, ![1, edges]⟩ : Shape).ShapeCasts ⟨1, ![edges]⟩)
    (h : Cert.Pre_finite_inputs.fn (F := Ideal) a0 a1 a2 a3 a4 a5 a6 a7 a8 a9 a10 a11 a12 a13 a14 a15 a16 a17 a18
      = (fun _ => 1#1)) :
    InputFacts a0 a1 a2 a3 a4 a5 a6 a7 a8 a9 a10 a11 a12 a13 a14 a15 a16 a17 a18 hs hc := by
  have h0 := congrFun h ix0
  dsimp only [Cert.Pre_finite_inputs.fn] at h0
  obtain ⟨h13, r4, r5, r6, r7, r8, r9, r10, r11, r12, r13, r14, r15, r16, r17, r18, sr, n14, n18⟩ :=
    part1 _ _ _ _ _ _ _ _ _ _ _ _ _ _ _ _ _ h0
  obtain ⟨h8, h12⟩ := vandi_one _ _ _ h13
  obtain ⟨h3, h7⟩ := vandi_one _ _ _ h8
  have r0 := finite_all a0 _ _ _ _ h3
  have r2 := finite_all a2 _ _ _ _ h7
  have r3 := finite_all a3 _ _ _ _ h12
  exact
    { hx := fun i k => r0 (ix2 i k), hWn0 := fun k j => r2 (ix2 k j), hb0 := fun j => r3 (ix1 j),
      hWs0 := fun k j => r4 (ix2 k j), hWn1 := fun k j => r5 (ix2 k j), hb1 := fun j => r6 (ix1 j),
      hWs1 := fun k j => r7 (ix2 k j), hWn2 := fun k j => r8 (ix2 k j), hb2 := fun j => r9 (ix1 j),
      hWs2 := fun k j => r10 (ix2 k j), hg0 := fun j => r11 (ix1 j), hbe0 := fun j => r12 (ix1 j),
      hrm0 := fun j => r13 (ix1 j), hrv0 := fun j => r14 (ix1 j), hg1 := fun j => r15 (ix1 j),
      hbe1 := fun j => r16 (ix1 j), hrm1 := fun j => r17 (ix1 j), hrv1 := fun j => r18 (ix1 j),
      hrv0_nn := fun j => n14 (ix1 j), hrv1_nn := fun j => n18 (ix1 j),
      hsrc := fun e => sr (ix1 e) }

end Cert.Sage

end
-- ==== Proof.KNames.lean ====
/-
  Names for the kernel program's data: its nineteen argument arrays at their literal shapes, the source and destination
  words of the edge list, the arrays its first host stretch computes once and later regions read (the in-degree column,
  the two folded scale and shift vectors, a vector of ones and one of zeros), and the three layer outputs as the arrays
  found at the segment boundaries after each combine region.
-/
import proofs.«420429_j56581899157895_2_alg».proof.Proof.Gen.KernelIdeal.Frame
import proofs.«420429_j56581899157895_2_alg».proof.Proof.Spec
import proofs.«420429_j56581899157895_2_alg».proof.Proof.Eps

set_option maxRecDepth 16384

noncomputable section

namespace Cert.KernelIdeal.SageNames

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-! ## The arguments -/

abbrev aX (c : Dev nD) : FVec Ideal S100000x128 .f32 := m ((c.tc : Thread nD τ).loc main_arg0)
abbrev aE (c : Dev nD) : IVec S2x1600000 32 := m ((c.tc : Thread nD τ).loc main_arg1)
abbrev aWn0 (c : Dev nD) : FVec Ideal S128x128 .f32 := m ((c.tc : Thread nD τ).loc main_arg2)
abbrev aB0 (c : Dev nD) : FVec Ideal S128 .f32 := m ((c.tc : Thread nD τ).loc main_arg3)
abbrev aWs0 (c : Dev nD) : FVec Ideal S128x128 .f32 := m ((c.tc : Thread nD τ).loc main_arg4)
abbrev aWn1 (c : Dev nD) : FVec Ideal S128x128 .f32 := m ((c.tc : Thread nD τ).loc main_arg5)
abbrev aB1 (c : Dev nD) : FVec Ideal S128 .f32 := m ((c.tc : Thread nD τ).loc main_arg6)
abbrev aWs1 (c : Dev nD) : FVec Ideal S128x128 .f32 := m ((c.tc : Thread nD τ).loc main_arg7)
abbrev aWn2 (c : Dev nD) : FVec Ideal S128x16 .f32 := m ((c.tc : Thread nD τ).loc main_arg8)
abbrev aB2 (c : Dev nD) : FVec Ideal S16 .f32 := m ((c.tc : Thread nD τ).loc main_arg9)
abbrev aWs2 (c : Dev nD) : FVec Ideal S128x16 .f32 := m ((c.tc : Thread nD τ).loc main_arg10)
abbrev aG0 (c : Dev nD) : FVec Ideal S128 .f32 := m ((c.tc : Thread nD τ).loc main_arg11)
abbrev aBe0 (c : Dev nD) : FVec Ideal S128 .f32 := m ((c.tc : Thread nD τ).loc main_arg12)
abbrev aRm0 (c : Dev nD) : FVec Ideal S128 .f32 := m ((c.tc : Thread nD τ).loc main_arg13)
abbrev aRv0 (c : Dev nD) : FVec Ideal S128 .f32 := m ((c.tc : Thread nD τ).loc main_arg14)
abbrev aG1 (c : Dev nD) : FVec Ideal S128 .f32 := m ((c.tc : Thread nD τ).loc main_arg15)
abbrev aBe1 (c : Dev nD) : FVec Ideal S128 .f32 := m ((c.tc : Thread nD τ).loc main_arg16)
abbrev aRm1 (c : Dev nD) : FVec Ideal S128 .f32 := m ((c.tc : Thread nD τ).loc main_arg17)
abbrev aRv1 (c : Dev nD) : FVec Ideal S128 .f32 := m ((c.tc : Thread nD τ).loc main_arg18)

/-! ## The edge words -/

/-- Row 0 of the edge list as a rank-1 array of words: the sources. -/
abbrev srcArr (c : Dev nD) : IVec S1600000 32 :=
  shapeCast S1600000 (extractStridedSlice S1x1600000 ![0, 0] (aE m c) slices_S2x1600000_S1x1600000_0_0)
    shapeCasts_S1x1600000_S1600000
/-- Row 1 of the edge list as a rank-1 array of words: the destinations. -/
abbrev dstArr (c : Dev nD) : IVec S1600000 32 :=
  shapeCast S1600000 (extractStridedSlice S1x1600000 ![1, 0] (aE m c) slices_S2x1600000_S1x1600000_1_0)
    shapeCasts_S1x1600000_S1600000
/-- The source word of each edge. -/
abbrev srcW (c : Dev nD) : Fin Cert.Sage.edges → BitVec 32 :=
  Cert.Sage.srcOf (aE m c) slices_S2x1600000_S1x1600000_0_0 shapeCasts_S1x1600000_S1600000
/-- The destination word of each edge. -/
abbrev dstW (c : Dev nD) : Fin Cert.Sage.edges → BitVec 32 :=
  Cert.Sage.dstOf (aE m c) slices_S2x1600000_S1x1600000_1_0 shapeCasts_S1x1600000_S1600000

theorem srcArr_apply (c : Dev nD) (e : Fin 1600000) : srcArr m c (ix1 e) = srcW m c e := rfl
theorem dstArr_apply (c : Dev nD) (e : Fin 1600000) : dstArr m c (ix1 e) = dstW m c e := rfl

/-! ## What the first host stretch computes, as the operations it applies to the arguments -/

/-- The in-degree column: ones scattered and summed at the destination words, into zeros. -/
abbrev cntArr (c : Dev nD) : FVec Ideal S100000x1 .f32 :=
  Host.scatterAdd scatter_S100000x1_S1600000x1_S1600000x1_1_0_0_1
    (broadcastInDim S100000x1 ![] bcast_S_S100000x1 (constant (F := Ideal) S_ .f32 0x00000000#32))
    (broadcastInDim S1600000x1 ![0] bcast_S1600000_S1600000x1_0 (dstArr m c))
    (broadcastInDim S1600000x1 ![] bcast_S_S1600000x1 (constant (F := Ideal) S_ .f32 0x3F800000#32))
/-- The first normalisation's factor. -/
abbrev scale0Arr (c : Dev nD) : FVec Ideal S128 .f32 :=
  mulf (aG0 m c) (Host.rsqrt (addf (aRv0 m c) (broadcastInDim S128 ![] bcast_S_S128 (constant (F := Ideal) S_ .f32 0x3727C5AC#32))))
/-- The first normalisation's offset. -/
abbrev shift0Arr (c : Dev nD) : FVec Ideal S128 .f32 := subf (aBe0 m c) (mulf (aRm0 m c) (scale0Arr m c))
/-- The second normalisation's factor. -/
abbrev scale1Arr (c : Dev nD) : FVec Ideal S128 .f32 :=
  mulf (aG1 m c) (Host.rsqrt (addf (aRv1 m c) (broadcastInDim S128 ![] bcast_S_S128 (constant (F := Ideal) S_ .f32 0x3727C5AC#32))))
/-- The second normalisation's offset. -/
abbrev shift1Arr (c : Dev nD) : FVec Ideal S128 .f32 := subf (aBe1 m c) (mulf (aRm1 m c) (scale1Arr m c))
/-- Sixteen ones: the last layer's factor. -/
abbrev oneArr : FVec Ideal S16 .f32 := broadcastInDim S16 ![] bcast_S_S16 (constant (F := Ideal) S_ .f32 0x3F800000#32)
/-- Sixteen zeros: the last layer's offset. -/
abbrev zeroArr : FVec Ideal S16 .f32 := broadcastInDim S16 ![] bcast_S_S16 (constant (F := Ideal) S_ .f32 0x00000000#32)

/-! ## The layer outputs, at the boundaries after the combine regions -/

/-- The first hidden layer: the array after region 1. -/
abbrev h1A (c : Dev nD) : FVec Ideal S100000x128 .f32 := W5 m ρ c (Proc.devRef .tc main_v30)
/-- The second hidden layer: the array after region 3. -/
abbrev h2A (c : Dev nD) : FVec Ideal S100000x128 .f32 := W9 m ρ c (Proc.devRef .tc main_v39)
/-- The result: the array after region 5. -/
abbrev outA (c : Dev nD) : FVec Ideal S100000x16 .f32 := W13 m ρ c (Proc.devRef .tc main_v48)

end Cert.KernelIdeal.SageNames

end
-- ==== Proof.Rows.lean ====
/-
  A gather of whole rows and an accumulating scatter of whole rows, read at one element.

  The table has N rows of C columns; there is one start index per edge, held as an E × 1 column of words. The gather
  takes, for edge e, the table's row at the word read signed and clamped into the table. The scatter-add leaves, at
  (i, j), the operand's element plus the sum over the edges whose word reads signed as i of the update's (e, j): an edge
  whose word is outside the table contributes nowhere.
-/
import Idealize.ShloMosaic.PureOps.Ideal
import Idealize.ShloMosaic.Lib.ValueIdx

noncomputable section

open scoped BigOperators

namespace Cert.Sage

open Idealize.ShloMosaic Idealize.ShloMosaic.ValueIdx

/-- A position inside a list known to be a singleton holds that singleton's element. -/
private theorem getElem_of_eq_singleton {α : Type} {l : List α} {a : α} (h : l = [a]) (n : ℕ) (hn : n < l.length) :
    l[n] = a := by
  subst h
  have h0 : n = 0 := by simpa using hn
  subst h0
  rfl

/-- A row gather at (e, k) is the table at the row edge e's start word names (signed, clamped) and column k. The
    hypotheses are the dimension numbers of a gather along axis 0 with whole-row slices. -/
theorem gather_rows_apply {α : Type} {N C E w : ℕ} (hN : 0 < N)
    (d : GatherDims (⟨2, ![N, C]⟩ : Shape) ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec (⟨2, ![E, 1]⟩ : Shape) w) (e : Fin E) (k : Fin C) :
    Host.gather d x idx (ix2 e k)
      = x (ix2 (⟨min (idx (ix2 e (0 : Fin 1))).toInt.toNat (N - 1), by omega⟩ : Fin N) k) := by
  unfold Host.gather
  congr 1
  funext a
  apply Fin.ext
  have hb : ∀ a : Fin 2, a ∉ d.operandBatchingDims := fun a => by rw [hob]; exact List.not_mem_nil
  have hbd : d.batchDims = [0] := by
    show Shape.kept _ d.offsetDims = [0]
    rw [hoff]
    show (List.finRange 2).filter (fun a : Fin 2 => a ∉ ([1] : List (Fin 2))) = [0]
    decide
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start _ idx 0 + d.batchCoord _ 0 + d.offCoord _ 0 = min _ (N - 1)
    rw [GatherDims.batchCoord_eq_zero _ _ _ (hb 0), GatherDims.offCoord_eq_zero _ _ _ hk]
    simp only [Nat.add_zero]
    unfold GatherDims.start
    rw [dif_pos hm, hsl]
    show min (idx _).toInt.toNat (N - 1) = _
    congr 3
    congr 1
    funext b
    match b with
    | ⟨0, _⟩ =>
      unfold GatherDims.siIdx
      rw [dif_neg (by rw [hivd]; simp)]
      unfold GatherDims.siCoord
      apply Fin.ext
      simp only [Fin.val_cast]
      have key : ∀ X : Fin 2, X = 0 → ((ix2 e k : (⟨2, ![E, C]⟩ : Shape).Idx) X).val = e.val := fun X hX => by
        subst hX; rfl
      exact key _ (getElem_of_eq_singleton hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll]; exact ⟨by show (1 : Fin 2) ∉ ([0] : List (Fin 2)); decide, hb 1⟩
    have hm : (1 : Fin 2) ∉ d.startIndexMap := by rw [hsim]; show (1 : Fin 2) ∉ ([0] : List (Fin 2)); decide
    show d.start _ idx 1 + d.batchCoord _ 1 + d.offCoord _ 1 = k.val
    rw [GatherDims.batchCoord_eq_zero _ _ _ (hb 1), Nat.add_zero]
    unfold GatherDims.start GatherDims.offCoord
    rw [dif_neg hm, dif_pos hk, Nat.zero_add]
    have key : ∀ X : Fin 2, X = 1 → ((ix2 e k : (⟨2, ![E, C]⟩ : Shape).Idx) X).val = k.val := fun X hX => by
      subst hX; rfl
    exact key _ (getElem_of_eq_singleton hoff _ _)

/-- Where the update at (e, k) lands: at (i, j) exactly when edge e's word reads, signed, as i and k is j. On axis 0
    the start is the word and the window coordinate is 0 (the axis is inserted); on axis 1 the start is 0 and the window
    coordinate is k. -/
private theorem scatter_rows_lands {N C E w : ℕ}
    (d : ScatterDims (⟨2, ![N, C]⟩ : Shape) ⟨2, ![E, 1]⟩ ⟨2, ![E, C]⟩)
    (huw : d.updateWindowDims = [1]) (hiw : d.insertedWindowDims = [0]) (hsd : d.scatterDimsToOperandDims = [0])
    (hivd : d.indexVectorDim = 1) (idx : IVec (⟨2, ![E, 1]⟩ : Shape) w) (e : Fin E) (k : Fin C) (i : Fin N)
    (j : Fin C) :
    d.resultIdx? (ix2 e k) idx = some (ix2 i j) ↔ (idx (ix2 e (0 : Fin 1))).toInt = (i.val : ℤ) ∧ k = j := by
  have hus : d.uScatter = [0] := by
    show Shape.kept _ d.updateWindowDims = [0]
    rw [huw]
    show (List.finRange 2).filter (fun a : Fin 2 => a ∉ ([1] : List (Fin 2))) = [0]
    decide
  have hsk : d.sKept = [1] := by
    show Shape.kept _ d.insertedWindowDims = [1]
    rw [hiw]
    show (List.finRange 2).filter (fun a : Fin 2 => a ∉ ([0] : List (Fin 2))) = [1]
    decide
  have hm0 : (0 : Fin 2) ∈ d.scatterDimsToOperandDims := by rw [hsd]; exact List.mem_singleton.mpr rfl
  have hm1 : (1 : Fin 2) ∉ d.scatterDimsToOperandDims := by
    rw [hsd]; show (1 : Fin 2) ∉ ([0] : List (Fin 2)); decide
  have hk0 : (0 : Fin 2) ∉ d.sKept := by rw [hsk]; show (0 : Fin 2) ∉ ([1] : List (Fin 2)); decide
  have hk1 : (1 : Fin 2) ∈ d.sKept := by rw [hsk]; exact List.mem_singleton.mpr rfl
  have hs0 : d.start (ix2 e k) idx 0 = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have key : ∀ X : Fin 2, X = 0 → ((ix2 e k : (⟨2, ![E, C]⟩ : Shape).Idx) X).val = e.val := fun X hX => by
        subst hX; rfl
      exact key _ (getElem_of_eq_singleton hus _ _)
    | ⟨1, _⟩ =>
      unfold ScatterDims.siIdx
      rw [dif_pos (by rw [hivd])]
      apply Fin.ext
      show List.idxOf (0 : Fin 2) d.scatterDimsToOperandDims = 0
      rw [hsd]; simp
  have hs1 : d.start (ix2 e k) idx 1 = 0 := by
    unfold ScatterDims.start; rw [dif_neg hm1]
  have hw0 : d.window (ix2 e k) 0 = 0 := by
    unfold ScatterDims.window; rw [dif_neg hk0]
  have hw1 : d.window (ix2 e k) 1 = k.val := by
    unfold ScatterDims.window; rw [dif_pos hk1]
    have key : ∀ X : Fin 2, X = 1 → ((ix2 e k : (⟨2, ![E, C]⟩ : Shape).Idx) X).val = k.val := fun X hX => by
      subst hX; rfl
    exact key _ (getElem_of_eq_singleton huw _ _)
  unfold ScatterDims.resultIdx?
  constructor
  · intro h
    by_cases hall : ∀ a, 0 ≤ d.start (ix2 e k) idx a + d.window (ix2 e k) a ∧
        d.start (ix2 e k) idx a + d.window (ix2 e k) a < (⟨2, ![N, C]⟩ : Shape).size a
    · rw [dif_pos hall] at h
      have hf := Option.some.inj h
      have h0 : (d.start (ix2 e k) idx 0 + d.window (ix2 e k) 0).toNat = i.val := congrArg Fin.val (congrFun hf 0)
      have h1 : (d.start (ix2 e k) idx 1 + d.window (ix2 e k) 1).toNat = j.val := congrArg Fin.val (congrFun hf 1)
      have ha0 := (hall 0).1
      rw [hs0, hw0] at h0 ha0
      rw [hs1, hw1] at h1
      refine ⟨by omega, Fin.ext (by omega)⟩
    · rw [dif_neg hall] at h
      exact absurd h (by simp)
  · rintro ⟨h0, rfl⟩
    have hall : ∀ a, 0 ≤ d.start (ix2 e k) idx a + d.window (ix2 e k) a ∧
        d.start (ix2 e k) idx a + d.window (ix2 e k) a < (⟨2, ![N, C]⟩ : Shape).size a := by
      intro a
      match a with
      | ⟨0, _⟩ =>
        show 0 ≤ d.start (ix2 e k) idx 0 + (d.window (ix2 e k) 0 : ℕ) ∧
          d.start (ix2 e k) idx 0 + (d.window (ix2 e k) 0 : ℕ) < (N : ℤ)
        rw [hs0, hw0, h0]
        have := i.isLt
        constructor <;> omega
      | ⟨1, _⟩ =>
        show 0 ≤ d.start (ix2 e k) idx 1 + (d.window (ix2 e k) 1 : ℕ) ∧
          d.start (ix2 e k) idx 1 + (d.window (ix2 e k) 1 : ℕ) < (C : ℤ)
        rw [hs1, hw1]
        have := k.isLt
        constructor <;> omega
    rw [dif_pos hall]
    congr 1
    funext a
    apply Fin.ext
    match a with
    | ⟨0, _⟩ =>
      show (d.start (ix2 e k) idx 0 + (d.window (ix2 e k) 0 : ℕ)).toNat = i.val
      rw [hs0, hw0, h0]; omega
    | ⟨1, _⟩ =>
      show (d.start (ix2 e k) idx 1 + (d.window (ix2 e k) 1 : ℕ)).toNat = k.val
      rw [hs1, hw1]; omega

/-- An accumulating row scatter at (i, j): the operand's element plus the updates of the edges whose word reads,
    signed, as i, at column j. The hypotheses are the dimension numbers of a scatter along axis 0 of whole rows. -/
theorem scatterAdd_rows_apply {N C E w : ℕ}
    (d : ScatterDims (⟨2, ![N, C]⟩ : Shape) ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec (⟨2, ![E, 1]⟩ : Shape) w)
    (upd : (⟨2, ![E, C]⟩ : Shape).Idx → EReal) (i : Fin N) (j : Fin C) :
    Ideal.hostScatterAdd d x idx upd (ix2 i j)
      = x (ix2 i j) + ∑ e ∈ Finset.univ.filter (fun e : Fin E => (idx (ix2 e (0 : Fin 1))).toInt = (i.val : ℤ)),
          upd (ix2 e j) := by
  unfold Ideal.hostScatterAdd
  congr 1
  -- the updates that land at (i, j) are the (e, j) with e an edge whose word reads as i: re-index by the edge
  have hback : ∀ jj : (⟨2, ![E, C]⟩ : Shape).Idx, d.resultIdx? jj idx = some (ix2 i j) →
      (idx (ix2 (jj 0) (0 : Fin 1))).toInt = (i.val : ℤ) ∧ ix2 (jj 0) j = jj := by
    intro jj hjj
    obtain ⟨e, k, rfl⟩ : ∃ e k, jj = ix2 e k := ⟨jj 0, jj 1, eq_ix2 jj⟩
    obtain ⟨h0, rfl⟩ := (scatter_rows_lands d huw hiw hsd hivd idx e k i j).1 hjj
    exact ⟨h0, rfl⟩
  refine Finset.sum_bij' (fun jj _ => jj 0) (fun e _ => ix2 e j) ?_ ?_ ?_ ?_ ?_
  · intro jj hjj
    exact Finset.mem_filter.2 ⟨Finset.mem_univ _, (hback jj (Finset.mem_filter.1 hjj).2).1⟩
  · intro e he
    exact Finset.mem_filter.2 ⟨Finset.mem_univ _,
      (scatter_rows_lands d huw hiw hsd hivd idx e j i j).2 ⟨(Finset.mem_filter.1 he).2, rfl⟩⟩
  · intro jj hjj
    exact (hback jj (Finset.mem_filter.1 hjj).2).2
  · intro e _
    rfl
  · intro jj hjj
    exact congrArg upd (hback jj (Finset.mem_filter.1 hjj).2).2.symm

end Cert.Sage

end
-- ==== Proof.KStage0.lean ====
/-
  The first host stretch of the kernel program, read: after it the buffers it writes hold the source and destination
  words, the in-degree column, the two normalisations' folded factors and offsets, sixteen ones and sixteen zeros; and
  those arrays read at an index are the quantities the network's projected form is written in: the in-degree of node i,
  g·rsqrt(rv + ε), be − rm·(g·rsqrt(rv + ε)), one and zero.
-/
import proofs.«420429_j56581899157895_2_alg».proof.Proof.KNames
import proofs.«420429_j56581899157895_2_alg».proof.Proof.Rows
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.IdealHost
import Idealize.ShloMosaic.PureOps.Ideal.Laws

set_option maxRecDepth 16384

noncomputable section

open scoped BigOperators

namespace Cert.KernelIdeal.SageStage0

open Cert.KernelIdeal Cert.KernelIdeal.Gen Cert.KernelIdeal.SageNames Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-! ## The buffers after the first host stretch -/

theorem w1_src (c : Dev nD) : W1 m ρ c (Proc.devRef .tc main_v1) = srcArr m c := by
  show StableHlo.after hostOps0 (W0 m ρ c) (Proc.devRef .tc main_v1) = (srcArr m c : IVec S1600000 32)
  after_results
  rfl
theorem w1_dst (c : Dev nD) : W1 m ρ c (Proc.devRef .tc main_v3) = dstArr m c := by
  show StableHlo.after hostOps0 (W0 m ρ c) (Proc.devRef .tc main_v3) = (dstArr m c : IVec S1600000 32)
  after_results
  rfl
theorem w1_cnt (c : Dev nD) : W1 m ρ c (Proc.devRef .tc main_v7) = cntArr m c := by
  show StableHlo.after hostOps0 (W0 m ρ c) (Proc.devRef .tc main_v7) = (cntArr m c : FVec Ideal S100000x1 .f32)
  after_results
  rfl
theorem w1_scale0 (c : Dev nD) : W1 m ρ c (Proc.devRef .tc main_v11) = scale0Arr m c := by
  show StableHlo.after hostOps0 (W0 m ρ c) (Proc.devRef .tc main_v11) = (scale0Arr m c : FVec Ideal S128 .f32)
  after_results

theorem w1_shift0 (c : Dev nD) : W1 m ρ c (Proc.devRef .tc main_v13) = shift0Arr m c := by
  show StableHlo.after hostOps0 (W0 m ρ c) (Proc.devRef .tc main_v13) = (shift0Arr m c : FVec Ideal S128 .f32)
  after_results_simp <;> rfl

theorem w1_scale1 (c : Dev nD) : W1 m ρ c (Proc.devRef .tc main_v17) = scale1Arr m c := by
  show StableHlo.after hostOps0 (W0 m ρ c) (Proc.devRef .tc main_v17) = (scale1Arr m c : FVec Ideal S128 .f32)
  after_results

theorem w1_shift1 (c : Dev nD) : W1 m ρ c (Proc.devRef .tc main_v19) = shift1Arr m c := by
  show StableHlo.after hostOps0 (W0 m ρ c) (Proc.devRef .tc main_v19) = (shift1Arr m c : FVec Ideal S128 .f32)
  after_results_simp <;> rfl

theorem w1_one (c : Dev nD) : W1 m ρ c (Proc.devRef .tc main_v20) = oneArr := by
  show StableHlo.after hostOps0 (W0 m ρ c) (Proc.devRef .tc main_v20) = (oneArr : FVec Ideal S16 .f32)
  after_results

theorem w1_zero (c : Dev nD) : W1 m ρ c (Proc.devRef .tc main_v21) = zeroArr := by
  show StableHlo.after hostOps0 (W0 m ρ c) (Proc.devRef .tc main_v21) = (zeroArr : FVec Ideal S16 .f32)
  after_results

/-! ## Those arrays at an index -/

/-- Ones scattered and summed along axis 0 into a column of zeros, read at row i: the number of edges whose word reads,
    signed, as i (as a sum of ones). Stated at any extents, the column given by its three facts. -/
private theorem count_rows {N E w : ℕ} (d : ScatterDims (⟨2, ![N, 1]⟩ : Shape) ⟨2, ![E, 1]⟩ ⟨2, ![E, 1]⟩)
    (huw : d.updateWindowDims = [1]) (hiw : d.insertedWindowDims = [0]) (hsd : d.scatterDimsToOperandDims = [0])
    (hivd : d.indexVectorDim = 1)
    (x : FVec Ideal (⟨2, ![N, 1]⟩ : Shape) .f32) (idx : IVec (⟨2, ![E, 1]⟩ : Shape) w)
    (upd : FVec Ideal (⟨2, ![E, 1]⟩ : Shape) .f32) (dst : Fin E → BitVec w)
    (hx : ∀ j, x j = (0 : EReal)) (hu : ∀ j, upd j = (1 : EReal))
    (hidx : ∀ e : Fin E, idx (ix2 e (0 : Fin 1)) = dst e) (i : Fin N) :
    Host.scatterAdd d x idx upd (ix2 i (0 : Fin 1))
      = ∑ _e ∈ Finset.univ.filter (fun e : Fin E => (dst e).toInt = (i.val : ℤ)), (1 : EReal) := by
  refine (Cert.Sage.scatterAdd_rows_apply d huw hiw hsd hivd x idx upd i 0).trans ?_
  rw [hx, zero_add]
  exact Finset.sum_congr (Finset.filter_congr fun e _ => by rw [hidx e]) fun e _ => hu _

/-- The in-degree column at row i is the in-degree of node i. -/
theorem cntArr_apply (c : Dev nD) (i : Fin 100000) :
    cntArr m c (ix2 i (0 : Fin 1)) = Cert.Sage.deg (dstW m c) i := by
  -- the index column at (e, 0) is edge e's destination word
  have hidx : ∀ e : Fin 1600000,
      (broadcastInDim S1600000x1 ![0] bcast_S1600000_S1600000x1_0 (dstArr m c) : IVec S1600000x1 32) (ix2 e (0 : Fin 1))
        = dstW m c e := by
    intro e
    rw [broadcastInDim_apply ![0] bcast_S1600000_S1600000x1_0 (dstArr m c) (ix2 e (0 : Fin 1)) (ix1 e) (by
      intro a
      match a with
      | ⟨0, _⟩ => rfl)]
    exact dstArr_apply m c e
  unfold Cert.Sage.deg Cert.Sage.into
  exact count_rows scatter_S100000x1_S1600000x1_S1600000x1_1_0_0_1 rfl rfl rfl rfl _ _ _ (dstW m c)
    (fun _ => Ideal.ofBits_zero_f32) (fun _ => Ideal.ofBits_one_f32) hidx i

theorem scale0Arr_apply (c : Dev nD) (j : Fin 128) :
    scale0Arr m c (ix1 j) = Cert.Sage.scaleOf Cert.Sage.eps32 (Cert.Sage.at1 (aG0 m c)) (Cert.Sage.at1 (aRv0 m c)) j := by
  show aG0 m c (ix1 j) * Ideal.rsqrt (aRv0 m c (ix1 j) + Ideal.ofBits .f32 0x3727C5AC#32) = _
  rfl
theorem shift0Arr_apply (c : Dev nD) (j : Fin 128) :
    shift0Arr m c (ix1 j) = Cert.Sage.shiftOf Cert.Sage.eps32 (Cert.Sage.at1 (aG0 m c)) (Cert.Sage.at1 (aRv0 m c))
      (Cert.Sage.at1 (aBe0 m c)) (Cert.Sage.at1 (aRm0 m c)) j := by
  show aBe0 m c (ix1 j) - aRm0 m c (ix1 j) * scale0Arr m c (ix1 j) = _
  rw [scale0Arr_apply]
  rfl
theorem scale1Arr_apply (c : Dev nD) (j : Fin 128) :
    scale1Arr m c (ix1 j) = Cert.Sage.scaleOf Cert.Sage.eps32 (Cert.Sage.at1 (aG1 m c)) (Cert.Sage.at1 (aRv1 m c)) j := by
  show aG1 m c (ix1 j) * Ideal.rsqrt (aRv1 m c (ix1 j) + Ideal.ofBits .f32 0x3727C5AC#32) = _
  rfl
theorem shift1Arr_apply (c : Dev nD) (j : Fin 128) :
    shift1Arr m c (ix1 j) = Cert.Sage.shiftOf Cert.Sage.eps32 (Cert.Sage.at1 (aG1 m c)) (Cert.Sage.at1 (aRv1 m c))
      (Cert.Sage.at1 (aBe1 m c)) (Cert.Sage.at1 (aRm1 m c)) j := by
  show aBe1 m c (ix1 j) - aRm1 m c (ix1 j) * scale1Arr m c (ix1 j) = _
  rw [scale1Arr_apply]
  rfl
theorem oneArr_apply (j : Fin 16) : oneArr (ix1 j) = (1 : EReal) := by
  exact Ideal.ofBits_one_f32
theorem zeroArr_apply (j : Fin 16) : zeroArr (ix1 j) = (0 : EReal) := by
  exact Ideal.ofBits_zero_f32

end Cert.KernelIdeal.SageStage0

end
-- ==== Proof.KCarried.lean ====
/-
  Buffers the kernel program writes once and reads later are unchanged in between: no host operation and no region on
  the way writes them. Each statement says what a buffer holds at the segment boundary where it is next read: the
  in-degree column at the entry of each combine region, the source words before each gather, the destination words before
  each scatter, the folded factors and offsets before they are reshaped to rows, and the weight and bias arguments where
  a region or a reshape reads them.
-/
import proofs.«420429_j56581899157895_2_alg».proof.Proof.KNames
import proofs.«420429_j56581899157895_2_alg».proof.Proof.KStage0
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.IdealHost
import Idealize.ShloMosaic.PureOps.Ideal.Laws

set_option maxRecDepth 16384

noncomputable section

open scoped BigOperators

namespace Cert.KernelIdeal.SageCarried

open Cert.KernelIdeal Cert.KernelIdeal.Gen Cert.KernelIdeal.SageNames Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-! ## One step per segment

A host stretch writes a fixed list of references; a reference outside the list keeps its contents across the stretch.
A region changes only its windows' arrays; an input window's array is left as entered. -/

/-- A reference of a list, as a device buffer, is in the list's image. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references the host stretch before boundary 1 writes. -/
abbrev writes1 : List (Ref sig .tc) :=
  [main_v0, main_v1, main_v2, main_v3, main_cst, main_v4, main_cst_0, main_v5, main_v6, main_v7, main_cst_1, main_v8, main_v9, main_v10, main_v11, main_v12, main_v13, main_cst_2, main_v14, main_v15, main_v16, main_v17, main_v18, main_v19, main_cst_3, main_v20, main_cst_4, main_v21]
theorem writes1_sub : (hostOps0 : List (HloOp τ sig (Elt Ideal))).Forall fun op =>
    op.writes ⊆ ((writes1).map (Proc.devRef (τ := τ) .tc)).toFinset := by
  simp only [hostOps0, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub_of_mem (by decide)
/-- A reference that stretch does not write holds at boundary 1 what it held before the stretch. -/
theorem W1_keep (c : Dev nD) (r : Ref sig .tc) (hr : r ∉ writes1) :
    W1 m ρ c (Proc.devRef .tc r) = W0 m ρ c (Proc.devRef .tc r) :=
  StableHlo.after_of_writes_sub hostOps0 (W0 m ρ c) writes1_sub hr

/-- The references the host stretch before boundary 3 writes. -/
abbrev writes3 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v23]
theorem writes3_sub : (hostOps1 : List (HloOp τ sig (Elt Ideal))).Forall fun op =>
    op.writes ⊆ ((writes3).map (Proc.devRef (τ := τ) .tc)).toFinset := by
  simp only [hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub_of_mem (by decide)
/-- A reference that stretch does not write holds at boundary 3 what it held before the stretch. -/
theorem W3_keep (c : Dev nD) (r : Ref sig .tc) (hr : r ∉ writes3) :
    W3 m ρ c (Proc.devRef .tc r) = W2 m ρ c (Proc.devRef .tc r) :=
  StableHlo.after_of_writes_sub hostOps1 (W2 m ρ c) writes3_sub hr

/-- The references the host stretch before boundary 4 writes. -/
abbrev writes4 : List (Ref sig .tc) :=
  [main_cst_5, main_v24, main_v25, main_v26, main_v27, main_v28, main_v29]
theorem writes4_sub : (hostOps1_1 : List (HloOp τ sig (Elt Ideal))).Forall fun op =>
    op.writes ⊆ ((writes4).map (Proc.devRef (τ := τ) .tc)).toFinset := by
  simp only [hostOps1_1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub_of_mem (by decide)
/-- A reference that stretch does not write holds at boundary 4 what it held before the stretch. -/
theorem W4_keep (c : Dev nD) (r : Ref sig .tc) (hr : r ∉ writes4) :
    W4 m ρ c (Proc.devRef .tc r) = W3 m ρ c (Proc.devRef .tc r) :=
  StableHlo.after_of_writes_sub hostOps1_1 (W3 m ρ c) writes4_sub hr

/-- The references the host stretch before boundary 7 writes. -/
abbrev writes7 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v32]
theorem writes7_sub : (hostOps3 : List (HloOp τ sig (Elt Ideal))).Forall fun op =>
    op.writes ⊆ ((writes7).map (Proc.devRef (τ := τ) .tc)).toFinset := by
  simp only [hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub_of_mem (by decide)
/-- A reference that stretch does not write holds at boundary 7 what it held before the stretch. -/
theorem W7_keep (c : Dev nD) (r : Ref sig .tc) (hr : r ∉ writes7) :
    W7 m ρ c (Proc.devRef .tc r) = W6 m ρ c (Proc.devRef .tc r) :=
  StableHlo.after_of_writes_sub hostOps3 (W6 m ρ c) writes7_sub hr

/-- The references the host stretch before boundary 8 writes. -/
abbrev writes8 : List (Ref sig .tc) :=
  [main_cst_6, main_v33, main_v34, main_v35, main_v36, main_v37, main_v38]
theorem writes8_sub : (hostOps3_1 : List (HloOp τ sig (Elt Ideal))).Forall fun op =>
    op.writes ⊆ ((writes8).map (Proc.devRef (τ := τ) .tc)).toFinset := by
  simp only [hostOps3_1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub_of_mem (by decide)
/-- A reference that stretch does not write holds at boundary 8 what it held before the stretch. -/
theorem W8_keep (c : Dev nD) (r : Ref sig .tc) (hr : r ∉ writes8) :
    W8 m ρ c (Proc.devRef .tc r) = W7 m ρ c (Proc.devRef .tc r) :=
  StableHlo.after_of_writes_sub hostOps3_1 (W7 m ρ c) writes8_sub hr

/-- The references the host stretch before boundary 11 writes. -/
abbrev writes11 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v41]
theorem writes11_sub : (hostOps5 : List (HloOp τ sig (Elt Ideal))).Forall fun op =>
    op.writes ⊆ ((writes11).map (Proc.devRef (τ := τ) .tc)).toFinset := by
  simp only [hostOps5, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub_of_mem (by decide)
/-- A reference that stretch does not write holds at boundary 11 what it held before the stretch. -/
theorem W11_keep (c : Dev nD) (r : Ref sig .tc) (hr : r ∉ writes11) :
    W11 m ρ c (Proc.devRef .tc r) = W10 m ρ c (Proc.devRef .tc r) :=
  StableHlo.after_of_writes_sub hostOps5 (W10 m ρ c) writes11_sub hr

/-- The references the host stretch before boundary 12 writes. -/
abbrev writes12 : List (Ref sig .tc) :=
  [main_cst_7, main_v42, main_v43, main_v44, main_v45, main_v46, main_v47]
theorem writes12_sub : (hostOps5_1 : List (HloOp τ sig (Elt Ideal))).Forall fun op =>
    op.writes ⊆ ((writes12).map (Proc.devRef (τ := τ) .tc)).toFinset := by
  simp only [hostOps5_1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub_of_mem (by decide)
/-- A reference that stretch does not write holds at boundary 12 what it held before the stretch. -/
theorem W12_keep (c : Dev nD) (r : Ref sig .tc) (hr : r ∉ writes12) :
    W12 m ρ c (Proc.devRef .tc r) = W11 m ρ c (Proc.devRef .tc r) :=
  StableHlo.after_of_writes_sub hostOps5_1 (W11 m ρ c) writes12_sub hr

/-! ## Computed once by the first host stretch -/

theorem cnt_at4 (c : Dev nD) : W4 m ρ c (Proc.devRef .tc main_v7) = cntArr m c := by
  exact
    (W4_keep m ρ c main_v7 (by decide)).trans <|
    (W3_keep m ρ c main_v7 (by decide)).trans <|
    (W2_of_ne m ρ c main_v7 (by decide)).trans <|
    SageStage0.w1_cnt m ρ c
theorem cnt_at8 (c : Dev nD) : W8 m ρ c (Proc.devRef .tc main_v7) = cntArr m c := by
  exact
    (W8_keep m ρ c main_v7 (by decide)).trans <|
    (W7_keep m ρ c main_v7 (by decide)).trans <|
    (W6_of_ne m ρ c main_v7 (by decide)).trans <|
    ((W5_arr m ρ c 1).trans (((dat1 (V4 m ρ) c).arrAt_in 1 rfl _).trans (A_eq1 (V4 m ρ) c 1))).trans <|
    cnt_at4 m ρ c
theorem cnt_at12 (c : Dev nD) : W12 m ρ c (Proc.devRef .tc main_v7) = cntArr m c := by
  exact
    (W12_keep m ρ c main_v7 (by decide)).trans <|
    (W11_keep m ρ c main_v7 (by decide)).trans <|
    (W10_of_ne m ρ c main_v7 (by decide)).trans <|
    ((W9_arr m ρ c 1).trans (((dat3 (V8 m ρ) c).arrAt_in 1 rfl _).trans (A_eq3 (V8 m ρ) c 1))).trans <|
    cnt_at8 m ρ c
theorem src_at2 (c : Dev nD) : W2 m ρ c (Proc.devRef .tc main_v1) = srcArr m c := by
  exact
    (W2_of_ne m ρ c main_v1 (by decide)).trans <|
    SageStage0.w1_src m ρ c
theorem src_at6 (c : Dev nD) : W6 m ρ c (Proc.devRef .tc main_v1) = srcArr m c := by
  exact
    (W6_of_ne m ρ c main_v1 (by decide)).trans <|
    (W5_of_ne m ρ c main_v1 (by decide)).trans <|
    (W4_keep m ρ c main_v1 (by decide)).trans <|
    (W3_keep m ρ c main_v1 (by decide)).trans <|
    src_at2 m ρ c
theorem src_at10 (c : Dev nD) : W10 m ρ c (Proc.devRef .tc main_v1) = srcArr m c := by
  exact
    (W10_of_ne m ρ c main_v1 (by decide)).trans <|
    (W9_of_ne m ρ c main_v1 (by decide)).trans <|
    (W8_keep m ρ c main_v1 (by decide)).trans <|
    (W7_keep m ρ c main_v1 (by decide)).trans <|
    src_at6 m ρ c
theorem dst_at3 (c : Dev nD) : W3 m ρ c (Proc.devRef .tc main_v3) = dstArr m c := by
  exact
    (W3_keep m ρ c main_v3 (by decide)).trans <|
    (W2_of_ne m ρ c main_v3 (by decide)).trans <|
    SageStage0.w1_dst m ρ c
theorem dst_at7 (c : Dev nD) : W7 m ρ c (Proc.devRef .tc main_v3) = dstArr m c := by
  exact
    (W7_keep m ρ c main_v3 (by decide)).trans <|
    (W6_of_ne m ρ c main_v3 (by decide)).trans <|
    (W5_of_ne m ρ c main_v3 (by decide)).trans <|
    (W4_keep m ρ c main_v3 (by decide)).trans <|
    dst_at3 m ρ c
theorem dst_at11 (c : Dev nD) : W11 m ρ c (Proc.devRef .tc main_v3) = dstArr m c := by
  exact
    (W11_keep m ρ c main_v3 (by decide)).trans <|
    (W10_of_ne m ρ c main_v3 (by decide)).trans <|
    (W9_of_ne m ρ c main_v3 (by decide)).trans <|
    (W8_keep m ρ c main_v3 (by decide)).trans <|
    dst_at7 m ρ c
theorem scale0_at3 (c : Dev nD) : W3 m ρ c (Proc.devRef .tc main_v11) = scale0Arr m c := by
  exact
    (W3_keep m ρ c main_v11 (by decide)).trans <|
    (W2_of_ne m ρ c main_v11 (by decide)).trans <|
    SageStage0.w1_scale0 m ρ c
theorem shift0_at3 (c : Dev nD) : W3 m ρ c (Proc.devRef .tc main_v13) = shift0Arr m c := by
  exact
    (W3_keep m ρ c main_v13 (by decide)).trans <|
    (W2_of_ne m ρ c main_v13 (by decide)).trans <|
    SageStage0.w1_shift0 m ρ c
theorem scale1_at7 (c : Dev nD) : W7 m ρ c (Proc.devRef .tc main_v17) = scale1Arr m c := by
  exact
    (W7_keep m ρ c main_v17 (by decide)).trans <|
    (W6_of_ne m ρ c main_v17 (by decide)).trans <|
    (W5_of_ne m ρ c main_v17 (by decide)).trans <|
    (W4_keep m ρ c main_v17 (by decide)).trans <|
    (W3_keep m ρ c main_v17 (by decide)).trans <|
    (W2_of_ne m ρ c main_v17 (by decide)).trans <|
    SageStage0.w1_scale1 m ρ c
theorem shift1_at7 (c : Dev nD) : W7 m ρ c (Proc.devRef .tc main_v19) = shift1Arr m c := by
  exact
    (W7_keep m ρ c main_v19 (by decide)).trans <|
    (W6_of_ne m ρ c main_v19 (by decide)).trans <|
    (W5_of_ne m ρ c main_v19 (by decide)).trans <|
    (W4_keep m ρ c main_v19 (by decide)).trans <|
    (W3_keep m ρ c main_v19 (by decide)).trans <|
    (W2_of_ne m ρ c main_v19 (by decide)).trans <|
    SageStage0.w1_shift1 m ρ c
theorem one_at11 (c : Dev nD) : W11 m ρ c (Proc.devRef .tc main_v20) = oneArr := by
  exact
    (W11_keep m ρ c main_v20 (by decide)).trans <|
    (W10_of_ne m ρ c main_v20 (by decide)).trans <|
    (W9_of_ne m ρ c main_v20 (by decide)).trans <|
    (W8_keep m ρ c main_v20 (by decide)).trans <|
    (W7_keep m ρ c main_v20 (by decide)).trans <|
    (W6_of_ne m ρ c main_v20 (by decide)).trans <|
    (W5_of_ne m ρ c main_v20 (by decide)).trans <|
    (W4_keep m ρ c main_v20 (by decide)).trans <|
    (W3_keep m ρ c main_v20 (by decide)).trans <|
    (W2_of_ne m ρ c main_v20 (by decide)).trans <|
    SageStage0.w1_one m ρ c
theorem zero_at11 (c : Dev nD) : W11 m ρ c (Proc.devRef .tc main_v21) = zeroArr := by
  exact
    (W11_keep m ρ c main_v21 (by decide)).trans <|
    (W10_of_ne m ρ c main_v21 (by decide)).trans <|
    (W9_of_ne m ρ c main_v21 (by decide)).trans <|
    (W8_keep m ρ c main_v21 (by decide)).trans <|
    (W7_keep m ρ c main_v21 (by decide)).trans <|
    (W6_of_ne m ρ c main_v21 (by decide)).trans <|
    (W5_of_ne m ρ c main_v21 (by decide)).trans <|
    (W4_keep m ρ c main_v21 (by decide)).trans <|
    (W3_keep m ρ c main_v21 (by decide)).trans <|
    (W2_of_ne m ρ c main_v21 (by decide)).trans <|
    SageStage0.w1_zero m ρ c

/-! ## The arguments where they are read -/

theorem x_at1 (c : Dev nD) : W1 m ρ c (Proc.devRef .tc main_arg0) = aX m c := by
  exact
    (W1_keep m ρ c main_arg0 (by decide)).trans <|
    rfl
theorem wn0_at1 (c : Dev nD) : W1 m ρ c (Proc.devRef .tc main_arg2) = aWn0 m c := by
  exact
    (W1_keep m ρ c main_arg2 (by decide)).trans <|
    rfl
theorem ws0_at1 (c : Dev nD) : W1 m ρ c (Proc.devRef .tc main_arg4) = aWs0 m c := by
  exact
    (W1_keep m ρ c main_arg4 (by decide)).trans <|
    rfl
theorem b0_at3 (c : Dev nD) : W3 m ρ c (Proc.devRef .tc main_arg3) = aB0 m c := by
  exact
    (W3_keep m ρ c main_arg3 (by decide)).trans <|
    (W2_of_ne m ρ c main_arg3 (by decide)).trans <|
    (W1_keep m ρ c main_arg3 (by decide)).trans <|
    rfl
theorem wn1_at5 (c : Dev nD) : W5 m ρ c (Proc.devRef .tc main_arg5) = aWn1 m c := by
  exact
    (W5_of_ne m ρ c main_arg5 (by decide)).trans <|
    (W4_keep m ρ c main_arg5 (by decide)).trans <|
    (W3_keep m ρ c main_arg5 (by decide)).trans <|
    (W2_of_ne m ρ c main_arg5 (by decide)).trans <|
    (W1_keep m ρ c main_arg5 (by decide)).trans <|
    rfl
theorem ws1_at5 (c : Dev nD) : W5 m ρ c (Proc.devRef .tc main_arg7) = aWs1 m c := by
  exact
    (W5_of_ne m ρ c main_arg7 (by decide)).trans <|
    (W4_keep m ρ c main_arg7 (by decide)).trans <|
    (W3_keep m ρ c main_arg7 (by decide)).trans <|
    (W2_of_ne m ρ c main_arg7 (by decide)).trans <|
    (W1_keep m ρ c main_arg7 (by decide)).trans <|
    rfl
theorem b1_at7 (c : Dev nD) : W7 m ρ c (Proc.devRef .tc main_arg6) = aB1 m c := by
  exact
    (W7_keep m ρ c main_arg6 (by decide)).trans <|
    (W6_of_ne m ρ c main_arg6 (by decide)).trans <|
    (W5_of_ne m ρ c main_arg6 (by decide)).trans <|
    (W4_keep m ρ c main_arg6 (by decide)).trans <|
    (W3_keep m ρ c main_arg6 (by decide)).trans <|
    (W2_of_ne m ρ c main_arg6 (by decide)).trans <|
    (W1_keep m ρ c main_arg6 (by decide)).trans <|
    rfl
theorem wn2_at9 (c : Dev nD) : W9 m ρ c (Proc.devRef .tc main_arg8) = aWn2 m c := by
  exact
    (W9_of_ne m ρ c main_arg8 (by decide)).trans <|
    (W8_keep m ρ c main_arg8 (by decide)).trans <|
    (W7_keep m ρ c main_arg8 (by decide)).trans <|
    (W6_of_ne m ρ c main_arg8 (by decide)).trans <|
    (W5_of_ne m ρ c main_arg8 (by decide)).trans <|
    (W4_keep m ρ c main_arg8 (by decide)).trans <|
    (W3_keep m ρ c main_arg8 (by decide)).trans <|
    (W2_of_ne m ρ c main_arg8 (by decide)).trans <|
    (W1_keep m ρ c main_arg8 (by decide)).trans <|
    rfl
theorem ws2_at9 (c : Dev nD) : W9 m ρ c (Proc.devRef .tc main_arg10) = aWs2 m c := by
  exact
    (W9_of_ne m ρ c main_arg10 (by decide)).trans <|
    (W8_keep m ρ c main_arg10 (by decide)).trans <|
    (W7_keep m ρ c main_arg10 (by decide)).trans <|
    (W6_of_ne m ρ c main_arg10 (by decide)).trans <|
    (W5_of_ne m ρ c main_arg10 (by decide)).trans <|
    (W4_keep m ρ c main_arg10 (by decide)).trans <|
    (W3_keep m ρ c main_arg10 (by decide)).trans <|
    (W2_of_ne m ρ c main_arg10 (by decide)).trans <|
    (W1_keep m ρ c main_arg10 (by decide)).trans <|
    rfl
theorem b2_at11 (c : Dev nD) : W11 m ρ c (Proc.devRef .tc main_arg9) = aB2 m c := by
  exact
    (W11_keep m ρ c main_arg9 (by decide)).trans <|
    (W10_of_ne m ρ c main_arg9 (by decide)).trans <|
    (W9_of_ne m ρ c main_arg9 (by decide)).trans <|
    (W8_keep m ρ c main_arg9 (by decide)).trans <|
    (W7_keep m ρ c main_arg9 (by decide)).trans <|
    (W6_of_ne m ρ c main_arg9 (by decide)).trans <|
    (W5_of_ne m ρ c main_arg9 (by decide)).trans <|
    (W4_keep m ρ c main_arg9 (by decide)).trans <|
    (W3_keep m ρ c main_arg9 (by decide)).trans <|
    (W2_of_ne m ρ c main_arg9 (by decide)).trans <|
    (W1_keep m ρ c main_arg9 (by decide)).trans <|
    rfl

end Cert.KernelIdeal.SageCarried

end
-- ==== Proof.RegionsProj.lean ====
/-
  What each of the six kernel regions leaves in its output arrays, as one function of the arrays it finds at entry,
  element by element.

  A projection region tiles the node axis in 20 blocks of 5000 rows; each block of the output is the block of rows of
  the features times the whole weight matrix, so row i, column j of the output is ∑_k h[i,k]·W[k,j]. A combine region
  tiles the node axis the same way and is pointwise in (i, j): the aggregate divided by max(count, 1), plus the node's
  own projection, plus the bias, times the scale, plus the shift, and for the hidden layers the positive part.
-/
import proofs.«420429_j56581899157895_2_alg».proof.Proof.Gen.KernelIdeal.Frame
import proofs.«420429_j56581899157895_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.SageRegions

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## A block of 5000 rows times a 128-column weight matrix, entry by entry -/

/-- The left operand is read in the output's row, -/
theorem lhs128_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- at the contracted coordinate; -/
theorem lhs128_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted coordinate, -/
theorem rhs128_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- in the output's column. -/
theorem rhs128_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block x of 5000 rows with a 128 x 128 matrix w, accumulated into zero: row p, column q is
    ∑_k x[p,k]·w[k,q]. -/
theorem matmul128_apply (x : FVec Ideal S5000x128 .f32) (w : FVec Ideal S128x128 .f32) (p : Fin 5000) (q : Fin 128) :
    FloatOps.matmul dot_S5000x128_S128x128_S5000x128_1_0_0_1_n_n (some .fp32) x w (constant (F := Ideal) S5000x128 .f32 0x00000000#32) (ix2 p q)
      = ∑ k : Fin 128, x (ix2 p k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs128_row _ _
    | ⟨1, _⟩ => exact (lhs128_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs128_row _ _).trans hk
    | ⟨1, _⟩ => exact rhs128_col _ _)
  rw [el, er]

/-- Rows of features times a 128-column weight matrix: entry (i, j) is ∑_k h[i,k]·W[k,j]. -/
def rowsTimes128 (h : FVec Ideal S100000x128 .f32) (w : FVec Ideal S128x128 .f32) : FVec Ideal S100000x128 .f32 :=
  fun i => ∑ k : Fin 128, h (ix2 ⟨(i 0).val, (i 0).isLt⟩ k) * w (ix2 k ⟨(i 1).val, (i 1).isLt⟩)

/-- Read at row i, column j. -/
theorem rowsTimes128_apply (h : FVec Ideal S100000x128 .f32) (w : FVec Ideal S128x128 .f32) (i : Fin 100000) (j : Fin 128) :
    rowsTimes128 h w (ix2 i j) = ∑ k : Fin 128, h (ix2 i k) * w (ix2 k j) := rfl

/-! ## A block of 5000 rows times a 16-column weight matrix, entry by entry -/

/-- The left operand is read in the output's row, -/
theorem lhs16_row (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
/-- at the contracted coordinate; -/
theorem lhs16_col (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
/-- the right operand at the contracted coordinate, -/
theorem rhs16_row (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
/-- in the output's column. -/
theorem rhs16_col (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The product of a block x of 5000 rows with a 128 x 16 matrix w, accumulated into zero: row p, column q is
    ∑_k x[p,k]·w[k,q]. -/
theorem matmul16_apply (x : FVec Ideal S5000x128 .f32) (w : FVec Ideal S128x16 .f32) (p : Fin 5000) (q : Fin 16) :
    FloatOps.matmul dot_S5000x128_S128x16_S5000x16_1_0_0_1_n_n (some .fp32) x w (constant (F := Ideal) S5000x16 .f32 0x00000000#32) (ix2 p q)
      = ∑ k : Fin 128, x (ix2 p k) * w (ix2 k q) := by
  rw [Ideal.matmul_constant_zero_apply, ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p q) ((contrEquiv1 dot_S5000x128_S128x16_S5000x16_1_0_0_1_n_n 128 rfl rfl).symm k) = ix2 p k := funext fun a => Fin.ext (by
    match a with
    | ⟨0, _⟩ => exact lhs16_row _ _
    | ⟨1, _⟩ => exact (lhs16_col _ _).trans hk)
  have er : dot_S5000x128_S128x16_S5000x16_1_0_0_1_n_n.rhsIdx (ix2 p q) ((contrEquiv1 dot_S5000x128_S128x16_S5000x16_1_0_0_1_n_n 128 rfl rfl).symm k) = ix2 k q := funext fun a => Fin.ext (by
    match a with
    | ⟨0, _⟩ => exact (rhs16_row _ _).trans hk
    | ⟨1, _⟩ => exact rhs16_col _ _)
  rw [el, er]

/-- Rows of features times a 16-column weight matrix: entry (i, j) is ∑_k h[i,k]·W[k,j]. -/
def rowsTimes16 (h : FVec Ideal S100000x128 .f32) (w : FVec Ideal S128x16 .f32) : FVec Ideal S100000x16 .f32 :=
  fun i => ∑ k : Fin 128, h (ix2 ⟨(i 0).val, (i 0).isLt⟩ k) * w (ix2 k ⟨(i 1).val, (i 1).isLt⟩)

/-- Read at row i, column j. -/
theorem rowsTimes16_apply (h : FVec Ideal S100000x128 .f32) (w : FVec Ideal S128x16 .f32) (i : Fin 100000) (j : Fin 16) :
    rowsTimes16 h w (ix2 i j) = ∑ k : Fin 128, h (ix2 i k) * w (ix2 k j) := rfl

/-- The offsets of a whole-buffer access are all zero. -/
theorem zeroOffsets : (![0, 0] : Fin 2 → Nat) = fun _ => 0 := funext fun a => by fin_cases a <;> rfl

variable (V : (c : Dev nD) → (b : Ref sig .tc) → Buf (Elt Ideal) ((c : Thread nD τ).loc b))

/-! ## Region 0: a projection (features × two weight matrices) -/

/-- The features array region 0 finds. -/
abbrev feat0 (c : Dev nD) : FVec Ideal S100000x128 .f32 := V c (Pipeline.arrRef spec0 0)
/-- The neighbour weight matrix region 0 finds. -/
abbrev wn0 (c : Dev nD) : FVec Ideal S128x128 .f32 := V c (Pipeline.arrRef spec0 1)
/-- The self weight matrix region 0 finds. -/
abbrev ws0 (c : Dev nD) : FVec Ideal S128x128 .f32 := V c (Pipeline.arrRef spec0 2)
/-- The neighbour projection region 0 leaves. -/
abbrev yn0 (c : Dev nD) : FVec Ideal S100000x128 .f32 := (dat0 (F := Ideal) V c).arrAt 3 cfg0.N
/-- The self projection region 0 leaves. -/
abbrev ys0 (c : Dev nD) : FVec Ideal S100000x128 .f32 := (dat0 (F := Ideal) V c).arrAt 4 cfg0.N

/-- The stored block is the product of the loaded block of rows with the loaded weights. -/
theorem pay0_1_apply (x : Vec Ideal S5000x128 .f32) (w : Vec Ideal S128x128 .f32) (p : Fin 5000) (q : Fin 128) :
    k0_pay1 (F := Ideal) x w (ix2 p q) = ∑ k : Fin 128, x (ix2 p k) * w (ix2 k q) :=
  matmul128_apply x w p q

/-- Where each window's block sits at grid point t: the row-tiled windows at block row t, the weights whole. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What grid point t writes back to the neighbour projection is block t of the rows-times-weights array. -/
theorem flushed0_3_eq (c : Dev nD) (t : Fin cfg0.N) :
    (dat0 (F := Ideal) V c).flushed 3 t
      = ((cfg0.win 3).blk t).view.read (Elt Ideal) (rowsTimes128 (feat0 V c) (wn0 V c)) := by
  show (cfg0.win 3).cut (grid0.coords t) ((dat0 (F := Ideal) V c).after 3 t) = _
  rw [after0_3]
  unfold out0_3
  rw [View.canon_unit_zero zeroOffsets]
  simp only [View.ld_unit_zero (S := S5000x128) zeroOffsets, View.ld_unit_zero (S := S128x128) zeroOffsets]
  obtain ⟨e00, e01, e10, e11, e20, e21, e30, e31, e40, e41⟩ := blockIndex0 t
  funext j
  obtain ⟨p, q, rfl⟩ : ∃ (p : Fin 5000) (q : Fin 128), j = ix2 p q := ⟨j 0, j 1, eq_ix2 j⟩
  refine (pay0_1_apply _ _ p q).trans ?_
  have ht : t.val < 20 := lt_of_lt_of_eq t.isLt N_0
  have hE : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  refine Eq.trans ?_ (congrArg (rowsTimes128 (feat0 V c) (wn0 V c)) hE).symm
  rw [rowsTimes128_apply]
  refine Finset.sum_congr rfl fun k _ => ?_
  have hl : iblk0 V c 0 t (ix2 p k) = feat0 V c (ix2 (⟨t.val * 5000 + p.val, by omega⟩ : Fin 100000) k) := by
    show V c (Pipeline.arrRef spec0 0) (((cfg0.win 0).blk t).view.emb (ix2 p k)) = V c (Pipeline.arrRef spec0 0) (ix2 (⟨t.val * 5000 + p.val, by omega⟩ : Fin 100000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have hr : iblk0 V c 1 t (ix2 k q) = wn0 V c (ix2 k q) := by
    show V c (Pipeline.arrRef spec0 1) (((cfg0.win 1).blk t).view.emb (ix2 k q)) = V c (Pipeline.arrRef spec0 1) (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [hl, hr]

/-- An index of the array is in point t's block iff each coordinate is in the block's range on its axis. -/
theorem mem_rowBlock0_3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v22_0).slice (win0_3.rect t)).set ↔ _
  rw [View.set_slice_whole, Rect.mem_set_unit]
  exact Iff.rfl

/-- Twenty blocks of 5000 rows tile the 100000 rows: row r is in block r / 5000. -/
theorem rowsCovered0_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < cfg0.N := lt_of_lt_of_eq (by omega : (i 0).val / 5000 < 20) N_0.symm
  obtain ⟨t, ht⟩ : ∃ t : Fin cfg0.N, t.val = (i 0).val / 5000 := ⟨⟨_, hN⟩, rfl⟩
  obtain ⟨e00, e01, e10, e11, e20, e21, e30, e31, e40, e41⟩ := blockIndex0 t
  refine ⟨t, flush0_3 t, ?_⟩
  rw [mem_rowBlock0_3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The neighbour projection region 0 leaves is the rows-times-weights array. -/
theorem yn0_eq (c : Dev nD) : yn0 V c = rowsTimes128 (feat0 V c) (wn0 V c) :=
  (dat0 (F := Ideal) V c).arrAt_eq_of_cover 3 _ (fun t _ => flushed0_3_eq V c t) rowsCovered0_3

/-- Row i, column j of the neighbour projection is the row of features times the column of the weights. -/
theorem yn0_apply (c : Dev nD) (i : Fin 100000) (j : Fin 128) :
    yn0 V c (ix2 i j) = ∑ k : Fin 128, feat0 V c (ix2 i k) * wn0 V c (ix2 k j) := by
  exact (congrFun (yn0_eq V c) (ix2 i j)).trans (rowsTimes128_apply _ _ i j)

/-- The second stored block is the product of the loaded block of rows with the other loaded weights. -/
theorem pay0_2_apply (x : Vec Ideal S5000x128 .f32) (w : Vec Ideal S128x128 .f32) (p : Fin 5000) (q : Fin 128) :
    k0_pay2 (F := Ideal) x w (ix2 p q) = ∑ k : Fin 128, x (ix2 p k) * w (ix2 k q) :=
  matmul128_apply x w p q

/-- What grid point t writes back to the self projection is block t of the rows-times-weights array. -/
theorem flushed0_4_eq (c : Dev nD) (t : Fin cfg0.N) :
    (dat0 (F := Ideal) V c).flushed 4 t
      = ((cfg0.win 4).blk t).view.read (Elt Ideal) (rowsTimes128 (feat0 V c) (ws0 V c)) := by
  show (cfg0.win 4).cut (grid0.coords t) ((dat0 (F := Ideal) V c).after 4 t) = _
  rw [after0_4]
  unfold out0_4
  rw [View.canon_unit_zero zeroOffsets]
  simp only [View.ld_unit_zero (S := S5000x128) zeroOffsets, View.ld_unit_zero (S := S128x128) zeroOffsets]
  obtain ⟨e00, e01, e10, e11, e20, e21, e30, e31, e40, e41⟩ := blockIndex0 t
  funext j
  obtain ⟨p, q, rfl⟩ : ∃ (p : Fin 5000) (q : Fin 128), j = ix2 p q := ⟨j 0, j 1, eq_ix2 j⟩
  refine (pay0_2_apply _ _ p q).trans ?_
  have ht : t.val < 20 := lt_of_lt_of_eq t.isLt N_0
  have hE : ((cfg0.win 4).blk t).view.emb (ix2 p q) = ix2 (⟨t.val * 5000 + p.val, by omega⟩ : Fin 100000) q := by
    funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega
  refine Eq.trans ?_ (congrArg (rowsTimes128 (feat0 V c) (ws0 V c)) hE).symm
  rw [rowsTimes128_apply]
  refine Finset.sum_congr rfl fun k _ => ?_
  have hl : iblk0 V c 0 t (ix2 p k) = feat0 V c (ix2 (⟨t.val * 5000 + p.val, by omega⟩ : Fin 100000) k) := by
    show V c (Pipeline.arrRef spec0 0) (((cfg0.win 0).blk t).view.emb (ix2 p k)) = V c (Pipeline.arrRef spec0 0) (ix2 (⟨t.val * 5000 + p.val, by omega⟩ : Fin 100000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have hr : iblk0 V c 2 t (ix2 k q) = ws0 V c (ix2 k q) := by
    show V c (Pipeline.arrRef spec0 2) (((cfg0.win 2).blk t).view.emb (ix2 k q)) = V c (Pipeline.arrRef spec0 2) (ix2 k q)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  rw [hl, hr]

/-- An index of the array is in point t's block iff each coordinate is in the block's range on its axis. -/
theorem mem_rowBlock0_4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v22_1).slice (win0_4.rect t)).set ↔ _
  rw [View.set_slice_whole, Rect.mem_set_unit]
  exact Iff.rfl

/-- Twenty blocks of 5000 rows tile the 100000 rows: row r is in block r / 5000. -/
theorem rowsCovered0_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : (i 0).val / 5000 < cfg0.N := lt_of_lt_of_eq (by omega : (i 0).val / 5000 < 20) N_0.symm
  obtain ⟨t, ht⟩ : ∃ t : Fin cfg0.N, t.val = (i 0).val / 5000 := ⟨⟨_, hN⟩, rfl⟩
  obtain ⟨e00, e01, e10, e11, e20, e21, e30, e31, e40, e41⟩ := blockIndex0 t
  refine ⟨t, flush0_4 t, ?_⟩
  rw [mem_rowBlock0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The self projection region 0 leaves is the rows-times-weights array. -/
theorem ys0_eq (c : Dev nD) : ys0 V c = rowsTimes128 (feat0 V c) (ws0 V c) :=
  (dat0 (F := Ideal) V c).arrAt_eq_of_cover 4 _ (fun t _ => flushed0_4_eq V c t) rowsCovered0_4

/-- Row i, column j of the self projection is the row of features times the column of the weights. -/
theorem ys0_apply (c : Dev nD) (i : Fin 100000) (j : Fin 128) :
    ys0 V c (ix2 i j) = ∑ k : Fin 128, feat0 V c (ix2 i k) * ws0 V c (ix2 k j) := by
  exact (congrFun (ys0_eq V c) (ix2 i j)).trans (rowsTimes128_apply _ _ i j)

/-! ## Region 2: a projection (features × two weight matrices) -/

/-- The features array region 2 finds. -/
abbrev feat2 (c : Dev nD) : FVec Ideal S100000x128 .f32 := V c (Pipeline.arrRef spec2 0)
/-- The neighbour weight matrix region 2 finds. -/
abbrev wn2 (c : Dev nD) : FVec Ideal S128x128 .f32 := V c (Pipeline.arrRef spec2 1)
/-- The self weight matrix region 2 finds. -/
abbrev ws2 (c : Dev nD) : FVec Ideal S128x128 .f32 := V c (Pipeline.arrRef spec2 2)
/-- The neighbour projection region 2 leaves. -/
abbrev yn2 (c : Dev nD) : FVec Ideal S100000x128 .f32 := (dat2 (F := Ideal) V c).arrAt 3 cfg2.N
/-- The self projection region 2 leaves. -/
abbrev ys2 (c : Dev nD) : FVec Ideal S100000x128 .f32 := (dat2 (F := Ideal) V c).arrAt 4 cfg2.N

/-- The identity shape cast of the loaded block is the block. -/
theorem pay2_1_eq (x : Vec Ideal S5000x128 .f32) : k2_pay1 (F := Ideal) x = x :=
  shapeCast_self x shapeCasts_S5000x128_S5000x128

/-- The stored block is the product of the loaded block of rows with the loaded weights. -/
theorem pay2_2_apply (x : Vec Ideal S5000x128 .f32) (w : Vec Ideal S128x128 .f32) (p : Fin 5000) (q : Fin 128) :
    k2_pay2 (F := Ideal) x w (ix2 p q) = ∑ k : Fin 128, x (ix2 p k) * w (ix2 k q) := by
  unfold k2_pay2
  rw [pay2_1_eq]
  exact matmul128_apply x w p q

/-- The second stored block is the product of the loaded block of rows with the other loaded weights. -/
theorem pay2_3_apply (x : Vec Ideal S5000x128 .f32) (w : Vec Ideal S128x128 .f32) (p : Fin 5000) (q : Fin 128) :
    k2_pay3 (F := Ideal) x w (ix2 p q) = ∑ k : Fin 128, x (ix2 p k) * w (ix2 k q) := by
  unfold k2_pay3
  rw [pay2_1_eq]
  exact matmul128_apply x w p q

/-- Where each window's block sits at grid point t: the row-tiled windows at block row t, the weights whole. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What grid point t writes back to the neighbour projection is block t of the rows-times-weights array. -/
theorem flushed2_3_eq (c : Dev nD) (t : Fin cfg2.N) :
    (dat2 (F := Ideal) V c).flushed 3 t
      = ((cfg2.win 3).blk t).view.read (Elt Ideal) (rowsTimes128 (feat2 V c) (wn2 V c)) := by
  show (cfg2.win 3).cut (grid2.coords t) ((dat2 (F := Ideal) V c).after 3 t) = _
  rw [after2_3]
  unfold out2_3
  rw [View.canon_unit_zero zeroOffsets]
  simp only [View.ld_unit_zero (S := S5000x128) zeroOffsets, View.ld_unit_zero (S := S128x128) zeroOffsets]
  obtain ⟨e00, e01, e10, e11, e20, e21, e30, e31, e40, e41⟩ := blockIndex2 t
  funext j
  obtain ⟨p, q, rfl⟩ : ∃ (p : Fin 5000) (q : Fin 128), j = ix2 p q := ⟨j 0, j 1, eq_ix2 j⟩
  refine (pay2_2_apply _ _ p q).trans ?_
  have ht : t.val < 20 := lt_of_lt_of_eq t.isLt N_2
  have hE : ((cfg2.win 3).blk t).view.emb (ix2 p q) = ix2 (⟨t.val * 5000 + p.val, by omega⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  refine Eq.trans ?_ (congrArg (rowsTimes128 (feat2 V c) (wn2 V c)) hE).symm
  rw [rowsTimes128_apply]
  refine Finset.sum_congr rfl fun k _ => ?_
  have hl : iblk2 V c 0 t (ix2 p k) = feat2 V c (ix2 (⟨t.val * 5000 + p.val, by omega⟩ : Fin 100000) k) := by
    show V c (Pipeline.arrRef spec2 0) (((cfg2.win 0).blk t).view.emb (ix2 p k)) = V c (Pipeline.arrRef spec2 0) (ix2 (⟨t.val * 5000 + p.val, by omega⟩ : Fin 100000) k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have hr : iblk2 V c 1 t (ix2 k q) = wn2 V c (ix2 k q) := by
    show V c (Pipeline.arrRef spec2 1) (((cfg2.win 1).blk t).view.emb (ix2 k q)) = V c (Pipeline.arrRef spec2 1) (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  rw [hl, hr]

/-- An index of the array is in point t's block iff each coordinate is in the block's range on its axis. -/
theorem mem_rowBlock2_3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v31_0).slice (win2_3.rect t)).set ↔ _
  rw [View.set_slice_whole, Rect.mem_set_unit]
  exact Iff.rfl

/-- Twenty blocks of 5000 rows tile the 100000 rows: row r is in block r / 5000. -/
theorem rowsCovered2_3 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : (i 0).val / 5000 < cfg2.N := lt_of_lt_of_eq (by omega : (i 0).val / 5000 < 20) N_2.symm
  obtain ⟨t, ht⟩ : ∃ t : Fin cfg2.N, t.val = (i 0).val / 5000 := ⟨⟨_, hN⟩, rfl⟩
  obtain ⟨e00, e01, e10, e11, e20, e21, e30, e31, e40, e41⟩ := blockIndex2 t
  refine ⟨t, flush2_3 t, ?_⟩
  rw [mem_rowBlock2_3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The neighbour projection region 2 leaves is the rows-times-weights array. -/
theorem yn2_eq (c : Dev nD) : yn2 V c = rowsTimes128 (feat2 V c) (wn2 V c) :=
  (dat2 (F := Ideal) V c).arrAt_eq_of_cover 3 _ (fun t _ => flushed2_3_eq V c t) rowsCovered2_3

/-- Row i, column j of the neighbour projection is the row of features times the column of the weights. -/
theorem yn2_apply (c : Dev nD) (i : Fin 100000) (j : Fin 128) :
    yn2 V c (ix2 i j) = ∑ k : Fin 128, feat2 V c (ix2 i k) * wn2 V c (ix2 k j) := by
  exact (congrFun (yn2_eq V c) (ix2 i j)).trans (rowsTimes128_apply _ _ i j)

/-- What grid point t writes back to the self projection is block t of the rows-times-weights array. -/
theorem flushed2_4_eq (c : Dev nD) (t : Fin cfg2.N) :
    (dat2 (F := Ideal) V c).flushed 4 t
      = ((cfg2.win 4).blk t).view.read (Elt Ideal) (rowsTimes128 (feat2 V c) (ws2 V c)) := by
  show (cfg2.win 4).cut (grid2.coords t) ((dat2 (F := Ideal) V c).after 4 t) = _
  rw [after2_4]
  unfold out2_4
  rw [View.canon_unit_zero zeroOffsets]
  simp only [View.ld_unit_zero (S := S5000x128) zeroOffsets, View.ld_unit_zero (S := S128x128) zeroOffsets]
  obtain ⟨e00, e01, e10, e11, e20, e21, e30, e31, e40, e41⟩ := blockIndex2 t
  funext j
  obtain ⟨p, q, rfl⟩ : ∃ (p : Fin 5000) (q : Fin 128), j = ix2 p q := ⟨j 0, j 1, eq_ix2 j⟩
  refine (pay2_3_apply _ _ p q).trans ?_
  have ht : t.val < 20 := lt_of_lt_of_eq t.isLt N_2
  have hE : ((cfg2.win 4).blk t).view.emb (ix2 p q) = ix2 (⟨t.val * 5000 + p.val, by omega⟩ : Fin 100000) q := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  refine Eq.trans ?_ (congrArg (rowsTimes128 (feat2 V c) (ws2 V c)) hE).symm
  rw [rowsTimes128_apply]
  refine Finset.sum_congr rfl fun k _ => ?_
  have hl : iblk2 V c 0 t (ix2 p k) = feat2 V c (ix2 (⟨t.val * 5000 + p.val, by omega⟩ : Fin 100000) k) := by
    show V c (Pipeline.arrRef spec2 0) (((cfg2.win 0).blk t).view.emb (ix2 p k)) = V c (Pipeline.arrRef spec2 0) (ix2 (⟨t.val * 5000 + p.val, by omega⟩ : Fin 100000) k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have hr : iblk2 V c 2 t (ix2 k q) = ws2 V c (ix2 k q) := by
    show V c (Pipeline.arrRef spec2 2) (((cfg2.win 2).blk t).view.emb (ix2 k q)) = V c (Pipeline.arrRef spec2 2) (ix2 k q)
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  rw [hl, hr]

/-- An index of the array is in point t's block iff each coordinate is in the block's range on its axis. -/
theorem mem_rowBlock2_4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v31_1).slice (win2_4.rect t)).set ↔ _
  rw [View.set_slice_whole, Rect.mem_set_unit]
  exact Iff.rfl

/-- Twenty blocks of 5000 rows tile the 100000 rows: row r is in block r / 5000. -/
theorem rowsCovered2_4 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : (i 0).val / 5000 < cfg2.N := lt_of_lt_of_eq (by omega : (i 0).val / 5000 < 20) N_2.symm
  obtain ⟨t, ht⟩ : ∃ t : Fin cfg2.N, t.val = (i 0).val / 5000 := ⟨⟨_, hN⟩, rfl⟩
  obtain ⟨e00, e01, e10, e11, e20, e21, e30, e31, e40, e41⟩ := blockIndex2 t
  refine ⟨t, flush2_4 t, ?_⟩
  rw [mem_rowBlock2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The self projection region 2 leaves is the rows-times-weights array. -/
theorem ys2_eq (c : Dev nD) : ys2 V c = rowsTimes128 (feat2 V c) (ws2 V c) :=
  (dat2 (F := Ideal) V c).arrAt_eq_of_cover 4 _ (fun t _ => flushed2_4_eq V c t) rowsCovered2_4

/-- Row i, column j of the self projection is the row of features times the column of the weights. -/
theorem ys2_apply (c : Dev nD) (i : Fin 100000) (j : Fin 128) :
    ys2 V c (ix2 i j) = ∑ k : Fin 128, feat2 V c (ix2 i k) * ws2 V c (ix2 k j) := by
  exact (congrFun (ys2_eq V c) (ix2 i j)).trans (rowsTimes128_apply _ _ i j)

/-! ## Region 4: a projection (features × two weight matrices) -/

/-- The features array region 4 finds. -/
abbrev feat4 (c : Dev nD) : FVec Ideal S100000x128 .f32 := V c (Pipeline.arrRef spec4 0)
/-- The neighbour weight matrix region 4 finds. -/
abbrev wn4 (c : Dev nD) : FVec Ideal S128x16 .f32 := V c (Pipeline.arrRef spec4 1)
/-- The self weight matrix region 4 finds. -/
abbrev ws4 (c : Dev nD) : FVec Ideal S128x16 .f32 := V c (Pipeline.arrRef spec4 2)
/-- The neighbour projection region 4 leaves. -/
abbrev yn4 (c : Dev nD) : FVec Ideal S100000x16 .f32 := (dat4 (F := Ideal) V c).arrAt 3 cfg4.N
/-- The self projection region 4 leaves. -/
abbrev ys4 (c : Dev nD) : FVec Ideal S100000x16 .f32 := (dat4 (F := Ideal) V c).arrAt 4 cfg4.N

/-- The identity shape cast of the loaded block is the block. -/
theorem pay4_1_eq (x : Vec Ideal S5000x128 .f32) : k4_pay1 (F := Ideal) x = x :=
  shapeCast_self x shapeCasts_S5000x128_S5000x128

/-- The stored block is the product of the loaded block of rows with the loaded weights. -/
theorem pay4_2_apply (x : Vec Ideal S5000x128 .f32) (w : Vec Ideal S128x16 .f32) (p : Fin 5000) (q : Fin 16) :
    k4_pay2 (F := Ideal) x w (ix2 p q) = ∑ k : Fin 128, x (ix2 p k) * w (ix2 k q) := by
  unfold k4_pay2
  rw [pay4_1_eq]
  exact matmul16_apply x w p q

/-- The second stored block is the product of the loaded block of rows with the other loaded weights. -/
theorem pay4_3_apply (x : Vec Ideal S5000x128 .f32) (w : Vec Ideal S128x16 .f32) (p : Fin 5000) (q : Fin 16) :
    k4_pay3 (F := Ideal) x w (ix2 p q) = ∑ k : Fin 128, x (ix2 p k) * w (ix2 k q) := by
  unfold k4_pay3
  rw [pay4_1_eq]
  exact matmul16_apply x w p q

/-- Where each window's block sits at grid point t: the row-tiled windows at block row t, the weights whole. -/
theorem blockIndex4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- What grid point t writes back to the neighbour projection is block t of the rows-times-weights array. -/
theorem flushed4_3_eq (c : Dev nD) (t : Fin cfg4.N) :
    (dat4 (F := Ideal) V c).flushed 3 t
      = ((cfg4.win 3).blk t).view.read (Elt Ideal) (rowsTimes16 (feat4 V c) (wn4 V c)) := by
  show (cfg4.win 3).cut (grid4.coords t) ((dat4 (F := Ideal) V c).after 3 t) = _
  rw [after4_3]
  unfold out4_3
  rw [View.canon_unit_zero zeroOffsets]
  simp only [View.ld_unit_zero (S := S5000x128) zeroOffsets, View.ld_unit_zero (S := S128x16) zeroOffsets]
  obtain ⟨e00, e01, e10, e11, e20, e21, e30, e31, e40, e41⟩ := blockIndex4 t
  funext j
  obtain ⟨p, q, rfl⟩ : ∃ (p : Fin 5000) (q : Fin 16), j = ix2 p q := ⟨j 0, j 1, eq_ix2 j⟩
  refine (pay4_2_apply _ _ p q).trans ?_
  have ht : t.val < 20 := lt_of_lt_of_eq t.isLt N_4
  have hE : ((cfg4.win 3).blk t).view.emb (ix2 p q) = ix2 (⟨t.val * 5000 + p.val, by omega⟩ : Fin 100000) q := by
    funext a; apply Fin.ext
    match a with
    | ⟨0, _⟩ => show win4_3.index t (0 : Fin 2) * 5000 + 1 * p.val = t.val * 5000 + p.val; omega
    | ⟨1, _⟩ => show win4_3.index t (1 : Fin 2) * 16 + 1 * q.val = q.val; omega
  refine Eq.trans ?_ (congrArg (rowsTimes16 (feat4 V c) (wn4 V c)) hE).symm
  rw [rowsTimes16_apply]
  refine Finset.sum_congr rfl fun k _ => ?_
  have hl : iblk4 V c 0 t (ix2 p k) = feat4 V c (ix2 (⟨t.val * 5000 + p.val, by omega⟩ : Fin 100000) k) := by
    show V c (Pipeline.arrRef spec4 0) (((cfg4.win 0).blk t).view.emb (ix2 p k)) = V c (Pipeline.arrRef spec4 0) (ix2 (⟨t.val * 5000 + p.val, by omega⟩ : Fin 100000) k)
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * k.val = k.val; omega
  have hr : iblk4 V c 1 t (ix2 k q) = wn4 V c (ix2 k q) := by
    show V c (Pipeline.arrRef spec4 1) (((cfg4.win 1).blk t).view.emb (ix2 k q)) = V c (Pipeline.arrRef spec4 1) (ix2 k q)
    refine congrArg _ (funext fun a => Fin.ext ?_)
    match a with
    | ⟨0, _⟩ => show win4_1.index t (0 : Fin 2) * 128 + 1 * k.val = k.val; omega
    | ⟨1, _⟩ => show win4_1.index t (1 : Fin 2) * 16 + 1 * q.val = q.val; omega
  rw [hl, hr]

/-- An index of the array is in point t's block iff each coordinate is in the block's range on its axis. -/
theorem mem_rowBlock4_3 (t : Fin cfg4.N) (i : S100000x16.Idx) :
    i ∈ ((cfg4.win 3).blk t).view.set ↔ ∀ a : Fin 2, win4_3.index t a * S5000x16.size a ≤ (i a).val ∧ (i a).val < win4_3.index t a * S5000x16.size a + S5000x16.size a := by
  show i ∈ ((View.whole main_v40_0).slice (win4_3.rect t)).set ↔ _
  rw [View.set_slice_whole, Rect.mem_set_unit]
  exact Iff.rfl

/-- Twenty blocks of 5000 rows tile the 100000 rows: row r is in block r / 5000. -/
theorem rowsCovered4_3 (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  have hN : (i 0).val / 5000 < cfg4.N := lt_of_lt_of_eq (by omega : (i 0).val / 5000 < 20) N_4.symm
  obtain ⟨t, ht⟩ : ∃ t : Fin cfg4.N, t.val = (i 0).val / 5000 := ⟨⟨_, hN⟩, rfl⟩
  obtain ⟨e00, e01, e10, e11, e20, e21, e30, e31, e40, e41⟩ := blockIndex4 t
  refine ⟨t, flush4_3 t, ?_⟩
  rw [mem_rowBlock4_3]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 16 ≤ (i 1).val ∧ (i 1).val < win4_3.index t (1 : Fin 2) * 16 + 16; omega

/-- The neighbour projection region 4 leaves is the rows-times-weights array. -/
theorem yn4_eq (c : Dev nD) : yn4 V c = rowsTimes16 (feat4 V c) (wn4 V c) :=
  (dat4 (F := Ideal) V c).arrAt_eq_of_cover 3 _ (fun t _ => flushed4_3_eq V c t) rowsCovered4_3

/-- Row i, column j of the neighbour projection is the row of features times the column of the weights. -/
theorem yn4_apply (c : Dev nD) (i : Fin 100000) (j : Fin 16) :
    yn4 V c (ix2 i j) = ∑ k : Fin 128, feat4 V c (ix2 i k) * wn4 V c (ix2 k j) := by
  exact (congrFun (yn4_eq V c) (ix2 i j)).trans (rowsTimes16_apply _ _ i j)

/-- What grid point t writes back to the self projection is block t of the rows-times-weights array. -/
theorem flushed4_4_eq (c : Dev nD) (t : Fin cfg4.N) :
    (dat4 (F := Ideal) V c).flushed 4 t
      = ((cfg4.win 4).blk t).view.read (Elt Ideal) (rowsTimes16 (feat4 V c) (ws4 V c)) := by
  show (cfg4.win 4).cut (grid4.coords t) ((dat4 (F := Ideal) V c).after 4 t) = _
  rw [after4_4]
  unfold out4_4
  rw [View.canon_unit_zero zeroOffsets]
  simp only [View.ld_unit_zero (S := S5000x128) zeroOffsets, View.ld_unit_zero (S := S128x16) zeroOffsets]
  obtain ⟨e00, e01, e10, e11, e20, e21, e30, e31, e40, e41⟩ := blockIndex4 t
  funext j
  obtain ⟨p, q, rfl⟩ : ∃ (p : Fin 5000) (q : Fin 16), j = ix2 p q := ⟨j 0, j 1, eq_ix2 j⟩
  refine (pay4_3_apply _ _ p q).trans ?_
  have ht : t.val < 20 := lt_of_lt_of_eq t.isLt N_4
  have hE : ((cfg4.win 4).blk t).view.emb (ix2 p q) = ix2 (⟨t.val * 5000 + p.val, by omega⟩ : Fin 100000) q := by
    funext a; apply Fin.ext
    match a with
    | ⟨0, _⟩ => show win4_4.index t (0 : Fin 2) * 5000 + 1 * p.val = t.val * 5000 + p.val; omega
    | ⟨1, _⟩ => show win4_4.index t (1 : Fin 2) * 16 + 1 * q.val = q.val; omega
  refine Eq.trans ?_ (congrArg (rowsTimes16 (feat4 V c) (ws4 V c)) hE).symm
  rw [rowsTimes16_apply]
  refine Finset.sum_congr rfl fun k _ => ?_
  have hl : iblk4 V c 0 t (ix2 p k) = feat4 V c (ix2 (⟨t.val * 5000 + p.val, by omega⟩ : Fin 100000) k) := by
    show V c (Pipeline.arrRef spec4 0) (((cfg4.win 0).blk t).view.emb (ix2 p k)) = V c (Pipeline.arrRef spec4 0) (ix2 (⟨t.val * 5000 + p.val, by omega⟩ : Fin 100000) k)
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * k.val = k.val; omega
  have hr : iblk4 V c 2 t (ix2 k q) = ws4 V c (ix2 k q) := by
    show V c (Pipeline.arrRef spec4 2) (((cfg4.win 2).blk t).view.emb (ix2 k q)) = V c (Pipeline.arrRef spec4 2) (ix2 k q)
    refine congrArg _ (funext fun a => Fin.ext ?_)
    match a with
    | ⟨0, _⟩ => show win4_2.index t (0 : Fin 2) * 128 + 1 * k.val = k.val; omega
    | ⟨1, _⟩ => show win4_2.index t (1 : Fin 2) * 16 + 1 * q.val = q.val; omega
  rw [hl, hr]

/-- An index of the array is in point t's block iff each coordinate is in the block's range on its axis. -/
theorem mem_rowBlock4_4 (t : Fin cfg4.N) (i : S100000x16.Idx) :
    i ∈ ((cfg4.win 4).blk t).view.set ↔ ∀ a : Fin 2, win4_4.index t a * S5000x16.size a ≤ (i a).val ∧ (i a).val < win4_4.index t a * S5000x16.size a + S5000x16.size a := by
  show i ∈ ((View.whole main_v40_1).slice (win4_4.rect t)).set ↔ _
  rw [View.set_slice_whole, Rect.mem_set_unit]
  exact Iff.rfl

/-- Twenty blocks of 5000 rows tile the 100000 rows: row r is in block r / 5000. -/
theorem rowsCovered4_4 (i : S100000x16.Idx) :
    ∃ t : Fin cfg4.N, (cfg4.win 4).flush t = true ∧ i ∈ ((cfg4.win 4).blk t).view.set := by
  have hi0 : (i 0).val < 100000 := (i 0).isLt
  have hi1 : (i 1).val < 16 := (i 1).isLt
  have hN : (i 0).val / 5000 < cfg4.N := lt_of_lt_of_eq (by omega : (i 0).val / 5000 < 20) N_4.symm
  obtain ⟨t, ht⟩ : ∃ t : Fin cfg4.N, t.val = (i 0).val / 5000 := ⟨⟨_, hN⟩, rfl⟩
  obtain ⟨e00, e01, e10, e11, e20, e21, e30, e31, e40, e41⟩ := blockIndex4 t
  refine ⟨t, flush4_4 t, ?_⟩
  rw [mem_rowBlock4_4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 16 ≤ (i 1).val ∧ (i 1).val < win4_4.index t (1 : Fin 2) * 16 + 16; omega

/-- The self projection region 4 leaves is the rows-times-weights array. -/
theorem ys4_eq (c : Dev nD) : ys4 V c = rowsTimes16 (feat4 V c) (ws4 V c) :=
  (dat4 (F := Ideal) V c).arrAt_eq_of_cover 4 _ (fun t _ => flushed4_4_eq V c t) rowsCovered4_4

/-- Row i, column j of the self projection is the row of features times the column of the weights. -/
theorem ys4_apply (c : Dev nD) (i : Fin 100000) (j : Fin 16) :
    ys4 V c (ix2 i j) = ∑ k : Fin 128, feat4 V c (ix2 i k) * ws4 V c (ix2 k j) := by
  exact (congrFun (ys4_eq V c) (ix2 i j)).trans (rowsTimes16_apply _ _ i j)

end Cert.KernelIdeal.SageRegions

end
-- ==== Proof.RegionsComb.lean ====
/-
  What each of the three combine regions leaves in its output arrays, as one function of the arrays it finds at entry,
  element by element.

  A projection region tiles the node axis in 20 blocks of 5000 rows; each block of the output is the block of rows of
  the features times the whole weight matrix, so row i, column j of the output is ∑_k h[i,k]·W[k,j]. A combine region
  tiles the node axis the same way and is pointwise in (i, j): the aggregate divided by max(count, 1), plus the node's
  own projection, plus the bias, times the scale, plus the shift, and for the hidden layers the positive part.

  For each region: the body's result at (p, q) of a block, read off the payload operation by operation; block t of a
  row-tiled window is rows 5000·t … 5000·t + 4999 of its array and the one-row windows are whole, so what point t
  writes back is block t of one whole-array function; the twenty blocks tile the 100000 rows, so the array ends
  holding that function.
-/
import proofs.«420429_j56581899157895_2_alg».proof.Proof.Gen.KernelIdeal.Frame
import proofs.«420429_j56581899157895_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.SageCombine

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## What the three regions share -/

/-- A column of shape [a, 1] broadcast to [a, b] reads, at (p, q), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The offsets (0, 0) are zero on every axis. -/
theorem zeros2 : (![0, 0] : Fin 2 → Nat) = fun _ => 0 := funext fun a => by fin_cases a <;> rfl

/-- The literal 1.0 is the extended real one. -/
theorem lit_one : (Scalar.ofBits .f32 0x3F800000#32 : Ideal .f32) = 1 := Ideal.ofBits_one_f32
/-- The literal 0.0 is the extended real zero. -/
theorem lit_zero : (Scalar.ofBits .f32 0x00000000#32 : Ideal .f32) = 0 := Ideal.ofBits_zero_f32

/-- The layer output of a combine region before the positive part, as one function of the arrays it finds: the mean of
    the projected in-neighbour rows, plus the node's own projection, plus the bias, times the scale, plus the shift. -/
def combine {C : ℕ} (agg : Vec Ideal ⟨2, ![100000, C]⟩ .f32) (cnt : Vec Ideal S100000x1 .f32)
    (slf : Vec Ideal ⟨2, ![100000, C]⟩ .f32) (bias scale shift : Vec Ideal ⟨2, ![1, C]⟩ .f32) :
    Vec Ideal ⟨2, ![100000, C]⟩ .f32 := fun i =>
  ((Ideal.div (agg i) (max (cnt (ix2 (i 0) (0 : Fin 1))) 1) + slf i) + bias (ix2 (0 : Fin 1) (i 1)))
    * scale (ix2 (0 : Fin 1) (i 1)) + shift (ix2 (0 : Fin 1) (i 1))

/-- The same followed by the positive part. -/
def combineRelu {C : ℕ} (agg : Vec Ideal ⟨2, ![100000, C]⟩ .f32) (cnt : Vec Ideal S100000x1 .f32)
    (slf : Vec Ideal ⟨2, ![100000, C]⟩ .f32) (bias scale shift : Vec Ideal ⟨2, ![1, C]⟩ .f32) :
    Vec Ideal ⟨2, ![100000, C]⟩ .f32 := fun i => max (combine agg cnt slf bias scale shift i) 0

/-! ## Region 1: a combine (mean, own projection, bias, affine map, positive part) -/

/-- The summed projected in-neighbour rows region 1 finds. -/
abbrev agg1 (c : Dev nD) : FVec Ideal S100000x128 .f32 := V c (Pipeline.arrRef spec1 0)
/-- The in-degree column region 1 finds. -/
abbrev cnt1 (c : Dev nD) : FVec Ideal S100000x1 .f32 := V c (Pipeline.arrRef spec1 1)
/-- The node's own projection region 1 finds. -/
abbrev self1 (c : Dev nD) : FVec Ideal S100000x128 .f32 := V c (Pipeline.arrRef spec1 2)
/-- The bias row region 1 finds. -/
abbrev bias1 (c : Dev nD) : FVec Ideal S1x128 .f32 := V c (Pipeline.arrRef spec1 3)
/-- The scale row region 1 finds. -/
abbrev scale1 (c : Dev nD) : FVec Ideal S1x128 .f32 := V c (Pipeline.arrRef spec1 4)
/-- The shift row region 1 finds. -/
abbrev shift1 (c : Dev nD) : FVec Ideal S1x128 .f32 := V c (Pipeline.arrRef spec1 5)
/-- The layer output region 1 leaves. -/
abbrev res1 (c : Dev nD) : FVec Ideal S100000x128 .f32 := (dat1 (F := Ideal) V c).arrAt 6 cfg1.N

/-- The body's result of region 1 at (p, q): pointwise in the blocks, the column read at p and the rows at q. -/
theorem pay1_apply (x0 : Vec Ideal S5000x128 .f32) (x1 : Vec Ideal S5000x1 .f32) (x2 : Vec Ideal S5000x128 .f32)
    (x3 x4 x5 : Vec Ideal S1x128 .f32) (p : Fin 5000) (q : Fin 128) :
    k1_pay1 x0 x1 x2 x3 x4 x5 (ix2 p q)
      = max (((Ideal.div (x0 (ix2 p q)) (max (x1 (ix2 p (0 : Fin 1))) 1) + x2 (ix2 p q)) + x3 (ix2 (0 : Fin 1) q))
          * x4 (ix2 (0 : Fin 1) q) + x5 (ix2 (0 : Fin 1) q)) 0 := by
  unfold k1_pay1
  simp only [shapeCast_self]
  rw [maximumf_apply, addf_apply, mulf_apply, addf_apply, addf_apply, divf_apply, broadcast_apply,
    broadcastTo_1b_ab_apply, broadcastTo_1b_ab_apply, broadcastTo_1b_ab_apply, broadcastTo_a1_ab_apply,
    maximumf_apply, broadcast_apply, lit_one, lit_zero]

/-- One element of the body's result from one element of each block, when each block's element is an element of its
    array: the combine of the arrays at row r. -/
theorem pay1_of_reads (a0 : Vec Ideal S100000x128 .f32) (a1 : Vec Ideal S100000x1 .f32) (a2 : Vec Ideal S100000x128 .f32)
    (a3 a4 a5 : Vec Ideal S1x128 .f32)
    (x0 : Vec Ideal S5000x128 .f32) (x1 : Vec Ideal S5000x1 .f32) (x2 : Vec Ideal S5000x128 .f32)
    (x3 x4 x5 : Vec Ideal S1x128 .f32) (p : Fin 5000) (q : Fin 128) (r : Fin 100000)
    (h0 : x0 (ix2 p q) = a0 (ix2 r q)) (h1 : x1 (ix2 p (0 : Fin 1)) = a1 (ix2 r (0 : Fin 1)))
    (h2 : x2 (ix2 p q) = a2 (ix2 r q)) (h3 : x3 (ix2 (0 : Fin 1) q) = a3 (ix2 (0 : Fin 1) q))
    (h4 : x4 (ix2 (0 : Fin 1) q) = a4 (ix2 (0 : Fin 1) q)) (h5 : x5 (ix2 (0 : Fin 1) q) = a5 (ix2 (0 : Fin 1) q)) :
    k1_pay1 x0 x1 x2 x3 x4 x5 (ix2 p q) = combineRelu a0 a1 a2 a3 a4 a5 (ix2 r q) := by
  rw [pay1_apply, h0, h1, h2, h3, h4, h5]
  rfl

/-- The index map of window 0 of region 1 over the grid: block (t, 0). -/
theorem idx1_0 : ∀ t : Fin cfg1.N, win1_0.index t (0 : Fin 2) = t.val ∧ win1_0.index t (1 : Fin 2) = 0 :=
  (by decide +kernel : ∀ t : Fin grid1.N, _)
/-- The index map of window 1 of region 1 over the grid: block (t, 0). -/
theorem idx1_1 : ∀ t : Fin cfg1.N, win1_1.index t (0 : Fin 2) = t.val ∧ win1_1.index t (1 : Fin 2) = 0 :=
  (by decide +kernel : ∀ t : Fin grid1.N, _)
/-- The index map of window 2 of region 1 over the grid: block (t, 0). -/
theorem idx1_2 : ∀ t : Fin cfg1.N, win1_2.index t (0 : Fin 2) = t.val ∧ win1_2.index t (1 : Fin 2) = 0 :=
  (by decide +kernel : ∀ t : Fin grid1.N, _)
/-- The index map of window 3 of region 1 over the grid: block (0, 0). -/
theorem idx1_3 : ∀ t : Fin cfg1.N, win1_3.index t (0 : Fin 2) = 0 ∧ win1_3.index t (1 : Fin 2) = 0 :=
  (by decide +kernel : ∀ t : Fin grid1.N, _)
/-- The index map of window 4 of region 1 over the grid: block (0, 0). -/
theorem idx1_4 : ∀ t : Fin cfg1.N, win1_4.index t (0 : Fin 2) = 0 ∧ win1_4.index t (1 : Fin 2) = 0 :=
  (by decide +kernel : ∀ t : Fin grid1.N, _)
/-- The index map of window 5 of region 1 over the grid: block (0, 0). -/
theorem idx1_5 : ∀ t : Fin cfg1.N, win1_5.index t (0 : Fin 2) = 0 ∧ win1_5.index t (1 : Fin 2) = 0 :=
  (by decide +kernel : ∀ t : Fin grid1.N, _)
/-- The index map of window 6 of region 1 over the grid: block (t, 0). -/
theorem idx1_6 : ∀ t : Fin cfg1.N, win1_6.index t (0 : Fin 2) = t.val ∧ win1_6.index t (1 : Fin 2) = 0 :=
  (by decide +kernel : ∀ t : Fin grid1.N, _)

/-- Block t of window 0 of region 1 is rows 5000·t … 5000·t + 4999 of its array. -/
theorem emb1_0 (t : Fin cfg1.N) (p : Fin 5000) (q : Fin 128) (r : Fin 100000) (hr : r.val = 5000 * t.val + p.val) :
    ((cfg1.win 0).blk t).view.emb (ix2 p q) = ix2 r q := by
  obtain ⟨e0, e1⟩ := idx1_0 t
  funext a; apply Fin.ext
  match a with
  | ⟨0, _⟩ => show win1_0.index t (0 : Fin 2) * 5000 + 1 * p.val = r.val; omega
  | ⟨1, _⟩ => show win1_0.index t (1 : Fin 2) * 128 + 1 * q.val = q.val; omega

/-- Block t of window 1 of region 1 is rows 5000·t … 5000·t + 4999 of its one-column array. -/
theorem emb1_1 (t : Fin cfg1.N) (p : Fin 5000) (r : Fin 100000) (hr : r.val = 5000 * t.val + p.val) :
    ((cfg1.win 1).blk t).view.emb (ix2 p (0 : Fin 1)) = ix2 r (0 : Fin 1) := by
  obtain ⟨e0, e1⟩ := idx1_1 t
  funext a; apply Fin.ext
  match a with
  | ⟨0, _⟩ => show win1_1.index t (0 : Fin 2) * 5000 + 1 * p.val = r.val; omega
  | ⟨1, _⟩ => show win1_1.index t (1 : Fin 2) * 1 + 1 * (0 : Fin 1).val = (0 : Fin 1).val; omega

/-- Block t of window 2 of region 1 is rows 5000·t … 5000·t + 4999 of its array. -/
theorem emb1_2 (t : Fin cfg1.N) (p : Fin 5000) (q : Fin 128) (r : Fin 100000) (hr : r.val = 5000 * t.val + p.val) :
    ((cfg1.win 2).blk t).view.emb (ix2 p q) = ix2 r q := by
  obtain ⟨e0, e1⟩ := idx1_2 t
  funext a; apply Fin.ext
  match a with
  | ⟨0, _⟩ => show win1_2.index t (0 : Fin 2) * 5000 + 1 * p.val = r.val; omega
  | ⟨1, _⟩ => show win1_2.index t (1 : Fin 2) * 128 + 1 * q.val = q.val; omega

/-- Window 3 of region 1 is its whole one-row array at every point. -/
theorem emb1_3 (t : Fin cfg1.N) (q : Fin 128) :
    ((cfg1.win 3).blk t).view.emb (ix2 (0 : Fin 1) q) = ix2 (0 : Fin 1) q := by
  obtain ⟨e0, e1⟩ := idx1_3 t
  funext a; apply Fin.ext
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega

/-- Window 4 of region 1 is its whole one-row array at every point. -/
theorem emb1_4 (t : Fin cfg1.N) (q : Fin 128) :
    ((cfg1.win 4).blk t).view.emb (ix2 (0 : Fin 1) q) = ix2 (0 : Fin 1) q := by
  obtain ⟨e0, e1⟩ := idx1_4 t
  funext a; apply Fin.ext
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-- Window 5 of region 1 is its whole one-row array at every point. -/
theorem emb1_5 (t : Fin cfg1.N) (q : Fin 128) :
    ((cfg1.win 5).blk t).view.emb (ix2 (0 : Fin 1) q) = ix2 (0 : Fin 1) q := by
  obtain ⟨e0, e1⟩ := idx1_5 t
  funext a; apply Fin.ext
  match a with
  | ⟨0, _⟩ => show win1_5.index t (0 : Fin 2) * 1 + 1 * (0 : Fin 1).val = (0 : Fin 1).val; omega
  | ⟨1, _⟩ => show win1_5.index t (1 : Fin 2) * 128 + 1 * q.val = q.val; omega

/-- Block t of window 6 of region 1 is rows 5000·t … 5000·t + 4999 of the output array. -/
theorem emb1_6 (t : Fin cfg1.N) (p : Fin 5000) (q : Fin 128) (r : Fin 100000) (hr : r.val = 5000 * t.val + p.val) :
    ((cfg1.win 6).blk t).view.emb (ix2 p q) = ix2 r q := by
  obtain ⟨e0, e1⟩ := idx1_6 t
  funext a; apply Fin.ext
  match a with
  | ⟨0, _⟩ => show win1_6.index t (0 : Fin 2) * 5000 + 1 * p.val = r.val; omega
  | ⟨1, _⟩ => show win1_6.index t (1 : Fin 2) * 128 + 1 * q.val = q.val; omega

/-- The aggregate's block at point t, element (p, q), is the aggregate at row 5000·t + p. -/
theorem iblk1_0_apply (c : Dev nD) (t : Fin cfg1.N) (p : Fin 5000) (q : Fin 128) (r : Fin 100000)
    (hr : r.val = 5000 * t.val + p.val) :
    (iblk1 V c 0 t : Vec Ideal S5000x128 .f32) (ix2 p q) = agg1 V c (ix2 r q) := by
  show V c (Pipeline.arrRef spec1 0) (((cfg1.win 0).blk t).view.emb (ix2 p q)) = _
  rw [emb1_0 t p q r hr]

/-- The count's block at point t, element p, is the count at row 5000·t + p. -/
theorem iblk1_1_apply (c : Dev nD) (t : Fin cfg1.N) (p : Fin 5000) (r : Fin 100000)
    (hr : r.val = 5000 * t.val + p.val) :
    (iblk1 V c 1 t : Vec Ideal S5000x1 .f32) (ix2 p (0 : Fin 1)) = cnt1 V c (ix2 r (0 : Fin 1)) := by
  show V c (Pipeline.arrRef spec1 1) (((cfg1.win 1).blk t).view.emb (ix2 p (0 : Fin 1))) = _
  rw [emb1_1 t p r hr]

/-- The own projection's block at point t, element (p, q), is the own projection at row 5000·t + p. -/
theorem iblk1_2_apply (c : Dev nD) (t : Fin cfg1.N) (p : Fin 5000) (q : Fin 128) (r : Fin 100000)
    (hr : r.val = 5000 * t.val + p.val) :
    (iblk1 V c 2 t : Vec Ideal S5000x128 .f32) (ix2 p q) = self1 V c (ix2 r q) := by
  show V c (Pipeline.arrRef spec1 2) (((cfg1.win 2).blk t).view.emb (ix2 p q)) = _
  rw [emb1_2 t p q r hr]

/-- The bias window at any point is the bias row. -/
theorem iblk1_3_apply (c : Dev nD) (t : Fin cfg1.N) (q : Fin 128) :
    (iblk1 V c 3 t : Vec Ideal S1x128 .f32) (ix2 (0 : Fin 1) q) = bias1 V c (ix2 (0 : Fin 1) q) := by
  show V c (Pipeline.arrRef spec1 3) (((cfg1.win 3).blk t).view.emb (ix2 (0 : Fin 1) q)) = _
  rw [emb1_3 t q]

/-- The scale window at any point is the scale row. -/
theorem iblk1_4_apply (c : Dev nD) (t : Fin cfg1.N) (q : Fin 128) :
    (iblk1 V c 4 t : Vec Ideal S1x128 .f32) (ix2 (0 : Fin 1) q) = scale1 V c (ix2 (0 : Fin 1) q) := by
  show V c (Pipeline.arrRef spec1 4) (((cfg1.win 4).blk t).view.emb (ix2 (0 : Fin 1) q)) = _
  rw [emb1_4 t q]

/-- The shift window at any point is the shift row. -/
theorem iblk1_5_apply (c : Dev nD) (t : Fin cfg1.N) (q : Fin 128) :
    (iblk1 V c 5 t : Vec Ideal S1x128 .f32) (ix2 (0 : Fin 1) q) = shift1 V c (ix2 (0 : Fin 1) q) := by
  show V c (Pipeline.arrRef spec1 5) (((cfg1.win 5).blk t).view.emb (ix2 (0 : Fin 1) q)) = _
  rw [emb1_5 t q]

/-- What point t of region 1 leaves in the output's staging buffer, element by element. -/
theorem out1_apply (c : Dev nD) (t : Fin cfg1.N) (p : Fin 5000) (q : Fin 128) (r : Fin 100000)
    (hr : r.val = 5000 * t.val + p.val) :
    out1_6 (iblk1 V c 0 t) (iblk1 V c 1 t) (iblk1 V c 2 t) (iblk1 V c 3 t) (iblk1 V c 4 t) (iblk1 V c 5 t) (ix2 p q)
      = combineRelu (agg1 V c) (cnt1 V c) (self1 V c) (bias1 V c) (scale1 V c) (shift1 V c) (ix2 r q) := by
  unfold out1_6
  rw [View.canon_unit_zero zeros2]
  simp only [View.ld_unit_zero (S := S5000x128) zeros2, View.ld_unit_zero (S := S5000x1) zeros2,
    View.ld_unit_zero (S := S1x128) zeros2]
  exact pay1_of_reads _ _ _ _ _ _ _ _ _ _ _ _ p q r (iblk1_0_apply V c t p q r hr) (iblk1_1_apply V c t p r hr)
    (iblk1_2_apply V c t p q r hr) (iblk1_3_apply V c t q) (iblk1_4_apply V c t q) (iblk1_5_apply V c t q)

/-- What point t of region 1 writes back is block t of the combine of the arrays found. -/
theorem flushed1_eq (c : Dev nD) (t : Fin cfg1.N) :
    (dat1 (F := Ideal) V c).flushed 6 t
      = ((cfg1.win 6).blk t).view.read (Elt Ideal)
          (combineRelu (agg1 V c) (cnt1 V c) (self1 V c) (bias1 V c) (scale1 V c) (shift1 V c)) := by
  show (cfg1.win 6).cut (grid1.coords t) ((dat1 (F := Ideal) V c).after 6 t) = _
  rw [after1_6]
  funext j
  obtain ⟨p, q, rfl⟩ : ∃ (p : Fin 5000) (q : Fin 128), j = ix2 p q := ⟨j 0, j 1, eq_ix2 (n0 := 5000) (n1 := 128) j⟩
  have hr : 5000 * t.val + p.val < 100000 := by have := p.isLt; have : t.val < 20 := t.isLt; omega
  show out1_6 (iblk1 V c 0 t) (iblk1 V c 1 t) (iblk1 V c 2 t) (iblk1 V c 3 t) (iblk1 V c 4 t) (iblk1 V c 5 t) (ix2 p q)
    = combineRelu (agg1 V c) (cnt1 V c) (self1 V c) (bias1 V c) (scale1 V c) (shift1 V c)
        (((cfg1.win 6).blk t).view.emb (ix2 p q))
  rw [emb1_6 t p q ⟨5000 * t.val + p.val, hr⟩ rfl]
  exact out1_apply V c t p q ⟨5000 * t.val + p.val, hr⟩ rfl

/-- An index of the output array is in point t's block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v30).slice (win1_6.rect t)).set ↔ _
  rw [View.set_slice_whole, Rect.mem_set_unit]
  exact Iff.rfl

/-- The twenty blocks of 5000 rows tile the 100000 rows: row r is in the block of point r / 5000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 5000 < cfg1.N := by show (i 0).val / 5000 < 20; omega
  obtain ⟨e0, e1⟩ := idx1_6 ⟨(i 0).val / 5000, hN⟩
  have e0' : win1_6.index ⟨(i 0).val / 5000, hN⟩ (0 : Fin 2) = (i 0).val / 5000 := e0
  refine ⟨⟨(i 0).val / 5000, hN⟩, flush1_6 _, ?_⟩
  rw [mem_blk1]
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    omega
  | ⟨1, _⟩ =>
    show win1_6.index ⟨(i 0).val / 5000, hN⟩ (1 : Fin 2) * 128 ≤ (i 1).val
      ∧ (i 1).val < win1_6.index ⟨(i 0).val / 5000, hN⟩ (1 : Fin 2) * 128 + 128
    omega

/-- The output array of region 1 after the run is the combine of the arrays found. -/
theorem res1_eq (c : Dev nD) :
    res1 V c = combineRelu (agg1 V c) (cnt1 V c) (self1 V c) (bias1 V c) (scale1 V c) (shift1 V c) :=
  (dat1 (F := Ideal) V c).arrAt_eq_of_cover 6 _ (fun t _ => flushed1_eq V c t) cover1

/-- The layer output at (i, j), pointwise in the arrays found. -/
theorem res1_apply (c : Dev nD) (i : Fin 100000) (j : Fin 128) :
    res1 V c (ix2 i j)
      = Cert.Sage.relu (((Ideal.div (agg1 V c (ix2 i j)) (max (cnt1 V c (ix2 i (0 : Fin 1))) 1) + self1 V c (ix2 i j))
          + bias1 V c (ix2 (0 : Fin 1) j)) * scale1 V c (ix2 (0 : Fin 1) j) + shift1 V c (ix2 (0 : Fin 1) j)) :=
  (congrFun (res1_eq V c) (ix2 i j)).trans rfl

/-! ## Region 3: a combine (mean, own projection, bias, affine map, positive part) -/

/-- The summed projected in-neighbour rows region 3 finds. -/
abbrev agg3 (c : Dev nD) : FVec Ideal S100000x128 .f32 := V c (Pipeline.arrRef spec3 0)
/-- The in-degree column region 3 finds. -/
abbrev cnt3 (c : Dev nD) : FVec Ideal S100000x1 .f32 := V c (Pipeline.arrRef spec3 1)
/-- The node's own projection region 3 finds. -/
abbrev self3 (c : Dev nD) : FVec Ideal S100000x128 .f32 := V c (Pipeline.arrRef spec3 2)
/-- The bias row region 3 finds. -/
abbrev bias3 (c : Dev nD) : FVec Ideal S1x128 .f32 := V c (Pipeline.arrRef spec3 3)
/-- The scale row region 3 finds. -/
abbrev scale3 (c : Dev nD) : FVec Ideal S1x128 .f32 := V c (Pipeline.arrRef spec3 4)
/-- The shift row region 3 finds. -/
abbrev shift3 (c : Dev nD) : FVec Ideal S1x128 .f32 := V c (Pipeline.arrRef spec3 5)
/-- The layer output region 3 leaves. -/
abbrev res3 (c : Dev nD) : FVec Ideal S100000x128 .f32 := (dat3 (F := Ideal) V c).arrAt 6 cfg3.N

/-- The body's result of region 3 at (p, q): pointwise in the blocks, the column read at p and the rows at q. -/
theorem pay3_apply (x0 : Vec Ideal S5000x128 .f32) (x1 : Vec Ideal S5000x1 .f32) (x2 : Vec Ideal S5000x128 .f32)
    (x3 x4 x5 : Vec Ideal S1x128 .f32) (p : Fin 5000) (q : Fin 128) :
    k3_pay1 x0 x1 x2 x3 x4 x5 (ix2 p q)
      = max (((Ideal.div (x0 (ix2 p q)) (max (x1 (ix2 p (0 : Fin 1))) 1) + x2 (ix2 p q)) + x3 (ix2 (0 : Fin 1) q))
          * x4 (ix2 (0 : Fin 1) q) + x5 (ix2 (0 : Fin 1) q)) 0 := by
  unfold k3_pay1
  simp only [shapeCast_self]
  rw [maximumf_apply, addf_apply, mulf_apply, addf_apply, addf_apply, divf_apply, broadcast_apply,
    broadcastTo_1b_ab_apply, broadcastTo_1b_ab_apply, broadcastTo_1b_ab_apply, broadcastTo_a1_ab_apply,
    maximumf_apply, broadcast_apply, lit_one, lit_zero]

/-- One element of the body's result from one element of each block, when each block's element is an element of its
    array: the combine of the arrays at row r. -/
theorem pay3_of_reads (a0 : Vec Ideal S100000x128 .f32) (a1 : Vec Ideal S100000x1 .f32) (a2 : Vec Ideal S100000x128 .f32)
    (a3 a4 a5 : Vec Ideal S1x128 .f32)
    (x0 : Vec Ideal S5000x128 .f32) (x1 : Vec Ideal S5000x1 .f32) (x2 : Vec Ideal S5000x128 .f32)
    (x3 x4 x5 : Vec Ideal S1x128 .f32) (p : Fin 5000) (q : Fin 128) (r : Fin 100000)
    (h0 : x0 (ix2 p q) = a0 (ix2 r q)) (h1 : x1 (ix2 p (0 : Fin 1)) = a1 (ix2 r (0 : Fin 1)))
    (h2 : x2 (ix2 p q) = a2 (ix2 r q)) (h3 : x3 (ix2 (0 : Fin 1) q) = a3 (ix2 (0 : Fin 1) q))
    (h4 : x4 (ix2 (0 : Fin 1) q) = a4 (ix2 (0 : Fin 1) q)) (h5 : x5 (ix2 (0 : Fin 1) q) = a5 (ix2 (0 : Fin 1) q)) :
    k3_pay1 x0 x1 x2 x3 x4 x5 (ix2 p q) = combineRelu a0 a1 a2 a3 a4 a5 (ix2 r q) := by
  rw [pay3_apply, h0, h1, h2, h3, h4, h5]
  rfl

/-- The index map of window 0 of region 3 over the grid: block (t, 0). -/
theorem idx3_0 : ∀ t : Fin cfg3.N, win3_0.index t (0 : Fin 2) = t.val ∧ win3_0.index t (1 : Fin 2) = 0 :=
  (by decide +kernel : ∀ t : Fin grid3.N, _)
/-- The index map of window 1 of region 3 over the grid: block (t, 0). -/
theorem idx3_1 : ∀ t : Fin cfg3.N, win3_1.index t (0 : Fin 2) = t.val ∧ win3_1.index t (1 : Fin 2) = 0 :=
  (by decide +kernel : ∀ t : Fin grid3.N, _)
/-- The index map of window 2 of region 3 over the grid: block (t, 0). -/
theorem idx3_2 : ∀ t : Fin cfg3.N, win3_2.index t (0 : Fin 2) = t.val ∧ win3_2.index t (1 : Fin 2) = 0 :=
  (by decide +kernel : ∀ t : Fin grid3.N, _)
/-- The index map of window 3 of region 3 over the grid: block (0, 0). -/
theorem idx3_3 : ∀ t : Fin cfg3.N, win3_3.index t (0 : Fin 2) = 0 ∧ win3_3.index t (1 : Fin 2) = 0 :=
  (by decide +kernel : ∀ t : Fin grid3.N, _)
/-- The index map of window 4 of region 3 over the grid: block (0, 0). -/
theorem idx3_4 : ∀ t : Fin cfg3.N, win3_4.index t (0 : Fin 2) = 0 ∧ win3_4.index t (1 : Fin 2) = 0 :=
  (by decide +kernel : ∀ t : Fin grid3.N, _)
/-- The index map of window 5 of region 3 over the grid: block (0, 0). -/
theorem idx3_5 : ∀ t : Fin cfg3.N, win3_5.index t (0 : Fin 2) = 0 ∧ win3_5.index t (1 : Fin 2) = 0 :=
  (by decide +kernel : ∀ t : Fin grid3.N, _)
/-- The index map of window 6 of region 3 over the grid: block (t, 0). -/
theorem idx3_6 : ∀ t : Fin cfg3.N, win3_6.index t (0 : Fin 2) = t.val ∧ win3_6.index t (1 : Fin 2) = 0 :=
  (by decide +kernel : ∀ t : Fin grid3.N, _)

/-- Block t of window 0 of region 3 is rows 5000·t … 5000·t + 4999 of its array. -/
theorem emb3_0 (t : Fin cfg3.N) (p : Fin 5000) (q : Fin 128) (r : Fin 100000) (hr : r.val = 5000 * t.val + p.val) :
    ((cfg3.win 0).blk t).view.emb (ix2 p q) = ix2 r q := by
  obtain ⟨e0, e1⟩ := idx3_0 t
  funext a; apply Fin.ext
  match a with
  | ⟨0, _⟩ => show win3_0.index t (0 : Fin 2) * 5000 + 1 * p.val = r.val; omega
  | ⟨1, _⟩ => show win3_0.index t (1 : Fin 2) * 128 + 1 * q.val = q.val; omega

/-- Block t of window 1 of region 3 is rows 5000·t … 5000·t + 4999 of its one-column array. -/
theorem emb3_1 (t : Fin cfg3.N) (p : Fin 5000) (r : Fin 100000) (hr : r.val = 5000 * t.val + p.val) :
    ((cfg3.win 1).blk t).view.emb (ix2 p (0 : Fin 1)) = ix2 r (0 : Fin 1) := by
  obtain ⟨e0, e1⟩ := idx3_1 t
  funext a; apply Fin.ext
  match a with
  | ⟨0, _⟩ => show win3_1.index t (0 : Fin 2) * 5000 + 1 * p.val = r.val; omega
  | ⟨1, _⟩ => show win3_1.index t (1 : Fin 2) * 1 + 1 * (0 : Fin 1).val = (0 : Fin 1).val; omega

/-- Block t of window 2 of region 3 is rows 5000·t … 5000·t + 4999 of its array. -/
theorem emb3_2 (t : Fin cfg3.N) (p : Fin 5000) (q : Fin 128) (r : Fin 100000) (hr : r.val = 5000 * t.val + p.val) :
    ((cfg3.win 2).blk t).view.emb (ix2 p q) = ix2 r q := by
  obtain ⟨e0, e1⟩ := idx3_2 t
  funext a; apply Fin.ext
  match a with
  | ⟨0, _⟩ => show win3_2.index t (0 : Fin 2) * 5000 + 1 * p.val = r.val; omega
  | ⟨1, _⟩ => show win3_2.index t (1 : Fin 2) * 128 + 1 * q.val = q.val; omega

/-- Window 3 of region 3 is its whole one-row array at every point. -/
theorem emb3_3 (t : Fin cfg3.N) (q : Fin 128) :
    ((cfg3.win 3).blk t).view.emb (ix2 (0 : Fin 1) q) = ix2 (0 : Fin 1) q := by
  obtain ⟨e0, e1⟩ := idx3_3 t
  funext a; apply Fin.ext
  match a with
  | ⟨0, _⟩ => show win3_3.index t (0 : Fin 2) * 1 + 1 * (0 : Fin 1).val = (0 : Fin 1).val; omega
  | ⟨1, _⟩ => show win3_3.index t (1 : Fin 2) * 128 + 1 * q.val = q.val; omega

/-- Window 4 of region 3 is its whole one-row array at every point. -/
theorem emb3_4 (t : Fin cfg3.N) (q : Fin 128) :
    ((cfg3.win 4).blk t).view.emb (ix2 (0 : Fin 1) q) = ix2 (0 : Fin 1) q := by
  obtain ⟨e0, e1⟩ := idx3_4 t
  funext a; apply Fin.ext
  match a with
  | ⟨0, _⟩ => show win3_4.index t (0 : Fin 2) * 1 + 1 * (0 : Fin 1).val = (0 : Fin 1).val; omega
  | ⟨1, _⟩ => show win3_4.index t (1 : Fin 2) * 128 + 1 * q.val = q.val; omega

/-- Window 5 of region 3 is its whole one-row array at every point. -/
theorem emb3_5 (t : Fin cfg3.N) (q : Fin 128) :
    ((cfg3.win 5).blk t).view.emb (ix2 (0 : Fin 1) q) = ix2 (0 : Fin 1) q := by
  obtain ⟨e0, e1⟩ := idx3_5 t
  funext a; apply Fin.ext
  match a with
  | ⟨0, _⟩ => show win3_5.index t (0 : Fin 2) * 1 + 1 * (0 : Fin 1).val = (0 : Fin 1).val; omega
  | ⟨1, _⟩ => show win3_5.index t (1 : Fin 2) * 128 + 1 * q.val = q.val; omega

/-- Block t of window 6 of region 3 is rows 5000·t … 5000·t + 4999 of the output array. -/
theorem emb3_6 (t : Fin cfg3.N) (p : Fin 5000) (q : Fin 128) (r : Fin 100000) (hr : r.val = 5000 * t.val + p.val) :
    ((cfg3.win 6).blk t).view.emb (ix2 p q) = ix2 r q := by
  obtain ⟨e0, e1⟩ := idx3_6 t
  funext a; apply Fin.ext
  match a with
  | ⟨0, _⟩ => show win3_6.index t (0 : Fin 2) * 5000 + 1 * p.val = r.val; omega
  | ⟨1, _⟩ => show win3_6.index t (1 : Fin 2) * 128 + 1 * q.val = q.val; omega

/-- The aggregate's block at point t, element (p, q), is the aggregate at row 5000·t + p. -/
theorem iblk3_0_apply (c : Dev nD) (t : Fin cfg3.N) (p : Fin 5000) (q : Fin 128) (r : Fin 100000)
    (hr : r.val = 5000 * t.val + p.val) :
    (iblk3 V c 0 t : Vec Ideal S5000x128 .f32) (ix2 p q) = agg3 V c (ix2 r q) := by
  show V c (Pipeline.arrRef spec3 0) (((cfg3.win 0).blk t).view.emb (ix2 p q)) = _
  rw [emb3_0 t p q r hr]

/-- The count's block at point t, element p, is the count at row 5000·t + p. -/
theorem iblk3_1_apply (c : Dev nD) (t : Fin cfg3.N) (p : Fin 5000) (r : Fin 100000)
    (hr : r.val = 5000 * t.val + p.val) :
    (iblk3 V c 1 t : Vec Ideal S5000x1 .f32) (ix2 p (0 : Fin 1)) = cnt3 V c (ix2 r (0 : Fin 1)) := by
  show V c (Pipeline.arrRef spec3 1) (((cfg3.win 1).blk t).view.emb (ix2 p (0 : Fin 1))) = _
  rw [emb3_1 t p r hr]

/-- The own projection's block at point t, element (p, q), is the own projection at row 5000·t + p. -/
theorem iblk3_2_apply (c : Dev nD) (t : Fin cfg3.N) (p : Fin 5000) (q : Fin 128) (r : Fin 100000)
    (hr : r.val = 5000 * t.val + p.val) :
    (iblk3 V c 2 t : Vec Ideal S5000x128 .f32) (ix2 p q) = self3 V c (ix2 r q) := by
  show V c (Pipeline.arrRef spec3 2) (((cfg3.win 2).blk t).view.emb (ix2 p q)) = _
  rw [emb3_2 t p q r hr]

/-- The bias window at any point is the bias row. -/
theorem iblk3_3_apply (c : Dev nD) (t : Fin cfg3.N) (q : Fin 128) :
    (iblk3 V c 3 t : Vec Ideal S1x128 .f32) (ix2 (0 : Fin 1) q) = bias3 V c (ix2 (0 : Fin 1) q) := by
  show V c (Pipeline.arrRef spec3 3) (((cfg3.win 3).blk t).view.emb (ix2 (0 : Fin 1) q)) = _
  rw [emb3_3 t q]

/-- The scale window at any point is the scale row. -/
theorem iblk3_4_apply (c : Dev nD) (t : Fin cfg3.N) (q : Fin 128) :
    (iblk3 V c 4 t : Vec Ideal S1x128 .f32) (ix2 (0 : Fin 1) q) = scale3 V c (ix2 (0 : Fin 1) q) := by
  show V c (Pipeline.arrRef spec3 4) (((cfg3.win 4).blk t).view.emb (ix2 (0 : Fin 1) q)) = _
  rw [emb3_4 t q]

/-- The shift window at any point is the shift row. -/
theorem iblk3_5_apply (c : Dev nD) (t : Fin cfg3.N) (q : Fin 128) :
    (iblk3 V c 5 t : Vec Ideal S1x128 .f32) (ix2 (0 : Fin 1) q) = shift3 V c (ix2 (0 : Fin 1) q) := by
  show V c (Pipeline.arrRef spec3 5) (((cfg3.win 5).blk t).view.emb (ix2 (0 : Fin 1) q)) = _
  rw [emb3_5 t q]

/-- What point t of region 3 leaves in the output's staging buffer, element by element. -/
theorem out3_apply (c : Dev nD) (t : Fin cfg3.N) (p : Fin 5000) (q : Fin 128) (r : Fin 100000)
    (hr : r.val = 5000 * t.val + p.val) :
    out3_6 (iblk3 V c 0 t) (iblk3 V c 1 t) (iblk3 V c 2 t) (iblk3 V c 3 t) (iblk3 V c 4 t) (iblk3 V c 5 t) (ix2 p q)
      = combineRelu (agg3 V c) (cnt3 V c) (self3 V c) (bias3 V c) (scale3 V c) (shift3 V c) (ix2 r q) := by
  unfold out3_6
  rw [View.canon_unit_zero zeros2]
  simp only [View.ld_unit_zero (S := S5000x128) zeros2, View.ld_unit_zero (S := S5000x1) zeros2,
    View.ld_unit_zero (S := S1x128) zeros2]
  exact pay3_of_reads _ _ _ _ _ _ _ _ _ _ _ _ p q r (iblk3_0_apply V c t p q r hr) (iblk3_1_apply V c t p r hr)
    (iblk3_2_apply V c t p q r hr) (iblk3_3_apply V c t q) (iblk3_4_apply V c t q) (iblk3_5_apply V c t q)

/-- What point t of region 3 writes back is block t of the combine of the arrays found. -/
theorem flushed3_eq (c : Dev nD) (t : Fin cfg3.N) :
    (dat3 (F := Ideal) V c).flushed 6 t
      = ((cfg3.win 6).blk t).view.read (Elt Ideal)
          (combineRelu (agg3 V c) (cnt3 V c) (self3 V c) (bias3 V c) (scale3 V c) (shift3 V c)) := by
  show (cfg3.win 6).cut (grid3.coords t) ((dat3 (F := Ideal) V c).after 6 t) = _
  rw [after3_6]
  funext j
  obtain ⟨p, q, rfl⟩ : ∃ (p : Fin 5000) (q : Fin 128), j = ix2 p q := ⟨j 0, j 1, eq_ix2 (n0 := 5000) (n1 := 128) j⟩
  have hr : 5000 * t.val + p.val < 100000 := by have := p.isLt; have : t.val < 20 := t.isLt; omega
  show out3_6 (iblk3 V c 0 t) (iblk3 V c 1 t) (iblk3 V c 2 t) (iblk3 V c 3 t) (iblk3 V c 4 t) (iblk3 V c 5 t) (ix2 p q)
    = combineRelu (agg3 V c) (cnt3 V c) (self3 V c) (bias3 V c) (scale3 V c) (shift3 V c)
        (((cfg3.win 6).blk t).view.emb (ix2 p q))
  rw [emb3_6 t p q ⟨5000 * t.val + p.val, hr⟩ rfl]
  exact out3_apply V c t p q ⟨5000 * t.val + p.val, hr⟩ rfl

/-- An index of the output array is in point t's block iff each coordinate is in the block's range on its axis. -/
theorem mem_blk3 (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v39).slice (win3_6.rect t)).set ↔ _
  rw [View.set_slice_whole, Rect.mem_set_unit]
  exact Iff.rfl

/-- The twenty blocks of 5000 rows tile the 100000 rows: row r is in the block of point r / 5000. -/
theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : (i 0).val / 5000 < cfg3.N := by show (i 0).val / 5000 < 20; omega
  obtain ⟨e0, e1⟩ := idx3_6 ⟨(i 0).val / 5000, hN⟩
  have e0' : win3_6.index ⟨(i 0).val / 5000, hN⟩ (0 : Fin 2) = (i 0).val / 5000 := e0
  refine ⟨⟨(i 0).val / 5000, hN⟩, flush3_6 _, ?_⟩
  rw [mem_blk3]
  intro a
  match a with
  | ⟨0, _⟩ =>
    show win3_6.index ⟨(i 0).val / 5000, hN⟩ (0 : Fin 2) * 5000 ≤ (i 0).val
      ∧ (i 0).val < win3_6.index ⟨(i 0).val / 5000, hN⟩ (0 : Fin 2) * 5000 + 5000
    omega
  | ⟨1, _⟩ =>
    show win3_6.index ⟨(i 0).val / 5000, hN⟩ (1 : Fin 2) * 128 ≤ (i 1).val
      ∧ (i 1).val < win3_6.index ⟨(i 0).val / 5000, hN⟩ (1 : Fin 2) * 128 + 128
    omega

/-- The output array of region 3 after the run is the combine of the arrays found. -/
theorem res3_eq (c : Dev nD) :
    res3 V c = combineRelu (agg3 V c) (cnt3 V c) (self3 V c) (bias3 V c) (scale3 V c) (shift3 V c) :=
  (dat3 (F := Ideal) V c).arrAt_eq_of_cover 6 _ (fun t _ => flushed3_eq V c t) cover3

/-- The layer output at (i, j), pointwise in the arrays found. -/
theorem res3_apply (c : Dev nD) (i : Fin 100000) (j : Fin 128) :
    res3 V c (ix2 i j)
      = Cert.Sage.relu (((Ideal.div (agg3 V c (ix2 i j)) (max (cnt3 V c (ix2 i (0 : Fin 1))) 1) + self3 V c (ix2 i j))
          + bias3 V c (ix2 (0 : Fin 1) j)) * scale3 V c (ix2 (0 : Fin 1) j) + shift3 V c (ix2 (0 : Fin 1) j)) :=
  (congrFun (res3_eq V c) (ix2 i j)).trans rfl

/-! ## Region 5: a combine (mean, own projection, bias, affine map) -/

/-- The summed projected in-neighbour rows region 5 finds. -/
abbrev agg5 (c : Dev nD) : FVec Ideal S100000x16 .f32 := V c (Pipeline.arrRef spec5 0)
/-- The in-degree column region 5 finds. -/
abbrev cnt5 (c : Dev nD) : FVec Ideal S100000x1 .f32 := V c (Pipeline.arrRef spec5 1)
/-- The node's own projection region 5 finds. -/
abbrev self5 (c : Dev nD) : FVec Ideal S100000x16 .f32 := V c (Pipeline.arrRef spec5 2)
/-- The bias row region 5 finds. -/
abbrev bias5 (c : Dev nD) : FVec Ideal S1x16 .f32 := V c (Pipeline.arrRef spec5 3)
/-- The scale row region 5 finds. -/
abbrev scale5 (c : Dev nD) : FVec Ideal S1x16 .f32 := V c (Pipeline.arrRef spec5 4)
/-- The shift row region 5 finds. -/
abbrev shift5 (c : Dev nD) : FVec Ideal S1x16 .f32 := V c (Pipeline.arrRef spec5 5)
/-- The layer output region 5 leaves. -/
abbrev res5 (c : Dev nD) : FVec Ideal S100000x16 .f32 := (dat5 (F := Ideal) V c).arrAt 6 cfg5.N

/-- The body's result of region 5 at (p, q): pointwise in the blocks, the column read at p and the rows at q. -/
theorem pay5_apply (x0 : Vec Ideal S5000x16 .f32) (x1 : Vec Ideal S5000x1 .f32) (x2 : Vec Ideal S5000x16 .f32)
    (x3 x4 x5 : Vec Ideal S1x16 .f32) (p : Fin 5000) (q : Fin 16) :
    k5_pay1 x0 x1 x2 x3 x4 x5 (ix2 p q)
      = ((Ideal.div (x0 (ix2 p q)) (max (x1 (ix2 p (0 : Fin 1))) 1) + x2 (ix2 p q)) + x3 (ix2 (0 : Fin 1) q))
          * x4 (ix2 (0 : Fin 1) q) + x5 (ix2 (0 : Fin 1) q) := by
  unfold k5_pay1
  simp only [shapeCast_self]
  rw [addf_apply, mulf_apply, addf_apply, addf_apply, divf_apply,
    broadcastTo_1b_ab_apply, broadcastTo_1b_ab_apply, broadcastTo_1b_ab_apply, broadcastTo_a1_ab_apply,
    maximumf_apply, broadcast_apply, lit_one]

/-- One element of the body's result from one element of each block, when each block's element is an element of its
    array: the combine of the arrays at row r. -/
theorem pay5_of_reads (a0 : Vec Ideal S100000x16 .f32) (a1 : Vec Ideal S100000x1 .f32) (a2 : Vec Ideal S100000x16 .f32)
    (a3 a4 a5 : Vec Ideal S1x16 .f32)
    (x0 : Vec Ideal S5000x16 .f32) (x1 : Vec Ideal S5000x1 .f32) (x2 : Vec Ideal S5000x16 .f32)
    (x3 x4 x5 : Vec Ideal S1x16 .f32) (p : Fin 5000) (q : Fin 16) (r : Fin 100000)
    (h0 : x0 (ix2 p q) = a0 (ix2 r q)) (h1 : x1 (ix2 p (0 : Fin 1)) = a1 (ix2 r (0 : Fin 1)))
    (h2 : x2 (ix2 p q) = a2 (ix2 r q)) (h3 : x3 (ix2 (0 : Fin 1) q) = a3 (ix2 (0 : Fin 1) q))
    (h4 : x4 (ix2 (0 : Fin 1) q) = a4 (ix2 (0 : Fin 1) q)) (h5 : x5 (ix2 (0 : Fin 1) q) = a5 (ix2 (0 : Fin 1) q)) :
    k5_pay1 x0 x1 x2 x3 x4 x5 (ix2 p q) = combine a0 a1 a2 a3 a4 a5 (ix2 r q) := by
  rw [pay5_apply, h0, h1, h2, h3, h4, h5]
  rfl

/-- The index map of window 0 of region 5 over the grid: block (t, 0). -/
theorem idx5_0 : ∀ t : Fin cfg5.N, win5_0.index t (0 : Fin 2) = t.val ∧ win5_0.index t (1 : Fin 2) = 0 :=
  (by decide +kernel : ∀ t : Fin grid5.N, _)
/-- The index map of window 1 of region 5 over the grid: block (t, 0). -/
theorem idx5_1 : ∀ t : Fin cfg5.N, win5_1.index t (0 : Fin 2) = t.val ∧ win5_1.index t (1 : Fin 2) = 0 :=
  (by decide +kernel : ∀ t : Fin grid5.N, _)
/-- The index map of window 2 of region 5 over the grid: block (t, 0). -/
theorem idx5_2 : ∀ t : Fin cfg5.N, win5_2.index t (0 : Fin 2) = t.val ∧ win5_2.index t (1 : Fin 2) = 0 :=
  (by decide +kernel : ∀ t : Fin grid5.N, _)
/-- The index map of window 3 of region 5 over the grid: block (0, 0). -/
theorem idx5_3 : ∀ t : Fin cfg5.N, win5_3.index t (0 : Fin 2) = 0 ∧ win5_3.index t (1 : Fin 2) = 0 :=
  (by decide +kernel : ∀ t : Fin grid5.N, _)
/-- The index map of window 4 of region 5 over the grid: block (0, 0). -/
theorem idx5_4 : ∀ t : Fin cfg5.N, win5_4.index t (0 : Fin 2) = 0 ∧ win5_4.index t (1 : Fin 2) = 0 :=
  (by decide +kernel : ∀ t : Fin grid5.N, _)
/-- The index map of window 5 of region 5 over the grid: block (0, 0). -/
theorem idx5_5 : ∀ t : Fin cfg5.N, win5_5.index t (0 : Fin 2) = 0 ∧ win5_5.index t (1 : Fin 2) = 0 :=
  (by decide +kernel : ∀ t : Fin grid5.N, _)
/-- The index map of window 6 of region 5 over the grid: block (t, 0). -/
theorem idx5_6 : ∀ t : Fin cfg5.N, win5_6.index t (0 : Fin 2) = t.val ∧ win5_6.index t (1 : Fin 2) = 0 :=
  (by decide +kernel : ∀ t : Fin grid5.N, _)

/-- Block t of window 0 of region 5 is rows 5000·t … 5000·t + 4999 of its array. -/
theorem emb5_0 (t : Fin cfg5.N) (p : Fin 5000) (q : Fin 16) (r : Fin 100000) (hr : r.val = 5000 * t.val + p.val) :
    ((cfg5.win 0).blk t).view.emb (ix2 p q) = ix2 r q := by
  obtain ⟨e0, e1⟩ := idx5_0 t
  funext a; apply Fin.ext
  match a with
  | ⟨0, _⟩ => show win5_0.index t (0 : Fin 2) * 5000 + 1 * p.val = r.val; omega
  | ⟨1, _⟩ => show win5_0.index t (1 : Fin 2) * 16 + 1 * q.val = q.val; omega

/-- Block t of window 1 of region 5 is rows 5000·t … 5000·t + 4999 of its one-column array. -/
theorem emb5_1 (t : Fin cfg5.N) (p : Fin 5000) (r : Fin 100000) (hr : r.val = 5000 * t.val + p.val) :
    ((cfg5.win 1).blk t).view.emb (ix2 p (0 : Fin 1)) = ix2 r (0 : Fin 1) := by
  obtain ⟨e0, e1⟩ := idx5_1 t
  funext a; apply Fin.ext
  match a with
  | ⟨0, _⟩ => show win5_1.index t (0 : Fin 2) * 5000 + 1 * p.val = r.val; omega
  | ⟨1, _⟩ => show win5_1.index t (1 : Fin 2) * 1 + 1 * (0 : Fin 1).val = (0 : Fin 1).val; omega

/-- Block t of window 2 of region 5 is rows 5000·t … 5000·t + 4999 of its array. -/
theorem emb5_2 (t : Fin cfg5.N) (p : Fin 5000) (q : Fin 16) (r : Fin 100000) (hr : r.val = 5000 * t.val + p.val) :
    ((cfg5.win 2).blk t).view.emb (ix2 p q) = ix2 r q := by
  obtain ⟨e0, e1⟩ := idx5_2 t
  funext a; apply Fin.ext
  match a with
  | ⟨0, _⟩ => show win5_2.index t (0 : Fin 2) * 5000 + 1 * p.val = r.val; omega
  | ⟨1, _⟩ => show win5_2.index t (1 : Fin 2) * 16 + 1 * q.val = q.val; omega

/-- Window 3 of region 5 is its whole one-row array at every point. -/
theorem emb5_3 (t : Fin cfg5.N) (q : Fin 16) :
    ((cfg5.win 3).blk t).view.emb (ix2 (0 : Fin 1) q) = ix2 (0 : Fin 1) q := by
  obtain ⟨e0, e1⟩ := idx5_3 t
  funext a; apply Fin.ext
  match a with
  | ⟨0, _⟩ => show win5_3.index t (0 : Fin 2) * 1 + 1 * (0 : Fin 1).val = (0 : Fin 1).val; omega
  | ⟨1, _⟩ => show win5_3.index t (1 : Fin 2) * 16 + 1 * q.val = q.val; omega

/-- Window 4 of region 5 is its whole one-row array at every point. -/
theorem emb5_4 (t : Fin cfg5.N) (q : Fin 16) :
    ((cfg5.win 4).blk t).view.emb (ix2 (0 : Fin 1) q) = ix2 (0 : Fin 1) q := by
  obtain ⟨e0, e1⟩ := idx5_4 t
  funext a; apply Fin.ext
  match a with
  | ⟨0, _⟩ => show win5_4.index t (0 : Fin 2) * 1 + 1 * (0 : Fin 1).val = (0 : Fin 1).val; omega
  | ⟨1, _⟩ => show win5_4.index t (1 : Fin 2) * 16 + 1 * q.val = q.val; omega

/-- Window 5 of region 5 is its whole one-row array at every point. -/
theorem emb5_5 (t : Fin cfg5.N) (q : Fin 16) :
    ((cfg5.win 5).blk t).view.emb (ix2 (0 : Fin 1) q) = ix2 (0 : Fin 1) q := by
  obtain ⟨e0, e1⟩ := idx5_5 t
  funext a; apply Fin.ext
  match a with
  | ⟨0, _⟩ => show win5_5.index t (0 : Fin 2) * 1 + 1 * (0 : Fin 1).val = (0 : Fin 1).val; omega
  | ⟨1, _⟩ => show win5_5.index t (1 : Fin 2) * 16 + 1 * q.val = q.val; omega

/-- Block t of window 6 of region 5 is rows 5000·t … 5000·t + 4999 of the output array. -/
theorem emb5_6 (t : Fin cfg5.N) (p : Fin 5000) (q : Fin 16) (r : Fin 100000) (hr : r.val = 5000 * t.val + p.val) :
    ((cfg5.win 6).blk t).view.emb (ix2 p q) = ix2 r q := by
  obtain ⟨e0, e1⟩ := idx5_6 t
  funext a; apply Fin.ext
  match a with
  | ⟨0, _⟩ => show win5_6.index t (0 : Fin 2) * 5000 + 1 * p.val = r.val; omega
  | ⟨1, _⟩ => show win5_6.index t (1 : Fin 2) * 16 + 1 * q.val = q.val; omega

/-- The aggregate's block at point t, element (p, q), is the aggregate at row 5000·t + p. -/
theorem iblk5_0_apply (c : Dev nD) (t : Fin cfg5.N) (p : Fin 5000) (q : Fin 16) (r : Fin 100000)
    (hr : r.val = 5000 * t.val + p.val) :
    (iblk5 V c 0 t : Vec Ideal S5000x16 .f32) (ix2 p q) = agg5 V c (ix2 r q) := by
  show V c (Pipeline.arrRef spec5 0) (((cfg5.win 0).blk t).view.emb (ix2 p q)) = _
  rw [emb5_0 t p q r hr]

/-- The count's block at point t, element p, is the count at row 5000·t + p. -/
theorem iblk5_1_apply (c : Dev nD) (t : Fin cfg5.N) (p : Fin 5000) (r : Fin 100000)
    (hr : r.val = 5000 * t.val + p.val) :
    (iblk5 V c 1 t : Vec Ideal S5000x1 .f32) (ix2 p (0 : Fin 1)) = cnt5 V c (ix2 r (0 : Fin 1)) := by
  show V c (Pipeline.arrRef spec5 1) (((cfg5.win 1).blk t).view.emb (ix2 p (0 : Fin 1))) = _
  rw [emb5_1 t p r hr]

/-- The own projection's block at point t, element (p, q), is the own projection at row 5000·t + p. -/
theorem iblk5_2_apply (c : Dev nD) (t : Fin cfg5.N) (p : Fin 5000) (q : Fin 16) (r : Fin 100000)
    (hr : r.val = 5000 * t.val + p.val) :
    (iblk5 V c 2 t : Vec Ideal S5000x16 .f32) (ix2 p q) = self5 V c (ix2 r q) := by
  show V c (Pipeline.arrRef spec5 2) (((cfg5.win 2).blk t).view.emb (ix2 p q)) = _
  rw [emb5_2 t p q r hr]

/-- The bias window at any point is the bias row. -/
theorem iblk5_3_apply (c : Dev nD) (t : Fin cfg5.N) (q : Fin 16) :
    (iblk5 V c 3 t : Vec Ideal S1x16 .f32) (ix2 (0 : Fin 1) q) = bias5 V c (ix2 (0 : Fin 1) q) := by
  show V c (Pipeline.arrRef spec5 3) (((cfg5.win 3).blk t).view.emb (ix2 (0 : Fin 1) q)) = _
  rw [emb5_3 t q]

/-- The scale window at any point is the scale row. -/
theorem iblk5_4_apply (c : Dev nD) (t : Fin cfg5.N) (q : Fin 16) :
    (iblk5 V c 4 t : Vec Ideal S1x16 .f32) (ix2 (0 : Fin 1) q) = scale5 V c (ix2 (0 : Fin 1) q) := by
  show V c (Pipeline.arrRef spec5 4) (((cfg5.win 4).blk t).view.emb (ix2 (0 : Fin 1) q)) = _
  rw [emb5_4 t q]

/-- The shift window at any point is the shift row. -/
theorem iblk5_5_apply (c : Dev nD) (t : Fin cfg5.N) (q : Fin 16) :
    (iblk5 V c 5 t : Vec Ideal S1x16 .f32) (ix2 (0 : Fin 1) q) = shift5 V c (ix2 (0 : Fin 1) q) := by
  show V c (Pipeline.arrRef spec5 5) (((cfg5.win 5).blk t).view.emb (ix2 (0 : Fin 1) q)) = _
  rw [emb5_5 t q]

/-- What point t of region 5 leaves in the output's staging buffer, element by element. -/
theorem out5_apply (c : Dev nD) (t : Fin cfg5.N) (p : Fin 5000) (q : Fin 16) (r : Fin 100000)
    (hr : r.val = 5000 * t.val + p.val) :
    out5_6 (iblk5 V c 0 t) (iblk5 V c 1 t) (iblk5 V c 2 t) (iblk5 V c 3 t) (iblk5 V c 4 t) (iblk5 V c 5 t) (ix2 p q)
      = combine (agg5 V c) (cnt5 V c) (self5 V c) (bias5 V c) (scale5 V c) (shift5 V c) (ix2 r q) := by
  unfold out5_6
  rw [View.canon_unit_zero zeros2]
  simp only [View.ld_unit_zero (S := S5000x16) zeros2, View.ld_unit_zero (S := S5000x1) zeros2,
    View.ld_unit_zero (S := S1x16) zeros2]
  exact pay5_of_reads _ _ _ _ _ _ _ _ _ _ _ _ p q r (iblk5_0_apply V c t p q r hr) (iblk5_1_apply V c t p r hr)
    (iblk5_2_apply V c t p q r hr) (iblk5_3_apply V c t q) (iblk5_4_apply V c t q) (iblk5_5_apply V c t q)

/-- What point t of region 5 writes back is block t of the combine of the arrays found. -/
theorem flushed5_eq (c : Dev nD) (t : Fin cfg5.N) :
    (dat5 (F := Ideal) V c).flushed 6 t
      = ((cfg5.win 6).blk t).view.read (Elt Ideal)
          (combine (agg5 V c) (cnt5 V c) (self5 V c) (bias5 V c) (scale5 V c) (shift5 V c)) := by
  show (cfg5.win 6).cut (grid5.coords t) ((dat5 (F := Ideal) V c).after 6 t) = _
  rw [after5_6]
  funext j
  obtain ⟨p, q, rfl⟩ : ∃ (p : Fin 5000) (q : Fin 16), j = ix2 p q := ⟨j 0, j 1, eq_ix2 (n0 := 5000) (n1 := 16) j⟩
  have hr : 5000 * t.val + p.val < 100000 := by have := p.isLt; have : t.val < 20 := t.isLt; omega
  show out5_6 (iblk5 V c 0 t) (iblk5 V c 1 t) (iblk5 V c 2 t) (iblk5 V c 3 t) (iblk5 V c 4 t) (iblk5 V c 5 t) (ix2 p q)
    = combine (agg5 V c) (cnt5 V c) (self5 V c) (bias5 V c) (scale5 V c) (shift5 V c)
        (((cfg5.win 6).blk t).view.emb (ix2 p q))
  rw [emb5_6 t p q ⟨5000 * t.val + p.val, hr⟩ rfl]
  exact out5_apply V c t p q ⟨5000 * t.val + p.val, hr⟩ rfl

/-- An index of the output array is in point t's block iff each coordinate is in the block's range on its axis. -/
theorem mem_blk5 (t : Fin cfg5.N) (i : S100000x16.Idx) :
    i ∈ ((cfg5.win 6).blk t).view.set ↔ ∀ a : Fin 2, win5_6.index t a * S5000x16.size a ≤ (i a).val
      ∧ (i a).val < win5_6.index t a * S5000x16.size a + S5000x16.size a := by
  show i ∈ ((View.whole main_v48).slice (win5_6.rect t)).set ↔ _
  rw [View.set_slice_whole, Rect.mem_set_unit]
  exact Iff.rfl

/-- The twenty blocks of 5000 rows tile the 100000 rows: row r is in the block of point r / 5000. -/
theorem cover5 (i : S100000x16.Idx) :
    ∃ t : Fin cfg5.N, (cfg5.win 6).flush t = true ∧ i ∈ ((cfg5.win 6).blk t).view.set := by
  have hi0 : (i 0).val < 100000 := (i 0).isLt
  have hi1 : (i 1).val < 16 := (i 1).isLt
  have hN : (i 0).val / 5000 < cfg5.N := by show (i 0).val / 5000 < 20; omega
  obtain ⟨e0, e1⟩ := idx5_6 ⟨(i 0).val / 5000, hN⟩
  have e0' : win5_6.index ⟨(i 0).val / 5000, hN⟩ (0 : Fin 2) = (i 0).val / 5000 := e0
  refine ⟨⟨(i 0).val / 5000, hN⟩, flush5_6 _, ?_⟩
  rw [mem_blk5]
  intro a
  match a with
  | ⟨0, _⟩ =>
    show win5_6.index ⟨(i 0).val / 5000, hN⟩ (0 : Fin 2) * 5000 ≤ (i 0).val
      ∧ (i 0).val < win5_6.index ⟨(i 0).val / 5000, hN⟩ (0 : Fin 2) * 5000 + 5000
    omega
  | ⟨1, _⟩ =>
    show win5_6.index ⟨(i 0).val / 5000, hN⟩ (1 : Fin 2) * 16 ≤ (i 1).val
      ∧ (i 1).val < win5_6.index ⟨(i 0).val / 5000, hN⟩ (1 : Fin 2) * 16 + 16
    omega

/-- The output array of region 5 after the run is the combine of the arrays found. -/
theorem res5_eq (c : Dev nD) :
    res5 V c = combine (agg5 V c) (cnt5 V c) (self5 V c) (bias5 V c) (scale5 V c) (shift5 V c) :=
  (dat5 (F := Ideal) V c).arrAt_eq_of_cover 6 _ (fun t _ => flushed5_eq V c t) cover5

/-- The layer output at (i, j), pointwise in the arrays found. -/
theorem res5_apply (c : Dev nD) (i : Fin 100000) (j : Fin 16) :
    res5 V c (ix2 i j)
      = (((Ideal.div (agg5 V c (ix2 i j)) (max (cnt5 V c (ix2 i (0 : Fin 1))) 1) + self5 V c (ix2 i j))
          + bias5 V c (ix2 (0 : Fin 1) j)) * scale5 V c (ix2 (0 : Fin 1) j) + shift5 V c (ix2 (0 : Fin 1) j)) :=
  (congrFun (res5_eq V c) (ix2 i j)).trans rfl

end Cert.KernelIdeal.SageCombine

end
-- ==== Proof.KLayer0.lean ====
/-
  The first layer of the kernel program, read from the launch memory to the boundary after its combine region: the
  projection region multiplies the features by the two weight matrices; the host gathers the projected row of every
  edge's source and sums the gathered rows at the edge's destination; the combine region divides by the in-degree (at
  least one), adds the node's own projection and the bias, applies the folded normalisation and the positive part. Read
  at (i, j) that is the specification's first hidden layer in its projected form.
-/
import proofs.«420429_j56581899157895_2_alg».proof.Proof.KNames
import proofs.«420429_j56581899157895_2_alg».proof.Proof.KCarried
import proofs.«420429_j56581899157895_2_alg».proof.Proof.RegionsProj
import proofs.«420429_j56581899157895_2_alg».proof.Proof.RegionsComb
import proofs.«420429_j56581899157895_2_alg».proof.Proof.Rows
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.IdealHost
import Idealize.ShloMosaic.PureOps.Ideal.Laws

set_option maxRecDepth 16384

noncomputable section

open scoped BigOperators

namespace Cert.KernelIdeal.SageLayer0

open Cert.KernelIdeal Cert.KernelIdeal.Gen Cert.KernelIdeal.SageNames Cert.KernelIdeal.SageStage0 Cert.KernelIdeal.SageCarried
open Cert.KernelIdeal.SageRegions Cert.KernelIdeal.SageCombine Cert.Sage Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-! ## The row gather that the program spells as a clamped, masked take -/

/-- The gather of table rows at index words as the program spells it: a negative word is first moved up by the table's
    height, the gather clamps the word into the table, and rows whose moved word lies outside the table are replaced by
    a not-a-number pattern. -/
def takeOf (T : FVec Ideal S100000x128 .f32) (s : IVec S1600000 32) : FVec Ideal S1600000x128 .f32 :=
  select
    (broadcastInDim S1600000x128 ![0] bcast_S1600000_S1600000x128_0
      (Host.reduce IntOp.andi
        (andi
          (cmpi .sge
            (broadcastInDim S1600000x1 ![0] bcast_S1600000_S1600000x1_0
              (select (cmpi .slt s (broadcastInDim S1600000 ![] bcast_S_S1600000 (constantI S_ 32 0#32)))
                (addi s (broadcastInDim S1600000 ![] bcast_S_S1600000 (constantI S_ 32 100000#32))) s))
            (broadcastInDim S1600000x1 ![] bcast_S_S1600000x1 (constantI S_ 32 0#32)))
          (cmpi .sle
            (broadcastInDim S1600000x1 ![0] bcast_S1600000_S1600000x1_0
              (select (cmpi .slt s (broadcastInDim S1600000 ![] bcast_S_S1600000 (constantI S_ 32 0#32)))
                (addi s (broadcastInDim S1600000 ![] bcast_S_S1600000 (constantI S_ 32 100000#32))) s))
            (broadcastInDim S1600000x1 ![0, 1] bcast_S1x1_S1600000x1_0_1
              (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 T
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))
    (broadcastInDim S1600000x128 ![] bcast_S_S1600000x128 (constant (F := Ideal) S_ .f32 0x7FC00000#32))

/-! ## Words in range -/

/-- A word that reads signed as a non-negative number is not below zero. -/
theorem slt_zero_of_nonneg (w : BitVec 32) (h : 0 ≤ w.toInt) : IntOp.cmpi .slt w 0#32 = 0#1 := by
  have e : (0#32 : BitVec 32).toInt = 0 := by decide
  have hb : w.slt 0#32 = false := by
    rw [Bool.eq_false_iff]; intro hh; rw [BitVec.slt_iff_toInt_lt, e] at hh; omega
  show BitVec.ofBool (w.slt 0#32) = 0#1
  rw [hb]; rfl

/-- A word that reads signed as a non-negative number is at least zero. -/
theorem sge_zero_of_nonneg (w : BitVec 32) (h : 0 ≤ w.toInt) : IntOp.cmpi .sge w 0#32 = 1#1 := by
  have e : (0#32 : BitVec 32).toInt = 0 := by decide
  have hb : (0#32 : BitVec 32).sle w = true := by rw [BitVec.sle_iff_toInt_le, e]; exact h
  show BitVec.ofBool ((0#32 : BitVec 32).sle w) = 1#1
  rw [hb]; rfl

/-- A word that reads signed below the table's height is at most the last row. -/
theorem sle_last_of_lt (w : BitVec 32) (h : w.toInt < 100000) : IntOp.cmpi .sle w 99999#32 = 1#1 := by
  have e : (99999#32 : BitVec 32).toInt = 99999 := by decide
  have hb : w.sle 99999#32 = true := by rw [BitVec.sle_iff_toInt_le, e]; omega
  show BitVec.ofBool (w.sle 99999#32) = 1#1
  rw [hb]; rfl

/-- A fold by the conjunction from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    show List.foldl (fun r n => IntOp.andi r (f n)) (IntOp.andi 1#1 (f a)) l = 1#1
    rw [hf a, show IntOp.andi (1#1 : BitVec 1) 1#1 = 1#1 from by decide]
    exact foldl_andi_one f hf l

/-- A reduction by the conjunction from 1 of an array of ones is 1 everywhere. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x hx _

/-! ## The gather of rows at words in range -/

/-- The index word after the program's move of negative words, at an edge whose word is not negative: the word itself. -/
theorem moved_apply (s : IVec S1600000 32) (e : Fin 1600000) (h : 0 ≤ (s (ix1 e)).toInt) :
    select (cmpi .slt s (broadcastInDim S1600000 ![] bcast_S_S1600000 (constantI S_ 32 0#32)))
        (addi s (broadcastInDim S1600000 ![] bcast_S_S1600000 (constantI S_ 32 100000#32))) s (ix1 e)
      = s (ix1 e) := by
  rw [select_apply]
  have hc : cmpi .slt s (broadcastInDim S1600000 ![] bcast_S_S1600000 (constantI S_ 32 0#32)) (ix1 e)
      = IntOp.cmpi .slt (s (ix1 e)) 0#32 := rfl
  rw [hc, slt_zero_of_nonneg _ h, select_zero]

/-- A vector laid as a one-column array reads, at (e, 0), the vector at e. -/
theorem column_apply {α : Type} (v : S1600000.Idx → α) (e : Fin 1600000) :
    broadcastInDim S1600000x1 ![0] bcast_S1600000_S1600000x1_0 v (ix2 e (0 : Fin 1)) = v (ix1 e) :=
  broadcastInDim_apply _ _ _ _ _ (fun a => match a with | ⟨0, _⟩ => rfl)

/-- A vector copied along the columns of a 128-column array reads, at (e, k), the vector at e. -/
theorem alongRows_apply {α : Type} (v : S1600000.Idx → α) (e : Fin 1600000) (k : Fin 128) :
    broadcastInDim S1600000x128 ![0] bcast_S1600000_S1600000x128_0 v (ix2 e k) = v (ix1 e) :=
  broadcastInDim_apply _ _ _ _ _ (fun a => match a with | ⟨0, _⟩ => rfl)

/-- The program's gather of table rows at index words that all name rows of the table: row by row, the table's row. -/
theorem takeOf_apply (T : FVec Ideal S100000x128 .f32) (s : IVec S1600000 32)
    (hs : ∀ e : Fin 1600000, 0 ≤ (s (ix1 e)).toInt ∧ (s (ix1 e)).toInt < 100000) (e : Fin 1600000) (k : Fin 128) :
    takeOf T s (ix2 e k) = T (ix2 (rowOf (s (ix1 e))) k) := by
  unfold takeOf
  rw [select_apply, alongRows_apply]
  rw [reduce_andi_of_all _ _ _ _ rfl (fun i => by
    obtain ⟨e', u, rfl⟩ : ∃ (e' : Fin 1600000) (u : Fin 1), i = ix2 e' u := ⟨i 0, i 1, eq_ix2 i⟩
    have hu : u = 0 := Subsingleton.elim _ _
    subst hu
    show IntOp.andi (IntOp.cmpi .sge _ 0#32) (IntOp.cmpi .sle _ 99999#32) = 1#1
    rw [column_apply, moved_apply s e' (hs e').1, sge_zero_of_nonneg _ (hs e').1, sle_last_of_lt _ (hs e').2]
    decide)]
  rw [select_one]
  rw [gather_rows_apply (by decide) _ rfl rfl rfl rfl rfl rfl rfl]
  refine congrArg T (congrArg (fun r => ix2 r k) (Fin.ext ?_))
  show min (_ : BitVec 32).toInt.toNat (100000 - 1) = min (s (ix1 e)).toInt.toNat (nodes - 1)
  rw [column_apply, moved_apply s e (hs e).1]

/-! ## The two host stretches between region 0 and region 1, over any contents before them -/

/-- A value carried to a buffer's own type and back is unchanged. -/
theorem cast_cast_id {α β : Type} (h1 : β = α) (h2 : α = β) (v : α) : cast h1 (cast h2 v) = v := by
  subst h2; rfl

/-- The first stretch leaves, in its result buffer, the program's gather of the projection's rows at the source words. -/
theorem take_after (V : Valuation τ sig (Elt Ideal)) :
    StableHlo.after (hostOps1 (F := Ideal)) V (Proc.devRef .tc main_v23)
      = (TRef.of main_v23 : TRef sig ⟨S1600000x128, .f32⟩).toBuf
          (takeOf ((TRef.of main_v22_0 : TRef sig ⟨S100000x128, .f32⟩).ofBuf (V (Proc.devRef .tc main_v22_0)))
            ((TRef.of main_v1 : TRef sig ⟨S1600000, .i32⟩).ofBuf (V (Proc.devRef .tc main_v1)))) := by
  after_results_simp
  simp only [cast_cast_id]
  rfl

/-- The typed views of the buffers the first stretch reads and writes are the buffers' own contents. -/
theorem ofBuf_v22_0 (w : FVec Ideal S100000x128 .f32) :
    (TRef.of main_v22_0 : TRef sig ⟨S100000x128, .f32⟩).ofBuf (Val := Elt Ideal) w = w := rfl
theorem ofBuf_v1 (w : IVec S1600000 32) :
    (TRef.of main_v1 : TRef sig ⟨S1600000, .i32⟩).ofBuf (Val := Elt Ideal) w = w := rfl
theorem ofBuf_v23 (w : FVec Ideal S1600000x128 .f32) :
    (TRef.of main_v23 : TRef sig ⟨S1600000x128, .f32⟩).ofBuf (Val := Elt Ideal) w = w := rfl
theorem ofBuf_toBuf {T : BufTy} (x : TRef sig T) (v : T.Contents (Elt Ideal)) : x.ofBuf (x.toBuf v) = v :=
  cast_cast_id _ _ v

/-- The same without the typed views, over the two arrays the stretch finds. -/
theorem take_after_eq (V : Valuation τ sig (Elt Ideal)) (T : FVec Ideal S100000x128 .f32) (s : IVec S1600000 32)
    (hT : V (Proc.devRef .tc main_v22_0) = T) (hS : V (Proc.devRef .tc main_v1) = s) :
    (StableHlo.after (hostOps1 (F := Ideal)) V (Proc.devRef .tc main_v23) : FVec Ideal S1600000x128 .f32) = takeOf T s := by
  rw [← ofBuf_v23 (StableHlo.after (hostOps1 (F := Ideal)) V (Proc.devRef .tc main_v23)), take_after, ofBuf_toBuf,
    ofBuf_v22_0, ofBuf_v1, hT, hS]

/-- The second stretch leaves, in the aggregate's buffer, the gathered rows summed at the destination words into zeros; -/
theorem agg_after (V : Valuation τ sig (Elt Ideal)) :
    StableHlo.after (hostOps1_1 (F := Ideal)) V (Proc.devRef .tc main_v26)
      = (Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (V (Proc.devRef .tc main_v3)))
          (V (Proc.devRef .tc main_v23)) : FVec Ideal S100000x128 .f32) := by
  after_results

/-- in the bias row's buffer, the bias vector as one row; -/
theorem bias_after (V : Valuation τ sig (Elt Ideal)) :
    StableHlo.after (hostOps1_1 (F := Ideal)) V (Proc.devRef .tc main_v27)
      = (shapeCast S1x128 (V (Proc.devRef .tc main_arg3) : FVec Ideal S128 .f32) shapeCasts_S128_S1x128 : FVec Ideal S1x128 .f32) := by
  after_results
  rfl

/-- in the scale row's buffer, the folded factor as one row; -/
theorem scale_after (V : Valuation τ sig (Elt Ideal)) :
    StableHlo.after (hostOps1_1 (F := Ideal)) V (Proc.devRef .tc main_v28)
      = (shapeCast S1x128 (V (Proc.devRef .tc main_v11) : FVec Ideal S128 .f32) shapeCasts_S128_S1x128 : FVec Ideal S1x128 .f32) := by
  after_results
  rfl

/-- in the shift row's buffer, the folded offset as one row. -/
theorem shift_after (V : Valuation τ sig (Elt Ideal)) :
    StableHlo.after (hostOps1_1 (F := Ideal)) V (Proc.devRef .tc main_v29)
      = (shapeCast S1x128 (V (Proc.devRef .tc main_v13) : FVec Ideal S128 .f32) shapeCasts_S128_S1x128 : FVec Ideal S1x128 .f32) := by
  after_results
  rfl

/-- Neither stretch writes the buffer of the node's own projection. -/
theorem self_after (V : Valuation τ sig (Elt Ideal)) :
    StableHlo.after (hostOps1_1 (F := Ideal)) (StableHlo.after (hostOps1 (F := Ideal)) V) (Proc.devRef .tc main_v22_1)
      = V (Proc.devRef .tc main_v22_1) :=
  calc StableHlo.after (hostOps1_1 (F := Ideal)) (StableHlo.after (hostOps1 (F := Ideal)) V) (Proc.devRef .tc main_v22_1)
    _ = StableHlo.after (hostOps1 (F := Ideal)) V (Proc.devRef .tc main_v22_1) := StableHlo.after_of_forall_not_mem (b := Proc.devRef .tc main_v22_1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V (Proc.devRef .tc main_v22_1) := StableHlo.after_of_forall_not_mem (b := Proc.devRef .tc main_v22_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## What region 1 finds in its input arrays, element by element -/

/-- The projection for the neighbours that region 0 leaves, at (i, j), over the first argument's rows. -/
theorem table_apply (c : Dev nD) (i : Fin 100000) (j : Fin 128) :
    yn0 (V1 m ρ) c (ix2 i j) = ∑ k : Fin 128, at2 (aX m c) i k * at2 (aWn0 m c) k j := by
  rw [yn0_apply]
  have e1 : feat0 (V1 m ρ) c = aX m c := x_at1 m ρ c
  have e2 : wn0 (V1 m ρ) c = aWn0 m c := wn0_at1 m ρ c
  rw [e1, e2]

/-- The node's own projection that region 0 leaves, at (i, j). -/
theorem own_apply (c : Dev nD) (i : Fin 100000) (j : Fin 128) :
    ys0 (V1 m ρ) c (ix2 i j) = ∑ k : Fin 128, at2 (aX m c) i k * at2 (aWs0 m c) k j := by
  rw [ys0_apply]
  have e1 : feat0 (V1 m ρ) c = aX m c := x_at1 m ρ c
  have e2 : ws0 (V1 m ρ) c = aWs0 m c := ws0_at1 m ρ c
  rw [e1, e2]

/-- The rows gathered for the edges, at (e, k): the projected row of the edge's source node. -/
theorem taken_apply (c : Dev nD) (hsrc : ∀ e, 0 ≤ (srcW m c e).toInt ∧ (srcW m c e).toInt < (nodes : ℤ))
    (e : Fin 1600000) (k : Fin 128) :
    (W3 m ρ c (Proc.devRef .tc main_v23) : FVec Ideal S1600000x128 .f32) (ix2 e k)
      = ∑ q : Fin 128, at2 (aX m c) (rowOf (srcW m c e)) q * at2 (aWn0 m c) q k := by
  have hs : ∀ e : Fin 1600000, 0 ≤ (srcArr m c (ix1 e)).toInt ∧ (srcArr m c (ix1 e)).toInt < 100000 := fun e => by
    rw [srcArr_apply]
    have h2 : (srcW m c e).toInt < ((100000 : ℕ) : ℤ) := (hsrc e).2
    exact ⟨(hsrc e).1, by omega⟩
  have h := take_after_eq (W2 m ρ c) (yn0 (V1 m ρ) c) (srcArr m c) (W2_arr m ρ c 3) (src_at2 m ρ c)
  have h' : (W3 m ρ c (Proc.devRef .tc main_v23) : FVec Ideal S1600000x128 .f32) = takeOf (yn0 (V1 m ρ) c) (srcArr m c) := h
  rw [h', takeOf_apply _ _ hs e k, srcArr_apply, table_apply]

/-- The host's accumulating row scatter at the ideal values, at (i, j), at any sizes. -/
theorem host_scatterAdd_rows {N C E w : ℕ} (d : ScatterDims (⟨2, ![N, C]⟩ : Shape) ⟨2, ![E, 1]⟩ ⟨2, ![E, C]⟩)
    (huw : d.updateWindowDims = [1]) (hiw : d.insertedWindowDims = [0]) (hsd : d.scatterDimsToOperandDims = [0])
    (hivd : d.indexVectorDim = 1) (x : FVec Ideal (⟨2, ![N, C]⟩ : Shape) .f32) (idx : IVec (⟨2, ![E, 1]⟩ : Shape) w)
    (upd : FVec Ideal (⟨2, ![E, C]⟩ : Shape) .f32) (i : Fin N) (j : Fin C) :
    Host.scatterAdd (F := Ideal) d x idx upd (ix2 i j)
      = x (ix2 i j) + ∑ e ∈ Finset.univ.filter (fun e : Fin E => (idx (ix2 e (0 : Fin 1))).toInt = (i.val : ℤ)),
          upd (ix2 e j) :=
  scatterAdd_rows_apply d huw hiw hsd hivd x idx upd i j

/-- Rows summed at the destination words into an array of zeros: at (i, j), the sum over the edges into node i. -/
theorem scatter_into (x : FVec Ideal S100000x128 .f32) (idx : IVec S1600000x1 32) (upd : FVec Ideal S1600000x128 .f32)
    (dw : Fin edges → BitVec 32) (hx : ∀ i j, x (ix2 i j) = 0) (hidx : ∀ e : Fin 1600000, idx (ix2 e (0 : Fin 1)) = dw e)
    (i : Fin 100000) (j : Fin 128) :
    Host.scatterAdd (F := Ideal) scatter_S100000x128_S1600000x1_S1600000x128_1_0_0_1 x idx upd (ix2 i j)
      = ∑ e ∈ into dw i, upd (ix2 e j) := by
  rw [host_scatterAdd_rows scatter_S100000x128_S1600000x1_S1600000x128_1_0_0_1 rfl rfl rfl rfl, hx, zero_add]
  unfold into
  exact Finset.sum_congr (Finset.filter_congr fun e _ => by rw [hidx e]) fun _ _ => rfl

/-- The aggregate region 1 finds, at (i, j): the projected rows of the in-neighbours' sources, summed. -/
theorem agg_apply (c : Dev nD) (hsrc : ∀ e, 0 ≤ (srcW m c e).toInt ∧ (srcW m c e).toInt < (nodes : ℤ))
    (i : Fin 100000) (j : Fin 128) :
    agg1 (V4 m ρ) c (ix2 i j)
      = ∑ e ∈ into (dstW m c) i, ∑ k : Fin 128, at2 (aX m c) (rowOf (srcW m c e)) k * at2 (aWn0 m c) k j := by
  have e0 : agg1 (V4 m ρ) c = StableHlo.after (hostOps1_1 (F := Ideal)) (W3 m ρ c) (Proc.devRef .tc main_v26) := rfl
  have hz : ∀ (i : Fin 100000) (j : Fin 128),
      broadcastInDim S100000x128 ![] bcast_S_S100000x128 (constant (F := Ideal) S_ .f32 0x00000000#32) (ix2 i j) = 0 :=
    fun _ _ => Ideal.ofBits_zero_f32
  have hd : ∀ e : Fin 1600000,
      broadcastInDim S1600000x1 ![0] bcast_S1600000_S1600000x1_0 (dstArr m c) (ix2 e (0 : Fin 1)) = dstW m c e := fun e => by
    rw [column_apply]
    exact dstArr_apply m c e
  rw [e0, agg_after, dst_at3, scatter_into _ _ _ (dstW m c) hz hd]
  exact Finset.sum_congr rfl fun e _ => taken_apply m ρ c hsrc e j

/-- The in-degree column region 1 finds. -/
theorem cnt_apply (c : Dev nD) (i : Fin 100000) : cnt1 (V4 m ρ) c (ix2 i (0 : Fin 1)) = deg (dstW m c) i := by
  have e0 : cnt1 (V4 m ρ) c = W4 m ρ c (Proc.devRef .tc main_v7) := rfl
  rw [e0, cnt_at4, cntArr_apply]

/-- The node's own projection region 1 finds: neither stretch touched what region 0 left. -/
theorem self_apply (c : Dev nD) (i : Fin 100000) (j : Fin 128) :
    self1 (V4 m ρ) c (ix2 i j) = ∑ k : Fin 128, at2 (aX m c) i k * at2 (aWs0 m c) k j := by
  have e0 : self1 (V4 m ρ) c
      = StableHlo.after (hostOps1_1 (F := Ideal)) (StableHlo.after (hostOps1 (F := Ideal)) (W2 m ρ c)) (Proc.devRef .tc main_v22_1) := rfl
  have e1 : W2 m ρ c (Proc.devRef .tc main_v22_1) = ys0 (V1 m ρ) c := W2_arr m ρ c 4
  rw [e0, self_after, e1, own_apply]

/-- The bias row region 1 finds. -/
theorem bias_apply (c : Dev nD) (j : Fin 128) : bias1 (V4 m ρ) c (ix2 (0 : Fin 1) j) = at1 (aB0 m c) j := by
  have e0 : bias1 (V4 m ρ) c = StableHlo.after (hostOps1_1 (F := Ideal)) (W3 m ρ c) (Proc.devRef .tc main_v27) := rfl
  rw [e0, bias_after, b0_at3, shapeCast_a_1a_apply]

/-- The scale row region 1 finds. -/
theorem scale_apply (c : Dev nD) (j : Fin 128) :
    scale1 (V4 m ρ) c (ix2 (0 : Fin 1) j) = scaleOf eps32 (at1 (aG0 m c)) (at1 (aRv0 m c)) j := by
  have e0 : scale1 (V4 m ρ) c = StableHlo.after (hostOps1_1 (F := Ideal)) (W3 m ρ c) (Proc.devRef .tc main_v28) := rfl
  rw [e0, scale_after, scale0_at3, shapeCast_a_1a_apply, scale0Arr_apply]

/-- The shift row region 1 finds. -/
theorem shift_apply (c : Dev nD) (j : Fin 128) :
    shift1 (V4 m ρ) c (ix2 (0 : Fin 1) j)
      = shiftOf eps32 (at1 (aG0 m c)) (at1 (aRv0 m c)) (at1 (aBe0 m c)) (at1 (aRm0 m c)) j := by
  have e0 : shift1 (V4 m ρ) c = StableHlo.after (hostOps1_1 (F := Ideal)) (W3 m ρ c) (Proc.devRef .tc main_v29) := rfl
  rw [e0, shift_after, shift0_at3, shapeCast_a_1a_apply, shift0Arr_apply]

/-- The array after region 1 is the first hidden layer in projected form, when every source word is a node number. -/
theorem h1A_apply (c : Dev nD) (hsrc : ∀ e, 0 ≤ (srcW m c e).toInt ∧ (srcW m c e).toInt < (nodes : ℤ)) (i : Fin 100000) (j : Fin 128) :
    h1A m ρ c (ix2 i j)
      = kHidden1 (srcW m c) (dstW m c) eps32 (at2 (aX m c)) (at2 (aWn0 m c)) (at1 (aB0 m c)) (at2 (aWs0 m c))
          (at1 (aG0 m c)) (at1 (aBe0 m c)) (at1 (aRm0 m c)) (at1 (aRv0 m c)) i j := by
  have e0 : h1A m ρ c = res1 (V4 m ρ) c := W5_arr m ρ c 6
  rw [e0, res1_apply, agg_apply m ρ c hsrc, cnt_apply, self_apply, bias_apply, scale_apply, shift_apply]
  rfl

end Cert.KernelIdeal.SageLayer0

end
-- ==== Proof.KLayer1.lean ====
/-
  The second layer of the kernel program, read from the boundary after region 1 to the boundary after region 3: project
  the first hidden layer, gather each edge's source row of the projection and sum at the destination, then combine with
  the second normalisation's folded factor and offset and the positive part. Read at (i, j) that is one projected-form
  layer applied to whatever the first hidden layer holds.
-/
import proofs.«420429_j56581899157895_2_alg».proof.Proof.KNames
import proofs.«420429_j56581899157895_2_alg».proof.Proof.KCarried
import proofs.«420429_j56581899157895_2_alg».proof.Proof.RegionsProj
import proofs.«420429_j56581899157895_2_alg».proof.Proof.RegionsComb
import proofs.«420429_j56581899157895_2_alg».proof.Proof.Rows
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.IdealHost
import Idealize.ShloMosaic.PureOps.Ideal.Laws

set_option maxRecDepth 16384

noncomputable section

open scoped BigOperators

namespace Cert.KernelIdeal.SageLayer1

open Cert.KernelIdeal Cert.KernelIdeal.Gen Cert.KernelIdeal.SageNames Cert.KernelIdeal.SageStage0 Cert.KernelIdeal.SageCarried
open Cert.KernelIdeal.SageRegions Cert.KernelIdeal.SageCombine Cert.Sage Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-! ## The row gather that the program spells as a clamped, masked take -/

/-- A conjunction of ones folded from one stays one. -/
theorem foldl_andi_one {ι : Type} (l : List ι) (g : ι → BitVec 1) (hg : ∀ n, g n = 1#1) :
    l.foldl (fun r n => IntOp.andi r (g n)) 1#1 = 1#1 := by
  induction l with
  | nil => rfl
  | cons a l ih =>
    rw [List.foldl_cons, hg a]
    exact ih

/-- A conjunction over any axes of an array of ones, from one, is one at every result index. -/
theorem reduce_andi_ones {s t u : Shape} {axes : List (Fin s.rank)} (x : IVec s 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one _ _ fun n => hx _

/-- A word that reads, signed, as a non-negative number is not below zero. -/
theorem slt_zero_of_nonneg (w : BitVec 32) (h0 : 0 ≤ w.toInt) : IntOp.cmpi .slt w 0#32 = 0#1 := by
  have e : w.slt 0#32 = false := by
    rw [BitVec.slt_eq_decide]
    exact decide_eq_false (by simpa using h0)
  show BitVec.ofBool (w.slt 0#32) = 0#1
  rw [e]; rfl

/-- A word that reads, signed, as a non-negative number is at least zero. -/
theorem sge_zero_of_nonneg (w : BitVec 32) (h0 : 0 ≤ w.toInt) : IntOp.cmpi .sge w 0#32 = 1#1 := by
  have e : (0#32 : BitVec 32).sle w = true := by
    rw [BitVec.sle_eq_decide]
    exact decide_eq_true (by simpa using h0)
  show BitVec.ofBool ((0#32 : BitVec 32).sle w) = 1#1
  rw [e]; rfl

/-- A word that reads, signed, below the number of nodes is at most the last node. -/
theorem sle_last_of_lt (w : BitVec 32) (h1 : w.toInt < 100000) : IntOp.cmpi .sle w 99999#32 = 1#1 := by
  have e : w.sle 99999#32 = true := by
    rw [BitVec.sle_eq_decide]
    refine decide_eq_true ?_
    have : (99999#32 : BitVec 32).toInt = 99999 := by decide
    rw [this]; omega
  show BitVec.ofBool (w.sle 99999#32) = 1#1
  rw [e]; rfl

/-- The start column the program builds from the source words: a word below zero is moved up by the number of nodes,
    and the result is laid out as a column. -/
def normCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The rows of a table taken at the source words, as the program spells it: gather the rows at the start column, and
    keep a gathered row where its start lies inside the table, a row of one fixed pattern elsewhere. -/
def takeRows (T : FVec Ideal S100000x128 .f32) (s : IVec S1600000 32) : FVec Ideal S1600000x128 .f32 :=
  select
    (broadcastInDim S1600000x128 ![0] bcast_S1600000_S1600000x128_0
      (Host.reduce IntOp.andi
        (andi
          (cmpi .sge (normCol s) (broadcastInDim S1600000x1 ![] bcast_S_S1600000x1 (constantI S_ 32 0#32)))
          (cmpi .sle (normCol s)
            (broadcastInDim S1600000x1 ![0, 1] bcast_S1x1_S1600000x1_0_1
              (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 T (normCol s))
    (broadcastInDim S1600000x128 ![] bcast_S_S1600000x128 (constant (F := Ideal) S_ .f32 0x7FC00000#32))

/-- With the source word in range the start column holds the word itself. -/
theorem normCol_apply (s : IVec S1600000 32) (e : Fin 1600000) (u : Fin 1) (h0 : 0 ≤ (s (ix1 e)).toInt) :
    normCol s (ix2 e u) = s (ix1 e) := by
  unfold normCol
  rw [broadcastInDim_apply _ _ _ (ix2 e u) (ix1 e) (fun a => by
    match a with
    | ⟨0, _⟩ => rfl)]
  show Scalar.select (IntOp.cmpi .slt (s (ix1 e)) 0#32) (IntOp.addi (s (ix1 e)) 100000#32) (s (ix1 e)) = s (ix1 e)
  rw [slt_zero_of_nonneg _ h0, select_zero]

/-- With every source word in range, the taken array at (e, k) is the table at the row the word of e names, column k. -/
theorem takeRows_apply (T : FVec Ideal S100000x128 .f32) (s : IVec S1600000 32)
    (hs : ∀ e : Fin 1600000, 0 ≤ (s (ix1 e)).toInt ∧ (s (ix1 e)).toInt < 100000) (e : Fin 1600000) (k : Fin 128) :
    takeRows T s (ix2 e k) = T (ix2 (rowOf (s (ix1 e))) k) := by
  unfold takeRows
  rw [select_apply]
  have hmask : broadcastInDim S1600000x128 ![0] bcast_S1600000_S1600000x128_0
      (Host.reduce IntOp.andi
        (andi
          (cmpi .sge (normCol s) (broadcastInDim S1600000x1 ![] bcast_S_S1600000x1 (constantI S_ 32 0#32)))
          (cmpi .sle (normCol s)
            (broadcastInDim S1600000x1 ![0, 1] bcast_S1x1_S1600000x1_0_1
              (broadcastInDim S1x1 ![1] bcast_S1_S1x1_1 (constantI S1 32 99999#32)))))
        (constantI S_ 1 1#1) reducesTo_S1600000x1_S1600000_d1 h_S_) (ix2 e k) = 1#1 := by
    rw [broadcastInDim_apply _ _ _ (ix2 e k) (ix1 e) (fun a => by
      match a with
      | ⟨0, _⟩ => rfl)]
    refine reduce_andi_ones _ _ _ _ (fun i => ?_) (fun _ => rfl) _
    obtain ⟨a, b, rfl⟩ : ∃ a b, i = ix2 a b := ⟨i 0, i 1, eq_ix2 i⟩
    show IntOp.andi (IntOp.cmpi .sge (normCol s (ix2 a b)) 0#32) (IntOp.cmpi .sle (normCol s (ix2 a b)) 99999#32) = 1#1
    rw [normCol_apply s a b (hs a).1, sge_zero_of_nonneg _ (hs a).1, sle_last_of_lt _ (hs a).2]
    rfl
  rw [hmask, select_one,
    gather_rows_apply (by decide) gather_S100000x128_S1600000x1_S1600000x128_1_0_n_n_0_1_1128 rfl rfl rfl rfl rfl rfl rfl]
  refine congrArg T (congrArg (fun r => ix2 r k) (Fin.ext ?_))
  show min (normCol s (ix2 e (0 : Fin 1))).toInt.toNat (100000 - 1) = min (s (ix1 e)).toInt.toNat (nodes - 1)
  rw [normCol_apply s e 0 (hs e).1]

/-! ## The two host stretches between region 2 and region 3, over any contents before them -/

/-- A value carried to a buffer's own type and back is unchanged. -/
theorem cast_cast_id {α β : Type} (h1 : β = α) (h2 : α = β) (v : α) : cast h1 (cast h2 v) = v := by
  subst h2; rfl

/-- The first stretch leaves, in its result buffer, the rows of the projection taken at the source words. -/
theorem take_after (V : Valuation τ sig (Elt Ideal)) :
    StableHlo.after (hostOps3 (F := Ideal)) V (Proc.devRef .tc main_v32)
      = (TRef.of main_v32 : TRef sig ⟨S1600000x128, .f32⟩).toBuf
          (takeRows ((TRef.of main_v31_0 : TRef sig ⟨S100000x128, .f32⟩).ofBuf (V (Proc.devRef .tc main_v31_0)))
            ((TRef.of main_v1 : TRef sig ⟨S1600000, .i32⟩).ofBuf (V (Proc.devRef .tc main_v1)))) := by
  after_results_simp
  simp only [cast_cast_id]
  rfl

/-- The typed views of the buffers the first stretch reads and writes are the buffers' own contents. -/
theorem ofBuf_v31_0 (w : FVec Ideal S100000x128 .f32) :
    (TRef.of main_v31_0 : TRef sig ⟨S100000x128, .f32⟩).ofBuf (Val := Elt Ideal) w = w := rfl
theorem ofBuf_v1 (w : IVec S1600000 32) :
    (TRef.of main_v1 : TRef sig ⟨S1600000, .i32⟩).ofBuf (Val := Elt Ideal) w = w := rfl
theorem ofBuf_v32 (w : FVec Ideal S1600000x128 .f32) :
    (TRef.of main_v32 : TRef sig ⟨S1600000x128, .f32⟩).ofBuf (Val := Elt Ideal) w = w := rfl

theorem ofBuf_toBuf {T : BufTy} (x : TRef sig T) (v : T.Contents (Elt Ideal)) : x.ofBuf (x.toBuf v) = v :=
  cast_cast_id _ _ v

/-- Read at (e, k), with every source word in range: the table's row the word of e names. -/
theorem take_after_apply (V : Valuation τ sig (Elt Ideal)) (T : FVec Ideal S100000x128 .f32) (s : IVec S1600000 32)
    (hT : V (Proc.devRef .tc main_v31_0) = T) (hS : V (Proc.devRef .tc main_v1) = s)
    (hs : ∀ e : Fin 1600000, 0 ≤ (s (ix1 e)).toInt ∧ (s (ix1 e)).toInt < 100000) (e : Fin 1600000) (k : Fin 128) :
    (StableHlo.after (hostOps3 (F := Ideal)) V (Proc.devRef .tc main_v32) : FVec Ideal S1600000x128 .f32) (ix2 e k)
      = T (ix2 (rowOf (s (ix1 e))) k) := by
  have h1 : (StableHlo.after (hostOps3 (F := Ideal)) V (Proc.devRef .tc main_v32) : FVec Ideal S1600000x128 .f32)
      = takeRows T s := by
    rw [← ofBuf_v32 (StableHlo.after (hostOps3 (F := Ideal)) V (Proc.devRef .tc main_v32)), take_after, ofBuf_toBuf,
      ofBuf_v31_0, ofBuf_v1, hT, hS]
  rw [h1]
  exact takeRows_apply T s hs e k

/-- The second stretch leaves, in the aggregate's buffer, the taken rows summed at the destination words into zeros; -/
theorem agg_after (V : Valuation τ sig (Elt Ideal)) :
    StableHlo.after (hostOps3_1 (F := Ideal)) V (Proc.devRef .tc main_v35)
      = (Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (V (Proc.devRef .tc main_v3)))
          (V (Proc.devRef .tc main_v32)) : FVec Ideal S100000x128 .f32) := by
  after_results

/-- in the bias row's buffer, the bias vector as one row; -/
theorem bias_after (V : Valuation τ sig (Elt Ideal)) :
    StableHlo.after (hostOps3_1 (F := Ideal)) V (Proc.devRef .tc main_v36)
      = (shapeCast S1x128 (V (Proc.devRef .tc main_arg6) : FVec Ideal S128 .f32) shapeCasts_S128_S1x128 : FVec Ideal S1x128 .f32) := by
  after_results
  rfl

/-- in the scale row's buffer, the folded factor as one row; -/
theorem scale_after (V : Valuation τ sig (Elt Ideal)) :
    StableHlo.after (hostOps3_1 (F := Ideal)) V (Proc.devRef .tc main_v37)
      = (shapeCast S1x128 (V (Proc.devRef .tc main_v17) : FVec Ideal S128 .f32) shapeCasts_S128_S1x128 : FVec Ideal S1x128 .f32) := by
  after_results
  rfl

/-- in the shift row's buffer, the folded offset as one row. -/
theorem shift_after (V : Valuation τ sig (Elt Ideal)) :
    StableHlo.after (hostOps3_1 (F := Ideal)) V (Proc.devRef .tc main_v38)
      = (shapeCast S1x128 (V (Proc.devRef .tc main_v19) : FVec Ideal S128 .f32) shapeCasts_S128_S1x128 : FVec Ideal S1x128 .f32) := by
  after_results
  rfl

/-- Neither stretch writes the buffer of the node's own projection. -/
theorem self_after (V : Valuation τ sig (Elt Ideal)) :
    StableHlo.after (hostOps3_1 (F := Ideal)) (StableHlo.after (hostOps3 (F := Ideal)) V) (Proc.devRef .tc main_v31_1)
      = V (Proc.devRef .tc main_v31_1) :=
  calc StableHlo.after (hostOps3_1 (F := Ideal)) (StableHlo.after (hostOps3 (F := Ideal)) V) (Proc.devRef .tc main_v31_1)
    _ = StableHlo.after (hostOps3 (F := Ideal)) V (Proc.devRef .tc main_v31_1) := StableHlo.after_of_forall_not_mem (b := Proc.devRef .tc main_v31_1) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V (Proc.devRef .tc main_v31_1) := StableHlo.after_of_forall_not_mem (b := Proc.devRef .tc main_v31_1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## What region 3 finds in its input arrays, element by element -/

/-- The projection for the neighbours that region 2 leaves, at (i, j), over the first hidden layer's values. -/
theorem table_apply (c : Dev nD) (H : Fin nodes → Fin 128 → EReal) (hH : ∀ i k, h1A m ρ c (ix2 i k) = H i k)
    (i : Fin 100000) (j : Fin 128) :
    yn2 (V5 m ρ) c (ix2 i j) = ∑ k : Fin 128, H i k * at2 (aWn1 m c) k j := by
  rw [yn2_apply]
  refine Finset.sum_congr rfl fun k _ => ?_
  have e1 : feat2 (V5 m ρ) c (ix2 i k) = H i k := hH i k
  have e2 : wn2 (V5 m ρ) c = aWn1 m c := wn1_at5 m ρ c
  rw [e1, e2]

/-- The node's own projection that region 2 leaves, at (i, j). -/
theorem own_apply (c : Dev nD) (H : Fin nodes → Fin 128 → EReal) (hH : ∀ i k, h1A m ρ c (ix2 i k) = H i k)
    (i : Fin 100000) (j : Fin 128) :
    ys2 (V5 m ρ) c (ix2 i j) = ∑ k : Fin 128, H i k * at2 (aWs1 m c) k j := by
  rw [ys2_apply]
  refine Finset.sum_congr rfl fun k _ => ?_
  have e1 : feat2 (V5 m ρ) c (ix2 i k) = H i k := hH i k
  have e2 : ws2 (V5 m ρ) c = aWs1 m c := ws1_at5 m ρ c
  rw [e1, e2]

/-- The rows gathered for the edges, at (e, k): the projected row of the edge's source node. -/
theorem taken_apply (c : Dev nD) (hsrc : ∀ e, 0 ≤ (srcW m c e).toInt ∧ (srcW m c e).toInt < (nodes : ℤ))
    (H : Fin nodes → Fin 128 → EReal) (hH : ∀ i k, h1A m ρ c (ix2 i k) = H i k) (e : Fin 1600000) (k : Fin 128) :
    (W7 m ρ c (Proc.devRef .tc main_v32) : FVec Ideal S1600000x128 .f32) (ix2 e k)
      = ∑ q : Fin 128, H (rowOf (srcW m c e)) q * at2 (aWn1 m c) q k := by
  have hs : ∀ e : Fin 1600000, 0 ≤ (srcArr m c (ix1 e)).toInt ∧ (srcArr m c (ix1 e)).toInt < 100000 := fun e => by
    rw [srcArr_apply]
    have h2 : (srcW m c e).toInt < ((100000 : ℕ) : ℤ) := (hsrc e).2
    exact ⟨(hsrc e).1, by omega⟩
  have h := take_after_apply (W6 m ρ c) (yn2 (V5 m ρ) c) (srcArr m c) (W6_arr m ρ c 3) (src_at6 m ρ c) hs e k
  rw [srcArr_apply, table_apply m ρ c H hH] at h
  exact h

/-- The host's accumulating row scatter at the ideal values, at (i, j), at any sizes. -/
theorem host_scatterAdd_rows {N C E w : ℕ} (d : ScatterDims (⟨2, ![N, C]⟩ : Shape) ⟨2, ![E, 1]⟩ ⟨2, ![E, C]⟩)
    (huw : d.updateWindowDims = [1]) (hiw : d.insertedWindowDims = [0]) (hsd : d.scatterDimsToOperandDims = [0])
    (hivd : d.indexVectorDim = 1) (x : FVec Ideal (⟨2, ![N, C]⟩ : Shape) .f32) (idx : IVec (⟨2, ![E, 1]⟩ : Shape) w)
    (upd : FVec Ideal (⟨2, ![E, C]⟩ : Shape) .f32) (i : Fin N) (j : Fin C) :
    Host.scatterAdd (F := Ideal) d x idx upd (ix2 i j)
      = x (ix2 i j) + ∑ e ∈ Finset.univ.filter (fun e : Fin E => (idx (ix2 e (0 : Fin 1))).toInt = (i.val : ℤ)),
          upd (ix2 e j) :=
  scatterAdd_rows_apply d huw hiw hsd hivd x idx upd i j

/-- Rows summed at the destination words into an array of zeros: at (i, j), the sum over the edges into node i. -/
theorem scatter_into (x : FVec Ideal S100000x128 .f32) (idx : IVec S1600000x1 32) (upd : FVec Ideal S1600000x128 .f32)
    (dw : Fin edges → BitVec 32) (hx : ∀ i j, x (ix2 i j) = 0) (hidx : ∀ e : Fin 1600000, idx (ix2 e (0 : Fin 1)) = dw e)
    (i : Fin 100000) (j : Fin 128) :
    Host.scatterAdd (F := Ideal) scatter_S100000x128_S1600000x1_S1600000x128_1_0_0_1 x idx upd (ix2 i j)
      = ∑ e ∈ into dw i, upd (ix2 e j) := by
  rw [host_scatterAdd_rows scatter_S100000x128_S1600000x1_S1600000x128_1_0_0_1 rfl rfl rfl rfl, hx, zero_add]
  unfold into
  exact Finset.sum_congr (Finset.filter_congr fun e _ => by rw [hidx e]) fun _ _ => rfl

/-- The aggregate region 3 finds, at (i, j): the projected rows of the in-neighbours' sources, summed. -/
theorem agg_apply (c : Dev nD) (hsrc : ∀ e, 0 ≤ (srcW m c e).toInt ∧ (srcW m c e).toInt < (nodes : ℤ))
    (H : Fin nodes → Fin 128 → EReal) (hH : ∀ i k, h1A m ρ c (ix2 i k) = H i k) (i : Fin 100000) (j : Fin 128) :
    agg3 (V8 m ρ) c (ix2 i j)
      = ∑ e ∈ into (dstW m c) i, ∑ k : Fin 128, H (rowOf (srcW m c e)) k * at2 (aWn1 m c) k j := by
  have e0 : agg3 (V8 m ρ) c = StableHlo.after (hostOps3_1 (F := Ideal)) (W7 m ρ c) (Proc.devRef .tc main_v35) := rfl
  have hz : ∀ (i : Fin 100000) (j : Fin 128),
      broadcastInDim S100000x128 ![] bcast_S_S100000x128 (constant (F := Ideal) S_ .f32 0x00000000#32) (ix2 i j) = 0 :=
    fun _ _ => Ideal.ofBits_zero_f32
  have hd : ∀ e : Fin 1600000,
      broadcastInDim S1600000x1 ![0] bcast_S1600000_S1600000x1_0 (dstArr m c) (ix2 e (0 : Fin 1)) = dstW m c e := fun e => by
    rw [broadcastInDim_apply _ _ _ (ix2 e (0 : Fin 1)) (ix1 e) (fun a => by
      match a with
      | ⟨0, _⟩ => rfl)]
    exact dstArr_apply m c e
  rw [e0, agg_after, dst_at7, scatter_into _ _ _ (dstW m c) hz hd]
  exact Finset.sum_congr rfl fun e _ => taken_apply m ρ c hsrc H hH e j

/-- The in-degree column region 3 finds. -/
theorem cnt_apply (c : Dev nD) (i : Fin 100000) : cnt3 (V8 m ρ) c (ix2 i (0 : Fin 1)) = deg (dstW m c) i := by
  have e0 : cnt3 (V8 m ρ) c = W8 m ρ c (Proc.devRef .tc main_v7) := rfl
  rw [e0, cnt_at8, cntArr_apply]

/-- The node's own projection region 3 finds: neither stretch touched what region 2 left. -/
theorem self_apply (c : Dev nD) (H : Fin nodes → Fin 128 → EReal) (hH : ∀ i k, h1A m ρ c (ix2 i k) = H i k)
    (i : Fin 100000) (j : Fin 128) :
    self3 (V8 m ρ) c (ix2 i j) = ∑ k : Fin 128, H i k * at2 (aWs1 m c) k j := by
  have e0 : self3 (V8 m ρ) c
      = StableHlo.after (hostOps3_1 (F := Ideal)) (StableHlo.after (hostOps3 (F := Ideal)) (W6 m ρ c)) (Proc.devRef .tc main_v31_1) := rfl
  have e1 : W6 m ρ c (Proc.devRef .tc main_v31_1) = ys2 (V5 m ρ) c := W6_arr m ρ c 4
  rw [e0, self_after, e1, own_apply m ρ c H hH]

/-- The bias row region 3 finds. -/
theorem bias_apply (c : Dev nD) (j : Fin 128) : bias3 (V8 m ρ) c (ix2 (0 : Fin 1) j) = at1 (aB1 m c) j := by
  have e0 : bias3 (V8 m ρ) c = StableHlo.after (hostOps3_1 (F := Ideal)) (W7 m ρ c) (Proc.devRef .tc main_v36) := rfl
  rw [e0, bias_after, b1_at7, shapeCast_a_1a_apply]

/-- The scale row region 3 finds. -/
theorem scale_apply (c : Dev nD) (j : Fin 128) :
    scale3 (V8 m ρ) c (ix2 (0 : Fin 1) j) = scaleOf eps32 (at1 (aG1 m c)) (at1 (aRv1 m c)) j := by
  have e0 : scale3 (V8 m ρ) c = StableHlo.after (hostOps3_1 (F := Ideal)) (W7 m ρ c) (Proc.devRef .tc main_v37) := rfl
  rw [e0, scale_after, scale1_at7, shapeCast_a_1a_apply, scale1Arr_apply]

/-- The shift row region 3 finds. -/
theorem shift_apply (c : Dev nD) (j : Fin 128) :
    shift3 (V8 m ρ) c (ix2 (0 : Fin 1) j)
      = shiftOf eps32 (at1 (aG1 m c)) (at1 (aRv1 m c)) (at1 (aBe1 m c)) (at1 (aRm1 m c)) j := by
  have e0 : shift3 (V8 m ρ) c = StableHlo.after (hostOps3_1 (F := Ideal)) (W7 m ρ c) (Proc.devRef .tc main_v38) := rfl
  rw [e0, shift_after, shift1_at7, shapeCast_a_1a_apply, shift1Arr_apply]

/-- The array after region 3 is one projected-form layer of the array after region 1. -/
theorem h2A_apply (c : Dev nD) (hsrc : ∀ e, 0 ≤ (srcW m c e).toInt ∧ (srcW m c e).toInt < (nodes : ℤ)) (H : Fin nodes → Fin 128 → EReal)
    (hH : ∀ i k, h1A m ρ c (ix2 i k) = H i k) (i : Fin 100000) (j : Fin 128) :
    h2A m ρ c (ix2 i j)
      = kLayer (srcW m c) (dstW m c) relu H (at2 (aWn1 m c)) (at2 (aWs1 m c)) (at1 (aB1 m c))
          (scaleOf eps32 (at1 (aG1 m c)) (at1 (aRv1 m c)))
          (shiftOf eps32 (at1 (aG1 m c)) (at1 (aRv1 m c)) (at1 (aBe1 m c)) (at1 (aRm1 m c))) i j := by
  have e0 : h2A m ρ c = res3 (V8 m ρ) c := W9_arr m ρ c 6
  rw [e0, res3_apply, agg_apply m ρ c hsrc H hH, cnt_apply, self_apply m ρ c H hH, bias_apply, scale_apply, shift_apply]
  rfl

end Cert.KernelIdeal.SageLayer1

end
-- ==== Proof.KLayer2.lean ====
/-
  The last layer of the kernel program, read from the boundary after region 3 to the boundary after region 5: project
  the second hidden layer to width 16, gather each edge's source row of the projection and sum at the destination, then
  combine with factor one and offset zero and no positive part. Read at (i, j) that is one projected-form layer with the
  identity affine map applied to whatever the second hidden layer holds.
-/
import proofs.«420429_j56581899157895_2_alg».proof.Proof.KNames
import proofs.«420429_j56581899157895_2_alg».proof.Proof.KCarried
import proofs.«420429_j56581899157895_2_alg».proof.Proof.RegionsProj
import proofs.«420429_j56581899157895_2_alg».proof.Proof.RegionsComb
import proofs.«420429_j56581899157895_2_alg».proof.Proof.Rows
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.IdealHost
import Idealize.ShloMosaic.PureOps.Ideal.Laws

set_option maxRecDepth 16384

noncomputable section

open scoped BigOperators

namespace Cert.KernelIdeal.SageLayer2

open Cert.KernelIdeal Cert.KernelIdeal.Gen Cert.KernelIdeal.SageNames Cert.KernelIdeal.SageStage0 Cert.KernelIdeal.SageCarried
open Cert.KernelIdeal.SageRegions Cert.KernelIdeal.SageCombine Cert.Sage Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-! ## Broadcasts and the all-true reduction, read at one element -/

/-- A vector laid as an n × 1 column reads, at (p, u), the vector at p. -/
theorem bcast_col_apply {α : Type} {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  simp only [broadcastInDim]
  congr 1
  funext a
  have ha : a = 0 := Subsingleton.elim _ _
  subst ha
  apply Fin.ext
  have hp := p.isLt
  split
  · next h1 => change n = 1 at h1; show (0 : ℕ) = p.val; omega
  · rfl

/-- A vector laid along the first axis of an n × m rectangle reads, at (p, q), the vector at p. -/
theorem bcast_rows_apply {α : Type} {n m : ℕ} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : ℕ) = p.val; omega
  · rfl

/-- A left fold by and over one-bit words that starts at 1 and meets only 1s ends at 1. -/
theorem foldl_andi_all_one {ι : Type} (f : ι → BitVec 1) :
    ∀ (l : List ι) (init : BitVec 1), init = 1#1 → (∀ n ∈ l, f n = 1#1) →
      l.foldl (fun r n => IntOp.andi r (f n)) init = 1#1
  | [], init, h, _ => h
  | a :: l, init, h, hl => by
    rw [List.foldl_cons]
    refine foldl_andi_all_one f l _ ?_ fun n hn => hl n (List.mem_cons_of_mem _ hn)
    rw [h, hl a List.mem_cons_self]
    decide

/-- A reduction by and of an array of one-bit words that are all 1, from 1, is 1 everywhere. -/
theorem reduce_andi_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl]
  exact foldl_andi_all_one x _ _ hinit fun n _ => hx n

/-! ## The row lookup with its index normalisation and its in-range mask -/

/-- The source words with a negative word moved up by the table's height. -/
abbrev normIdx (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The normalised words as a column. -/
abbrev colIdx (s : IVec S1600000 32) : IVec S1600000x1 32 :=
  broadcastInDim S1600000x1 ![0] bcast_S1600000_S1600000x1_0 (normIdx s)

/-- One bit per edge: the normalised word is at least 0 and at most 99999. -/
abbrev maskOf (s : IVec S1600000 32) : IVec S1600000 1 :=
  Host.reduce IntOp.andi
    (andi (cmpi .sge (colIdx s) (broadcastInDim S1600000x1 ![] bcast_S_S1600000x1 (constantI S_ 32 0#32)))
      (cmpi .sle (colIdx s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The row lookup: the gathered row where the mask is set, the not-a-number word elsewhere. -/
abbrev takeOf (T : FVec Ideal S100000x16 .f32) (s : IVec S1600000 32) : FVec Ideal S1600000x16 .f32 :=
  select (broadcastInDim S1600000x16 ![0] bcast_S1600000_S1600000x16_0 (maskOf s))
    (Host.gather gather_S100000x16_S1600000x1_S1600000x16_1_0_n_n_0_1_116 T (colIdx s))
    (broadcastInDim S1600000x16 ![] bcast_S_S1600000x16 (constant (F := Ideal) S_ .f32 0x7FC00000#32))

/-- A word that reads, signed, as a number from 0 is not below 0. -/
theorem cmpi_slt_zero {w : BitVec 32} (h : 0 ≤ w.toInt) : IntOp.cmpi .slt w 0#32 = 0#1 := by
  have : w.slt 0#32 = false := by
    rw [BitVec.slt_eq_decide]
    exact decide_eq_false (by simpa using h)
  show BitVec.ofBool (w.slt 0#32) = 0#1
  rw [this]; rfl

/-- A word that reads, signed, as a number from 0 is at least 0. -/
theorem cmpi_sge_zero {w : BitVec 32} (h : 0 ≤ w.toInt) : IntOp.cmpi .sge w 0#32 = 1#1 := by
  have : (0#32 : BitVec 32).sle w = true := by
    rw [BitVec.sle_eq_decide]
    exact decide_eq_true (by simpa using h)
  show BitVec.ofBool ((0#32 : BitVec 32).sle w) = 1#1
  rw [this]; rfl

/-- A word that reads, signed, below 100000 is at most 99999. -/
theorem cmpi_sle_top {w : BitVec 32} (h : w.toInt < 100000) : IntOp.cmpi .sle w 99999#32 = 1#1 := by
  have : w.sle 99999#32 = true := by
    rw [BitVec.sle_eq_decide]
    refine decide_eq_true ?_
    have e : (99999#32 : BitVec 32).toInt = 99999 := by decide
    rw [e]; omega
  show BitVec.ofBool (w.sle 99999#32) = 1#1
  rw [this]; rfl

section Take

variable (T : FVec Ideal S100000x16 .f32) (s : IVec S1600000 32)
  (hs : ∀ e : Fin 1600000, 0 ≤ (s (ix1 e)).toInt ∧ (s (ix1 e)).toInt < 100000)

include hs

/-- A source word in range is left as it is. -/
theorem normIdx_apply (e : Fin 1600000) : normIdx s (ix1 e) = s (ix1 e) := by
  show Scalar.select (IntOp.cmpi .slt (s (ix1 e)) 0#32) _ _ = _
  rw [cmpi_slt_zero (hs e).1, select_zero]

/-- The column of normalised words holds the source words. -/
theorem colIdx_apply (e : Fin 1600000) (u : Fin 1) : colIdx s (ix2 e u) = s (ix1 e) := by
  show broadcastInDim S1600000x1 ![0] bcast_S1600000_S1600000x1_0 (normIdx s) (ix2 e u) = _
  rw [bcast_col_apply, normIdx_apply s hs]

/-- The mask is set at every edge. -/
theorem maskOf_apply (j : S1600000.Idx) : maskOf s j = 1#1 := by
  refine reduce_andi_all_one _ _ _ _ rfl (fun i => ?_) j
  obtain ⟨e, u, rfl⟩ : ∃ (e : Fin 1600000) (u : Fin 1), i = ix2 e u := ⟨i 0, i 1, eq_ix2 i⟩
  show IntOp.andi (IntOp.cmpi .sge (colIdx s (ix2 e u)) 0#32) (IntOp.cmpi .sle (colIdx s (ix2 e u)) 99999#32) = 1#1
  rw [colIdx_apply s hs, cmpi_sge_zero (hs e).1, cmpi_sle_top (hs e).2]
  decide

/-- The row lookup at (e, k) is the table's row named by edge e's source word, at column k. -/
theorem takeOf_apply (e : Fin 1600000) (k : Fin 16) :
    takeOf T s (ix2 e k) = T (ix2 (rowOf (s (ix1 e))) k) := by
  show Scalar.select (broadcastInDim S1600000x16 ![0] bcast_S1600000_S1600000x16_0 (maskOf s) (ix2 e k))
    (Host.gather gather_S100000x16_S1600000x1_S1600000x16_1_0_n_n_0_1_116 T (colIdx s) (ix2 e k)) _ = _
  rw [bcast_rows_apply, maskOf_apply s hs, select_one,
    gather_rows_apply (by decide) gather_S100000x16_S1600000x1_S1600000x16_1_0_n_n_0_1_116 rfl rfl rfl rfl rfl rfl rfl]
  refine congrArg (fun r : Fin 100000 => T (ix2 r k)) (Fin.ext ?_)
  show min (colIdx s (ix2 e (0 : Fin 1))).toInt.toNat (100000 - 1) = min (s (ix1 e)).toInt.toNat (nodes - 1)
  rw [colIdx_apply s hs]

end Take

/-! ## The two host stretches before region 5, read at the buffers they write -/

section Stretches

variable (V : Valuation τ sig (Elt Ideal))

/-- Contents moved to a buffer's own type and back are unchanged. -/
theorem ofBuf_toBuf {T : BufTy} (x : TRef sig T) (v : T.Contents (Elt Ideal)) : x.ofBuf (x.toBuf v) = v := by
  obtain ⟨r, h, hd, hu⟩ := x
  subst h
  rfl

/-- At the source words' buffer the move is the identity. -/
theorem ofBuf_v1 (v : (main_v1 : Ref sig .tc).ty.Contents (Elt Ideal)) :
    (TRef.of main_v1 : TRef sig ⟨S1600000, .i32⟩).ofBuf v = v := rfl

/-- At the projected table's buffer the move is the identity. -/
theorem ofBuf_v40_0 (v : (main_v40_0 : Ref sig .tc).ty.Contents (Elt Ideal)) :
    (TRef.of main_v40_0 : TRef sig ⟨S100000x16, .f32⟩).ofBuf v = v := rfl

/-- At the looked-up rows' buffer the move is the identity. -/
theorem toBuf_v41 (v : (⟨S1600000x16, .f32⟩ : BufTy).Contents (Elt Ideal)) :
    ((TRef.of main_v41 : TRef sig ⟨S1600000x16, .f32⟩).toBuf (Val := Elt Ideal) v : (⟨S1600000x16, .f32⟩ : BufTy).Contents (Elt Ideal)) = v := rfl

/-- The first stretch leaves the row lookup of the projected table by the source words. -/
theorem after5_v41 :
    StableHlo.after hostOps5 V (Proc.devRef .tc main_v41)
      = takeOf (V (Proc.devRef .tc main_v40_0) : FVec Ideal S100000x16 .f32) (V (Proc.devRef .tc main_v1) : IVec S1600000 32) := by
  dsimp only [hostOps5]
  after_results_simp
  simp only [ofBuf_toBuf, ofBuf_v1, ofBuf_v40_0, toBuf_v41]

/-- The second stretch leaves the looked-up rows summed at the destination words, into zeros. -/
theorem after5_1_v44 :
    StableHlo.after hostOps5_1 V (Proc.devRef .tc main_v44)
      = Host.scatterAdd scatter_S100000x16_S1600000x1_S1600000x16_1_0_0_1
          (broadcastInDim S100000x16 ![] bcast_S_S100000x16 (constant (F := Ideal) S_ .f32 0x00000000#32))
          (broadcastInDim S1600000x1 ![0] bcast_S1600000_S1600000x1_0 (V (Proc.devRef .tc main_v3) : IVec S1600000 32))
          (V (Proc.devRef .tc main_v41) : FVec Ideal S1600000x16 .f32) := by
  dsimp only [hostOps5_1]
  after_results

/-- The bias as a one-row array. -/
theorem after5_1_v45 :
    StableHlo.after hostOps5_1 V (Proc.devRef .tc main_v45)
      = shapeCast S1x16 (V (Proc.devRef .tc main_arg9) : FVec Ideal S16 .f32) shapeCasts_S16_S1x16 := by
  dsimp only [hostOps5_1]
  after_results
  rfl

/-- The factor as a one-row array. -/
theorem after5_1_v46 :
    StableHlo.after hostOps5_1 V (Proc.devRef .tc main_v46)
      = shapeCast S1x16 (V (Proc.devRef .tc main_v20) : FVec Ideal S16 .f32) shapeCasts_S16_S1x16 := by
  dsimp only [hostOps5_1]
  after_results
  rfl

/-- The offset as a one-row array. -/
theorem after5_1_v47 :
    StableHlo.after hostOps5_1 V (Proc.devRef .tc main_v47)
      = shapeCast S1x16 (V (Proc.devRef .tc main_v21) : FVec Ideal S16 .f32) shapeCasts_S16_S1x16 := by
  dsimp only [hostOps5_1]
  after_results
  rfl

end Stretches

/-! ## What region 5 finds at its entry -/

section Entry

/-- Region 4 leaves the projection by the neighbour weights where the row lookup reads it. -/
theorem yn_at10 (c : Dev nD) : W10 m ρ c (Proc.devRef .tc main_v40_0) = yn4 (V9 m ρ) c := W10_arr m ρ c 3

/-- Region 4 leaves the projection by the self weights in its second output. -/
theorem ys_at10 (c : Dev nD) : W10 m ρ c (Proc.devRef .tc main_v40_1) = ys4 (V9 m ρ) c := W10_arr m ρ c 4

/-- Neither host stretch writes the self projection: region 5 finds it as region 4 left it. -/
theorem self_at12 (c : Dev nD) : W12 m ρ c (Proc.devRef .tc main_v40_1) = ys4 (V9 m ρ) c :=
  calc W12 m ρ c (Proc.devRef .tc main_v40_1)
    _ = W11 m ρ c (Proc.devRef .tc main_v40_1) := StableHlo.after_of_forall_not_mem (b := Proc.devRef .tc main_v40_1) _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v40_1) := StableHlo.after_of_forall_not_mem (b := Proc.devRef .tc main_v40_1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ys4 (V9 m ρ) c := ys_at10 m ρ c

/-- After the first stretch: the row lookup of the neighbour projection by the source words. -/
theorem take_at11 (c : Dev nD) :
    W11 m ρ c (Proc.devRef .tc main_v41) = takeOf (yn4 (V9 m ρ) c) (srcArr m c) := by
  refine (after5_v41 (W10 m ρ c)).trans ?_
  rw [yn_at10 m ρ c, src_at10 m ρ c]

/-- At region 5's entry: the looked-up rows summed at the destination words. -/
theorem agg_at12 (c : Dev nD) :
    W12 m ρ c (Proc.devRef .tc main_v44)
      = Host.scatterAdd scatter_S100000x16_S1600000x1_S1600000x16_1_0_0_1
          (broadcastInDim S100000x16 ![] bcast_S_S100000x16 (constant (F := Ideal) S_ .f32 0x00000000#32))
          (broadcastInDim S1600000x1 ![0] bcast_S1600000_S1600000x1_0 (dstArr m c))
          (takeOf (yn4 (V9 m ρ) c) (srcArr m c)) := by
  refine (after5_1_v44 (W11 m ρ c)).trans ?_
  rw [dst_at11 m ρ c, take_at11 m ρ c]

/-- At region 5's entry: the bias as a one-row array. -/
theorem bias_at12 (c : Dev nD) :
    W12 m ρ c (Proc.devRef .tc main_v45) = shapeCast S1x16 (aB2 m c) shapeCasts_S16_S1x16 := by
  refine (after5_1_v45 (W11 m ρ c)).trans ?_
  rw [b2_at11 m ρ c]

/-- At region 5's entry: the factor is a row of ones. -/
theorem scale_at12 (c : Dev nD) :
    W12 m ρ c (Proc.devRef .tc main_v46) = shapeCast S1x16 oneArr shapeCasts_S16_S1x16 := by
  refine (after5_1_v46 (W11 m ρ c)).trans ?_
  rw [one_at11 m ρ c]

/-- At region 5's entry: the offset is a row of zeros. -/
theorem shift_at12 (c : Dev nD) :
    W12 m ρ c (Proc.devRef .tc main_v47) = shapeCast S1x16 zeroArr shapeCasts_S16_S1x16 := by
  refine (after5_1_v47 (W11 m ρ c)).trans ?_
  rw [zero_at11 m ρ c]

end Entry

/-! ## The six arrays region 5 finds, read at one element -/

/-- The accumulating row scatter of the host, at one element, at any sizes. -/
theorem host_scatterAdd_rows {N C E w : ℕ} (d : ScatterDims (⟨2, ![N, C]⟩ : Shape) ⟨2, ![E, 1]⟩ ⟨2, ![E, C]⟩)
    (huw : d.updateWindowDims = [1]) (hiw : d.insertedWindowDims = [0]) (hsd : d.scatterDimsToOperandDims = [0])
    (hivd : d.indexVectorDim = 1) (x : FVec Ideal (⟨2, ![N, C]⟩ : Shape) .f32) (idx : IVec (⟨2, ![E, 1]⟩ : Shape) w)
    (upd : FVec Ideal (⟨2, ![E, C]⟩ : Shape) .f32) (i : Fin N) (j : Fin C) :
    Host.scatterAdd (F := Ideal) d x idx upd (ix2 i j)
      = x (ix2 i j) + ∑ e ∈ Finset.univ.filter (fun e : Fin E => (idx (ix2 e (0 : Fin 1))).toInt = (i.val : ℤ)),
          upd (ix2 e j) :=
  scatterAdd_rows_apply d huw hiw hsd hivd x idx upd i j

/-- A scalar zero broadcast to any shape reads zero everywhere. -/
theorem bcast_zero_apply {t : Shape} (h : S_.BroadcastsInDim t ![]) (j : t.Idx) :
    broadcastInDim t ![] h (constant (F := Ideal) S_ .f32 0x00000000#32) j = 0 := Ideal.ofBits_zero_f32

section Elements

variable (c : Dev nD) (hsrc : ∀ e, 0 ≤ (srcW m c e).toInt ∧ (srcW m c e).toInt < (nodes : ℤ))
  (H : Fin nodes → Fin 128 → EReal) (hH : ∀ i k, h2A m ρ c (ix2 i k) = H i k)

/-- The neighbour projection at (r, j) over the second hidden layer's values. -/
theorem yn_apply (hH : ∀ i k, h2A m ρ c (ix2 i k) = H i k) (r : Fin 100000) (j : Fin 16) :
    yn4 (V9 m ρ) c (ix2 r j) = ∑ k : Fin 128, H r k * at2 (aWn2 m c) k j := by
  rw [yn4_apply]
  refine Finset.sum_congr rfl fun k _ => ?_
  have e1 : feat4 (V9 m ρ) c (ix2 r k) = H r k := hH r k
  have e2 : wn4 (V9 m ρ) c = aWn2 m c := wn2_at9 m ρ c
  rw [e1, e2]

/-- The self projection at (i, j) over the second hidden layer's values. -/
theorem ys_apply (hH : ∀ i k, h2A m ρ c (ix2 i k) = H i k) (i : Fin 100000) (j : Fin 16) :
    ys4 (V9 m ρ) c (ix2 i j) = ∑ k : Fin 128, H i k * at2 (aWs2 m c) k j := by
  rw [ys4_apply]
  refine Finset.sum_congr rfl fun k _ => ?_
  have e1 : feat4 (V9 m ρ) c (ix2 i k) = H i k := hH i k
  have e2 : ws4 (V9 m ρ) c = aWs2 m c := ws2_at9 m ρ c
  rw [e1, e2]

/-- The aggregate region 5 finds at (i, j): the projected source rows of the edges into i, summed. -/
theorem agg_apply (hsrc : ∀ e, 0 ≤ (srcW m c e).toInt ∧ (srcW m c e).toInt < (nodes : ℤ))
    (hH : ∀ i k, h2A m ρ c (ix2 i k) = H i k) (i : Fin 100000) (j : Fin 16) :
    agg5 (V12 m ρ) c (ix2 i j)
      = ∑ e ∈ into (dstW m c) i, ∑ k : Fin 128, H (rowOf (srcW m c e)) k * at2 (aWn2 m c) k j := by
  have e0 : agg5 (V12 m ρ) c = _ := agg_at12 m ρ c
  rw [e0]
  rw [host_scatterAdd_rows scatter_S100000x16_S1600000x1_S1600000x16_1_0_0_1 rfl rfl rfl rfl, bcast_zero_apply, zero_add]
  have hset : (Finset.univ.filter fun e : Fin 1600000 =>
      (broadcastInDim S1600000x1 ![0] bcast_S1600000_S1600000x1_0 (dstArr m c) (ix2 e (0 : Fin 1))).toInt = (i.val : ℤ))
      = into (dstW m c) i := by
    unfold into
    refine Finset.filter_congr fun e _ => ?_
    rw [bcast_col_apply, dstArr_apply]
  rw [hset]
  refine Finset.sum_congr rfl fun e _ => ?_
  rw [takeOf_apply (yn4 (V9 m ρ) c) (srcArr m c) (fun e => hsrc e) e j, srcArr_apply, yn_apply m ρ c H hH]

/-- The in-degree column region 5 finds at (i, 0). -/
theorem cnt_apply (i : Fin 100000) : cnt5 (V12 m ρ) c (ix2 i (0 : Fin 1)) = deg (dstW m c) i := by
  have e0 : cnt5 (V12 m ρ) c = cntArr m c := cnt_at12 m ρ c
  rw [e0, cntArr_apply]

/-- The self projection region 5 finds at (i, j). -/
theorem self_apply (hH : ∀ i k, h2A m ρ c (ix2 i k) = H i k) (i : Fin 100000) (j : Fin 16) :
    self5 (V12 m ρ) c (ix2 i j) = ∑ k : Fin 128, H i k * at2 (aWs2 m c) k j := by
  have e0 : self5 (V12 m ρ) c = ys4 (V9 m ρ) c := self_at12 m ρ c
  rw [e0, ys_apply m ρ c H hH]

/-- The bias row region 5 finds at (0, j). -/
theorem bias_apply (j : Fin 16) : bias5 (V12 m ρ) c (ix2 (0 : Fin 1) j) = at1 (aB2 m c) j := by
  have e0 : bias5 (V12 m ρ) c = _ := bias_at12 m ρ c
  rw [e0, shapeCast_a_1a_apply]

/-- The factor row region 5 finds at (0, j) is one. -/
theorem scale_apply (j : Fin 16) : scale5 (V12 m ρ) c (ix2 (0 : Fin 1) j) = 1 := by
  have e0 : scale5 (V12 m ρ) c = _ := scale_at12 m ρ c
  rw [e0, shapeCast_a_1a_apply, oneArr_apply]

/-- The offset row region 5 finds at (0, j) is zero. -/
theorem shift_apply (j : Fin 16) : shift5 (V12 m ρ) c (ix2 (0 : Fin 1) j) = 0 := by
  have e0 : shift5 (V12 m ρ) c = _ := shift_at12 m ρ c
  rw [e0, shapeCast_a_1a_apply, zeroArr_apply]

end Elements

/-- The array after region 5 is one projected-form layer, with the identity affine map, of the array after region 3. -/
theorem outA_apply (c : Dev nD) (hsrc : ∀ e, 0 ≤ (srcW m c e).toInt ∧ (srcW m c e).toInt < (nodes : ℤ)) (H : Fin nodes → Fin 128 → EReal)
    (hH : ∀ i k, h2A m ρ c (ix2 i k) = H i k) (i : Fin 100000) (j : Fin 16) :
    outA m ρ c (ix2 i j)
      = kLayer (srcW m c) (dstW m c) id H (at2 (aWn2 m c)) (at2 (aWs2 m c)) (at1 (aB2 m c))
          (fun _ => 1) (fun _ => 0) i j := by
  have e0 : outA m ρ c = res5 (V12 m ρ) c := W13_arr m ρ c 6
  rw [e0, res5_apply, agg_apply m ρ c H hsrc hH, cnt_apply m ρ c, self_apply m ρ c H hH, bias_apply m ρ c,
    scale_apply m ρ c, shift_apply m ρ c]
  unfold kLayer
  generalize Ideal.div _ _ = a
  generalize (∑ k : Fin 128, H i k * at2 (aWs2 m c) k j) = b
  generalize at1 (aB2 m c) j = d
  rw [id_eq]

end Cert.KernelIdeal.SageLayer2

end
-- ==== Proof.RNames.lean ====
/-
  Names for the reference program's edge words: the source and destination word of each edge, read off its edge-list
  argument the way the program itself slices and reshapes it.
-/
import proofs.«420429_j56581899157895_2_alg».proof.Proof.Gen.ReferenceIdeal.Read
import proofs.«420429_j56581899157895_2_alg».proof.Proof.Spec
import proofs.«420429_j56581899157895_2_alg».proof.Proof.Eps
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.IdealHost
import Idealize.ShloMosaic.PureOps.Ideal.Laws

set_option maxRecDepth 16384

noncomputable section

open scoped BigOperators

namespace Cert.ReferenceIdeal.SageNames

open Cert.ReferenceIdeal Cert.ReferenceIdeal.Gen Cert.ReferenceIdeal.Read Idealize.ShloMosaic Idealize.ShloMosaic.TcCoe
open Idealize.ShloMosaic.ValueIdx Idealize.SL.Sem Cert.Sage

variable (x0 : FVec Ideal S100000x128 .f32) (x1 : IVec S2x1600000 32) (x2 : FVec Ideal S128x128 .f32)
  (x3 : FVec Ideal S128 .f32) (x4 x5 : FVec Ideal S128x128 .f32) (x6 : FVec Ideal S128 .f32)
  (x7 : FVec Ideal S128x128 .f32) (x8 : FVec Ideal S128x16 .f32) (x9 : FVec Ideal S16 .f32)
  (x10 : FVec Ideal S128x16 .f32) (x11 x12 x13 x14 x15 x16 x17 x18 : FVec Ideal S128 .f32)

/-- The source word of each edge. -/
abbrev srcR : Fin edges → BitVec 32 := srcOf x1 slices_S2x1600000_S1x1600000_0_0 shapeCasts_S1x1600000_S1600000
/-- The destination word of each edge. -/
abbrev dstR : Fin edges → BitVec 32 := dstOf x1 slices_S2x1600000_S1x1600000_1_0 shapeCasts_S1x1600000_S1600000

end Cert.ReferenceIdeal.SageNames

end
-- ==== Proof.RLayer0.lean ====
/-
  The reference program's first layer, read one operation at a time: gather each edge's source row of the features, sum
  the gathered rows at the edge's destination, divide by the in-degree (at least one), project, add the bias and the
  node's own projection, normalise by the running statistics, take the positive part. Read at (i, j) that is the
  specification's first hidden layer in its aggregated form.
-/
import proofs.«420429_j56581899157895_2_alg».proof.Proof.Gen.ReferenceIdeal.Read
import proofs.«420429_j56581899157895_2_alg».proof.Proof.RNames
import proofs.«420429_j56581899157895_2_alg».proof.Proof.Rows
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.IdealHost
import Idealize.ShloMosaic.PureOps.Ideal.Laws

set_option maxRecDepth 16384

noncomputable section

open scoped BigOperators

namespace Cert.ReferenceIdeal.SageLayer0

open Cert.ReferenceIdeal Cert.ReferenceIdeal.Gen Cert.ReferenceIdeal.Read Idealize.ShloMosaic Idealize.ShloMosaic.TcCoe
open Idealize.ShloMosaic.ValueIdx Idealize.SL.Sem Cert.Sage Cert.ReferenceIdeal.SageNames

variable (x0 : FVec Ideal S100000x128 .f32) (x1 : IVec S2x1600000 32) (x2 : FVec Ideal S128x128 .f32)
  (x3 : FVec Ideal S128 .f32) (x4 x5 : FVec Ideal S128x128 .f32) (x6 : FVec Ideal S128 .f32)
  (x7 : FVec Ideal S128x128 .f32) (x8 : FVec Ideal S128x16 .f32) (x9 : FVec Ideal S16 .f32)
  (x10 : FVec Ideal S128x16 .f32) (x11 x12 x13 x14 x15 x16 x17 x18 : FVec Ideal S128 .f32)

/-- A word that reads signed as a non-negative number is not below zero: the signed comparison's bit is clear. -/
theorem cmpi_slt_zero_of_nonneg (a : BitVec 32) (h : 0 ≤ a.toInt) : IntOp.cmpi .slt a 0#32 = 0#1 := by
  have h0 : (0#32 : BitVec 32).toInt = 0 := by decide
  have hf : a.slt 0#32 = false := by
    unfold BitVec.slt
    rw [h0]
    exact decide_eq_false (by omega)
  show BitVec.ofBool (a.slt 0#32) = 0#1
  rw [hf]
  rfl

/-- The program's source word of edge e is its first edge-list row at e. -/
theorem v1_eq (e : Fin 1600000) : val_main_v1 (F := Ideal) x1 (ix1 e) = srcR x1 e := rfl

/-- The program's destination word of edge e is its second edge-list row at e. -/
theorem v3_eq (e : Fin 1600000) : val_main_v3 (F := Ideal) x1 (ix1 e) = dstR x1 e := rfl

theorem idx9_eq (e : Fin 1600000) : idx_main_v9 (ix2 e (0 : Fin 1)) = ix1 e :=
  funext fun a => Fin.ext (by match a with | ⟨0, _⟩ => rfl)

/-- The start-index column of the gather, at edge e, is the source word: a non-negative word is left as it is by the
    program's wrap-around of negative indices. -/
theorem src_col (hsrc : ∀ e, 0 ≤ (srcR x1 e).toInt ∧ (srcR x1 e).toInt < (nodes : ℤ)) (e : Fin 1600000) :
    val_main_v9 (F := Ideal) x1 (ix2 e (0 : Fin 1)) = srcR x1 e := by
  rw [val_main_v9_apply, idx9_eq, val_main_v8_apply, val_main_v5_apply, val_main_v4_apply, val_main_c_apply, v1_eq,
    cmpi_slt_zero_of_nonneg _ (hsrc e).1, ValueIdx.select_zero]

/-- The destination column of both scatters, at edge e, is the destination word. -/
theorem dst_col12 (e : Fin 1600000) : val_main_v12 (F := Ideal) x1 (ix2 e (0 : Fin 1)) = dstR x1 e := by
  rw [val_main_v12_apply, show idx_main_v12 (ix2 e (0 : Fin 1)) = ix1 e from idx9_eq e, v3_eq]

theorem dst_col16 (e : Fin 1600000) : val_main_v16 (F := Ideal) x1 (ix2 e (0 : Fin 1)) = dstR x1 e := by
  rw [val_main_v16_apply, show idx_main_v16 (ix2 e (0 : Fin 1)) = ix1 e from idx9_eq e, v3_eq]

theorem v10_eq (hsrc : ∀ e, 0 ≤ (srcR x1 e).toInt ∧ (srcR x1 e).toInt < (nodes : ℤ)) (e : Fin 1600000) (k : Fin 128) :
    val_main_v10 (F := Ideal) x0 x1 (ix2 e k) = at2 x0 (rowOf (srcR x1 e)) k := by
  unfold val_main_v10
  rw [gather_rows_apply (N := 100000) (C := 128) (E := 1600000) (by omega) gather_S100000x128_S1600000x1_S1600000x128_1_0_n_n_0_1_1128 rfl rfl rfl rfl rfl rfl rfl x0 (val_main_v9 (F := Ideal) x1) e k]
  refine congrArg (fun r => x0 (ix2 r k)) (Fin.ext ?_)
  show min (val_main_v9 (F := Ideal) x1 (ix2 e (0 : Fin 1))).toInt.toNat (100000 - 1) = min (srcR x1 e).toInt.toNat (nodes - 1)
  rw [src_col x1 hsrc e]

/-- The accumulating row scatter at the exact-arithmetic instance, read at one element: the operand's element plus
    the sum of the updates of the edges whose index word reads, signed, as the row. Stated at arbitrary sizes. -/
theorem host_scatterAdd_rows {N C E w : ℕ} (d : ScatterDims (⟨2, ![N, C]⟩ : Shape) ⟨2, ![E, 1]⟩ ⟨2, ![E, C]⟩)
    (huw : d.updateWindowDims = [1]) (hiw : d.insertedWindowDims = [0]) (hsd : d.scatterDimsToOperandDims = [0])
    (hivd : d.indexVectorDim = 1) (x : FVec Ideal (⟨2, ![N, C]⟩ : Shape) .f32) (idx : IVec (⟨2, ![E, 1]⟩ : Shape) w)
    (upd : FVec Ideal (⟨2, ![E, C]⟩ : Shape) .f32) (i : Fin N) (j : Fin C) :
    Host.scatterAdd (F := Ideal) d x idx upd (ix2 i j)
      = x (ix2 i j) + ∑ e ∈ Finset.univ.filter (fun e : Fin E => (idx (ix2 e (0 : Fin 1))).toInt = (i.val : ℤ)), upd (ix2 e j) :=
  scatterAdd_rows_apply d huw hiw hsd hivd x idx upd i j

/-- The three float literals of the layer, as the extended reals their words denote. -/
theorem lit_zero : (FloatOps.ofBits (F := Ideal) .f32 0x00000000#32) = 0 := Ideal.ofBits_zero_f32
theorem lit_one : (FloatOps.ofBits (F := Ideal) .f32 0x3F800000#32) = 1 := Ideal.ofBits_one_f32
theorem lit_eps : (FloatOps.ofBits (F := Ideal) .f32 0x3727C5AC#32) = eps32 := rfl

/-- The zero table the first scatter accumulates into. -/
theorem v11_eq (p : S100000x128.Idx) : val_main_v11 (F := Ideal) p = 0 := by
  rewrite [val_main_v11_apply, val_main_cst_apply]
  exact lit_zero

/-- The summed rows: at node i and column k, the sum over the edges into i of the source rows' column k. -/
theorem v13_eq (hsrc : ∀ e, 0 ≤ (srcR x1 e).toInt ∧ (srcR x1 e).toInt < (nodes : ℤ)) (i : Fin 100000) (k : Fin 128) :
    val_main_v13 (F := Ideal) x0 x1 (ix2 i k) = ∑ e ∈ into (dstR x1) i, at2 x0 (rowOf (srcR x1 e)) k := by
  unfold val_main_v13
  rewrite [host_scatterAdd_rows scatter_S100000x128_S1600000x1_S1600000x128_1_0_0_1 rfl rfl rfl rfl]
  rewrite [v11_eq, zero_add]
  unfold into
  exact Finset.sum_congr (Finset.filter_congr fun e _ => by rw [dst_col12 x1 e]) (fun e _ => v10_eq x0 x1 hsrc e k)

/-- The zero column the second scatter accumulates into. -/
theorem v15_eq (p : S100000x1.Idx) : val_main_v15 (F := Ideal) p = 0 := by
  rewrite [val_main_v15_apply, val_main_cst_2_apply]
  exact lit_zero

/-- The column of ones the second scatter adds. -/
theorem v14_eq (p : S1600000x1.Idx) : val_main_v14 (F := Ideal) p = 1 := by
  rewrite [val_main_v14_apply, val_main_cst_1_apply]
  exact lit_one

/-- The counts: at node i, the number of edges into i, as a sum of ones. -/
theorem v17_eq (i : Fin 100000) : val_main_v17 (F := Ideal) x1 (ix2 i (0 : Fin 1)) = deg (dstR x1) i := by
  unfold val_main_v17
  rewrite [host_scatterAdd_rows scatter_S100000x1_S1600000x1_S1600000x1_1_0_0_1 rfl rfl rfl rfl]
  rewrite [v15_eq, zero_add]
  unfold deg into
  exact Finset.sum_congr (Finset.filter_congr fun e _ => by rw [dst_col16 x1 e]) (fun e _ => v14_eq _)

/-- The column of ones the counts are bounded below by. -/
theorem v18_eq (p : S100000x1.Idx) : val_main_v18 (F := Ideal) p = 1 := by
  rewrite [val_main_v18_apply, val_main_cst_3_apply]
  exact lit_one

theorem idx20_eq (i : Fin 100000) (j : Fin 128) : idx_main_v20 (ix2 i j) = ix2 i (0 : Fin 1) :=
  funext fun a => Fin.ext (by match a with | ⟨0, _⟩ => rfl | ⟨1, _⟩ => rfl)

/-- The divisor at (i, j): the in-degree of i, at least one. -/
theorem v20_eq (i : Fin 100000) (j : Fin 128) :
    val_main_v20 (F := Ideal) x1 (ix2 i j) = max (deg (dstR x1) i) 1 := by
  rewrite [val_main_v20_apply, idx20_eq, val_main_v19_apply, v17_eq, v18_eq, Ideal.maximumf_def]
  rfl

/-- The mean stage at (i, k): the summed source rows over the divisor. -/
theorem v21_eq (hsrc : ∀ e, 0 ≤ (srcR x1 e).toInt ∧ (srcR x1 e).toInt < (nodes : ℤ)) (i : Fin 100000) (k : Fin 128) :
    val_main_v21 (F := Ideal) x0 x1 (ix2 i k)
      = Ideal.div (∑ e ∈ into (dstR x1) i, at2 x0 (rowOf (srcR x1 e)) k) (max (deg (dstR x1) i) 1) := by
  rewrite [val_main_v21_apply, v13_eq x0 x1 hsrc, v20_eq, Ideal.hostDivf_def]
  rfl

theorem lidx22_eq (i : Fin 100000) (j k : Fin 128) : lidx_main_v22 (ix2 i j) k = ix2 i k :=
  funext fun a => Fin.ext (by match a with | ⟨0, _⟩ => rfl | ⟨1, _⟩ => rfl)
theorem ridx22_eq (i : Fin 100000) (j k : Fin 128) : ridx_main_v22 (ix2 i j) k = ix2 k j :=
  funext fun a => Fin.ext (by match a with | ⟨0, _⟩ => rfl | ⟨1, _⟩ => rfl)

/-- The neighbour projection at (i, j): the mean row of i against column j of the neighbour weights. -/
theorem v22_eq (hsrc : ∀ e, 0 ≤ (srcR x1 e).toInt ∧ (srcR x1 e).toInt < (nodes : ℤ)) (i : Fin 100000) (j : Fin 128) :
    val_main_v22 (F := Ideal) x0 x1 x2 (ix2 i j)
      = ∑ k : Fin 128, Ideal.div (∑ e ∈ into (dstR x1) i, at2 x0 (rowOf (srcR x1 e)) k) (max (deg (dstR x1) i) 1)
          * at2 x2 k j := by
  rewrite [val_main_v22_apply]
  refine Finset.sum_congr rfl fun k _ => ?_
  rewrite [lidx22_eq, ridx22_eq, v21_eq x0 x1 hsrc]
  rfl

/-- The node's own projection at (i, j): row i of the features against column j of the self weights. -/
theorem v26_eq (i : Fin 100000) (j : Fin 128) :
    val_main_v26 (F := Ideal) x0 x4 (ix2 i j) = ∑ k : Fin 128, at2 x0 i k * at2 x4 k j := by
  rewrite [val_main_v26_apply]
  refine Finset.sum_congr rfl fun k _ => ?_
  rewrite [show lidx_main_v26 (ix2 i j) k = ix2 i k from lidx22_eq i j k,
    show ridx_main_v26 (ix2 i j) k = ix2 k j from ridx22_eq i j k]
  rfl

/-- A per-column vector broadcast over the rows reads, at (i, j), the vector at j. -/
theorem bidx_eq (i : Fin 100000) (j : Fin 128) : idx_main_v23 (idx_main_v24 (ix2 i j)) = ix1 j :=
  funext fun a => Fin.ext (by match a with | ⟨0, _⟩ => rfl)

theorem v24_eq (i : Fin 100000) (j : Fin 128) : val_main_v24 (F := Ideal) x3 (ix2 i j) = at1 x3 j := by
  rewrite [val_main_v24_apply, val_main_v23_apply, bidx_eq]
  rfl
theorem v29_eq (i : Fin 100000) (j : Fin 128) : val_main_v29 (F := Ideal) x13 (ix2 i j) = at1 x13 j := by
  rewrite [val_main_v29_apply, val_main_v28_apply,
    show idx_main_v28 (idx_main_v29 (ix2 i j)) = ix1 j from bidx_eq i j]
  rfl
theorem v38_eq (i : Fin 100000) (j : Fin 128) : val_main_v38 (F := Ideal) x11 (ix2 i j) = at1 x11 j := by
  rewrite [val_main_v38_apply, val_main_v37_apply,
    show idx_main_v37 (idx_main_v38 (ix2 i j)) = ix1 j from bidx_eq i j]
  rfl
theorem v41_eq (i : Fin 100000) (j : Fin 128) : val_main_v41 (F := Ideal) x12 (ix2 i j) = at1 x12 j := by
  rewrite [val_main_v41_apply, val_main_v40_apply,
    show idx_main_v40 (idx_main_v41 (ix2 i j)) = ix1 j from bidx_eq i j]
  rfl

/-- The normalisation factor at (i, j): the reciprocal square root of the running variance at j plus ε. -/
theorem v35_eq (i : Fin 100000) (j : Fin 128) :
    val_main_v35 (F := Ideal) x14 (ix2 i j) = Ideal.rsqrt (at1 x14 j + eps32) := by
  rewrite [val_main_v35_apply, val_main_v34_apply,
    show idx_main_v34 (idx_main_v35 (ix2 i j)) = ix1 j from bidx_eq i j,
    val_main_v33_apply, val_main_v32_apply, val_main_v31_apply, val_main_cst_4_apply, lit_eps,
    Ideal.hostUnary_rsqrt_def, Ideal.addf_def]
  rfl

/-- The zero table of the positive part. -/
theorem call0_eq (p : S100000x128.Idx) : val_main_call0_v0 (F := Ideal) p = 0 := by
  rewrite [val_main_call0_v0_apply, val_main_call0_cst_apply]
  exact lit_zero

/-- The layer before normalisation, at (i, j), is the aggregated-form layer. -/
theorem v27_eq (hsrc : ∀ e, 0 ≤ (srcR x1 e).toInt ∧ (srcR x1 e).toInt < (nodes : ℤ)) (i : Fin 100000) (j : Fin 128) :
    val_main_v27 (F := Ideal) x0 x1 x2 x3 x4 (ix2 i j)
      = rLayer (srcR x1) (dstR x1) (at2 x0) (at2 x2) (at2 x4) (at1 x3) i j := by
  rewrite [val_main_v27_apply, val_main_v25_apply, v22_eq x0 x1 x2 hsrc, v24_eq, v26_eq, Ideal.addf_def, Ideal.addf_def]
  rfl

/-- The reference's first hidden layer is the aggregated-form first hidden layer, when every source word is a node number. -/
theorem r1_apply (hsrc : ∀ e, 0 ≤ (srcR x1 e).toInt ∧ (srcR x1 e).toInt < (nodes : ℤ)) (i : Fin 100000) (j : Fin 128) :
    val_main_v43 (F := Ideal) x0 x1 x2 x3 x4 x11 x12 x13 x14 (ix2 i j)
      = rHidden1 (srcR x1) (dstR x1) eps32 (at2 x0) (at2 x2) (at1 x3) (at2 x4) (at1 x11) (at1 x12) (at1 x13) (at1 x14) i j := by
  rewrite [val_main_v43_apply, val_main_v42_apply, val_main_v39_apply, val_main_v36_apply, val_main_v30_apply,
    v27_eq x0 x1 x2 x3 x4 hsrc, v29_eq, v35_eq, v38_eq, v41_eq, call0_eq,
    Ideal.maximumf_def, Ideal.addf_def, Ideal.mulf_def, Ideal.mulf_def, Ideal.subf_def]
  rfl

end Cert.ReferenceIdeal.SageLayer0

end
-- ==== Proof.RLayer1.lean ====
/-
  The reference program's second layer, read one operation at a time over whatever its first hidden layer holds: gather,
  sum at the destination, divide by the in-degree (at least one), project, add the bias and the node's own projection,
  normalise by the second running statistics, take the positive part.
-/
import proofs.«420429_j56581899157895_2_alg».proof.Proof.Gen.ReferenceIdeal.Read
import proofs.«420429_j56581899157895_2_alg».proof.Proof.RNames
import proofs.«420429_j56581899157895_2_alg».proof.Proof.Rows
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.IdealHost
import Idealize.ShloMosaic.PureOps.Ideal.Laws

set_option maxRecDepth 16384

noncomputable section

open scoped BigOperators

namespace Cert.ReferenceIdeal.SageLayer1

open Cert.ReferenceIdeal Cert.ReferenceIdeal.Gen Cert.ReferenceIdeal.Read Idealize.ShloMosaic Idealize.ShloMosaic.TcCoe
open Idealize.ShloMosaic.ValueIdx Idealize.SL.Sem Cert.Sage Cert.ReferenceIdeal.SageNames

variable (x0 : FVec Ideal S100000x128 .f32) (x1 : IVec S2x1600000 32) (x2 : FVec Ideal S128x128 .f32)
  (x3 : FVec Ideal S128 .f32) (x4 x5 : FVec Ideal S128x128 .f32) (x6 : FVec Ideal S128 .f32)
  (x7 : FVec Ideal S128x128 .f32) (x8 : FVec Ideal S128x16 .f32) (x9 : FVec Ideal S16 .f32)
  (x10 : FVec Ideal S128x16 .f32) (x11 x12 x13 x14 x15 x16 x17 x18 : FVec Ideal S128 .f32)

/-! ## The edge words as the layer reads them -/

/-- The source column at (e, 0): the program adds the node count to a negative word and keeps any other; a word that
    reads at least 0 is kept. -/
theorem srcCol_apply (hsrc : ∀ e, 0 ≤ (srcR x1 e).toInt ∧ (srcR x1 e).toInt < (nodes : ℤ)) (e : Fin 1600000) :
    val_main_v49 (F := Ideal) x1 (ix2 e (0 : Fin 1)) = srcR x1 e := by
  have hi : idx_main_v49 (ix2 e (0 : Fin 1)) = ix1 e := funext fun a => match a with | ⟨0, _⟩ => rfl
  rw [val_main_v49_apply, hi, val_main_v48_apply, val_main_v45_apply, val_main_v44_apply, val_main_c_5_apply]
  have hw : val_main_v1 (F := Ideal) x1 (ix1 e) = srcR x1 e := rfl
  rw [hw]
  have hc : IntOp.cmpi .slt (srcR x1 e) 0#32 = 0#1 := by
    apply eq_zero_of_ne_one
    intro h1
    have := IntOp.cmpi_slt.1 h1
    have z0 : (0#32 : BitVec 32).toInt = 0 := by decide
    rw [z0] at this
    exact absurd (hsrc e).1 (not_le.2 this)
  rw [hc, select_zero]

/-- The destination column at (e, 0), as the sum stage reads it. -/
theorem dstCol_apply (e : Fin 1600000) : val_main_v52 (F := Ideal) x1 (ix2 e (0 : Fin 1)) = dstR x1 e := by
  have hi : idx_main_v52 (ix2 e (0 : Fin 1)) = ix1 e := funext fun a => match a with | ⟨0, _⟩ => rfl
  rw [val_main_v52_apply, hi]
  rfl

/-- The destination column at (e, 0), as the count stage reads it. -/
theorem dstCol'_apply (e : Fin 1600000) : val_main_v56 (F := Ideal) x1 (ix2 e (0 : Fin 1)) = dstR x1 e := by
  have hi : idx_main_v56 (ix2 e (0 : Fin 1)) = ix1 e := funext fun a => match a with | ⟨0, _⟩ => rfl
  rw [val_main_v56_apply, hi]
  rfl

/-! ## Gather, sum at the destination, count, mean -/

/-- The host's accumulating scatter over the extended reals is the exact sum. -/
theorem scatterAdd_ideal {s si u : Shape} {w : ℕ} {φ : FTy} (d : ScatterDims s si u) (x : FVec Ideal s φ)
    (idx : IVec si w) (upd : FVec Ideal u φ) : Host.scatterAdd d x idx upd = Ideal.hostScatterAdd d x idx upd := rfl

/-- The gathered rows at (e, k): the layer input's row that edge e's source word names. -/
theorem gathered_apply (hsrc : ∀ e, 0 ≤ (srcR x1 e).toInt ∧ (srcR x1 e).toInt < (nodes : ℤ))
    (H : Fin nodes → Fin 128 → EReal)
    (hH : ∀ i k, val_main_v43 (F := Ideal) x0 x1 x2 x3 x4 x11 x12 x13 x14 (ix2 i k) = H i k)
    (e : Fin 1600000) (k : Fin 128) :
    val_main_v50 (F := Ideal) x0 x1 x2 x3 x4 x11 x12 x13 x14 (ix2 e k) = H (rowOf (srcR x1 e)) k := by
  unfold val_main_v50
  generalize val_main_v43 (F := Ideal) x0 x1 x2 x3 x4 x11 x12 x13 x14 = T at hH
  rw [gather_rows_apply (by decide) gather_S100000x128_S1600000x1_S1600000x128_1_0_n_n_0_1_1128 rfl rfl rfl rfl rfl rfl rfl]
  simp only [srcCol_apply x1 hsrc e]
  exact hH _ k

/-- The sum stage at (i, k): the gathered rows of the edges into node i, added up. -/
theorem summed_apply (hsrc : ∀ e, 0 ≤ (srcR x1 e).toInt ∧ (srcR x1 e).toInt < (nodes : ℤ))
    (H : Fin nodes → Fin 128 → EReal)
    (hH : ∀ i k, val_main_v43 (F := Ideal) x0 x1 x2 x3 x4 x11 x12 x13 x14 (ix2 i k) = H i k)
    (i : Fin 100000) (k : Fin 128) :
    val_main_v53 (F := Ideal) x0 x1 x2 x3 x4 x11 x12 x13 x14 (ix2 i k)
      = ∑ e ∈ into (dstR x1) i, H (rowOf (srcR x1 e)) k := by
  have hg := gathered_apply x0 x1 x2 x3 x4 x11 x12 x13 x14 hsrc H hH
  unfold val_main_v53
  generalize val_main_v50 (F := Ideal) x0 x1 x2 x3 x4 x11 x12 x13 x14 = G at hg
  rw [scatterAdd_ideal, scatterAdd_rows_apply scatter_S100000x128_S1600000x1_S1600000x128_1_0_0_1 rfl rfl rfl rfl,
    val_main_v51_apply, val_main_cst_7_apply, Ideal.ofBits_def, Ideal.ofBits_zero_f32, zero_add]
  unfold into
  exact Finset.sum_congr (Finset.filter_congr fun e _ => by rw [dstCol_apply]) fun e _ => hg e k

/-- The count stage at (i, 0): one per edge into node i. -/
theorem counted_apply (i : Fin 100000) :
    val_main_v57 (F := Ideal) x1 (ix2 i (0 : Fin 1)) = deg (dstR x1) i := by
  unfold val_main_v57
  rw [scatterAdd_ideal, scatterAdd_rows_apply scatter_S100000x1_S1600000x1_S1600000x1_1_0_0_1 rfl rfl rfl rfl,
    val_main_v55_apply, val_main_cst_9_apply, Ideal.ofBits_def, Ideal.ofBits_zero_f32, zero_add]
  unfold deg into
  refine Finset.sum_congr (Finset.filter_congr fun e _ => by rw [dstCol'_apply]) fun e _ => ?_
  rw [val_main_v54_apply, val_main_cst_8_apply, Ideal.ofBits_def, Ideal.ofBits_one_f32]

/-- The mean stage at (i, k): the sum over the edges into node i divided by their number, at least one. -/
theorem mean_apply (hsrc : ∀ e, 0 ≤ (srcR x1 e).toInt ∧ (srcR x1 e).toInt < (nodes : ℤ))
    (H : Fin nodes → Fin 128 → EReal)
    (hH : ∀ i k, val_main_v43 (F := Ideal) x0 x1 x2 x3 x4 x11 x12 x13 x14 (ix2 i k) = H i k)
    (i : Fin 100000) (k : Fin 128) :
    val_main_v61 (F := Ideal) x0 x1 x2 x3 x4 x11 x12 x13 x14 (ix2 i k)
      = Ideal.div (∑ e ∈ into (dstR x1) i, H (rowOf (srcR x1 e)) k) (max (deg (dstR x1) i) 1) := by
  have hi : idx_main_v60 (ix2 i k) = ix2 i (0 : Fin 1) :=
    funext fun a => match a with | ⟨0, _⟩ => rfl | ⟨1, _⟩ => rfl
  rw [val_main_v61_apply, summed_apply x0 x1 x2 x3 x4 x11 x12 x13 x14 hsrc H hH, val_main_v60_apply, hi,
    val_main_v59_apply, counted_apply, val_main_v58_apply, val_main_cst_10_apply, Ideal.ofBits_def,
    Ideal.ofBits_one_f32, Ideal.hostDivf_def, Ideal.maximumf_def]

/-! ## Projections, bias, and the layer before normalisation -/

/-- The projection of the mean at (i, j). -/
theorem projMean_apply (hsrc : ∀ e, 0 ≤ (srcR x1 e).toInt ∧ (srcR x1 e).toInt < (nodes : ℤ))
    (H : Fin nodes → Fin 128 → EReal)
    (hH : ∀ i k, val_main_v43 (F := Ideal) x0 x1 x2 x3 x4 x11 x12 x13 x14 (ix2 i k) = H i k)
    (i : Fin 100000) (j : Fin 128) :
    val_main_v62 (F := Ideal) x0 x1 x2 x3 x4 x5 x11 x12 x13 x14 (ix2 i j)
      = ∑ k : Fin 128, Ideal.div (∑ e ∈ into (dstR x1) i, H (rowOf (srcR x1 e)) k) (max (deg (dstR x1) i) 1)
          * at2 x5 k j := by
  rw [val_main_v62_apply]
  refine Finset.sum_congr rfl fun k _ => ?_
  have hl : lidx_main_v62 (ix2 i j) k = ix2 i k := funext fun a => match a with | ⟨0, _⟩ => rfl | ⟨1, _⟩ => rfl
  have hr : ridx_main_v62 (ix2 i j) k = ix2 k j := funext fun a => match a with | ⟨0, _⟩ => rfl | ⟨1, _⟩ => rfl
  rw [hl, hr, mean_apply x0 x1 x2 x3 x4 x11 x12 x13 x14 hsrc H hH]

/-- The node's own projection at (i, j). -/
theorem projOwn_apply (H : Fin nodes → Fin 128 → EReal)
    (hH : ∀ i k, val_main_v43 (F := Ideal) x0 x1 x2 x3 x4 x11 x12 x13 x14 (ix2 i k) = H i k)
    (i : Fin 100000) (j : Fin 128) :
    val_main_v66 (F := Ideal) x0 x1 x2 x3 x4 x7 x11 x12 x13 x14 (ix2 i j) = ∑ k : Fin 128, H i k * at2 x7 k j := by
  rw [val_main_v66_apply]
  refine Finset.sum_congr rfl fun k _ => ?_
  have hl : lidx_main_v66 (ix2 i j) k = ix2 i k := funext fun a => match a with | ⟨0, _⟩ => rfl | ⟨1, _⟩ => rfl
  have hr : ridx_main_v66 (ix2 i j) k = ix2 k j := funext fun a => match a with | ⟨0, _⟩ => rfl | ⟨1, _⟩ => rfl
  rw [hl, hr, hH]

/-- The bias, copied down the rows, at (i, j). -/
theorem bias_apply (i : Fin 100000) (j : Fin 128) : val_main_v64 (F := Ideal) x6 (ix2 i j) = at1 x6 j := by
  have hi : idx_main_v63 (idx_main_v64 (ix2 i j)) = ix1 j := funext fun a => match a with | ⟨0, _⟩ => rfl
  rw [val_main_v64_apply, val_main_v63_apply, hi]

/-- The layer before normalisation is the aggregated form at (i, j). -/
theorem pre_apply (hsrc : ∀ e, 0 ≤ (srcR x1 e).toInt ∧ (srcR x1 e).toInt < (nodes : ℤ))
    (H : Fin nodes → Fin 128 → EReal)
    (hH : ∀ i k, val_main_v43 (F := Ideal) x0 x1 x2 x3 x4 x11 x12 x13 x14 (ix2 i k) = H i k)
    (i : Fin 100000) (j : Fin 128) :
    val_main_v67 (F := Ideal) x0 x1 x2 x3 x4 x5 x6 x7 x11 x12 x13 x14 (ix2 i j)
      = rLayer (srcR x1) (dstR x1) H (at2 x5) (at2 x7) (at1 x6) i j := by
  rw [val_main_v67_apply, val_main_v65_apply, projMean_apply x0 x1 x2 x3 x4 x5 x11 x12 x13 x14 hsrc H hH,
    bias_apply, projOwn_apply x0 x1 x2 x3 x4 x7 x11 x12 x13 x14 H hH, Ideal.addf_def, Ideal.addf_def]
  unfold rLayer
  rfl

/-! ## Normalisation by the running statistics -/

/-- The running mean, copied down the rows, at (i, j). -/
theorem rm_apply (i : Fin 100000) (j : Fin 128) : val_main_v69 (F := Ideal) x17 (ix2 i j) = at1 x17 j := by
  have hi : idx_main_v68 (idx_main_v69 (ix2 i j)) = ix1 j := funext fun a => match a with | ⟨0, _⟩ => rfl
  rw [val_main_v69_apply, val_main_v68_apply, hi]

/-- The reciprocal standard deviation, copied down the rows, at (i, j). -/
theorem rstd_apply (i : Fin 100000) (j : Fin 128) :
    val_main_v75 (F := Ideal) x18 (ix2 i j) = Ideal.rsqrt (at1 x18 j + eps32) := by
  have hi : idx_main_v74 (idx_main_v75 (ix2 i j)) = ix1 j := funext fun a => match a with | ⟨0, _⟩ => rfl
  rw [val_main_v75_apply, val_main_v74_apply, hi, val_main_v73_apply, val_main_v72_apply, val_main_v71_apply,
    val_main_cst_11_apply, Ideal.ofBits_def, Ideal.hostUnary_rsqrt_def, Ideal.addf_def]
  rfl

/-- The scale, copied down the rows, at (i, j). -/
theorem g_apply (i : Fin 100000) (j : Fin 128) : val_main_v78 (F := Ideal) x15 (ix2 i j) = at1 x15 j := by
  have hi : idx_main_v77 (idx_main_v78 (ix2 i j)) = ix1 j := funext fun a => match a with | ⟨0, _⟩ => rfl
  rw [val_main_v78_apply, val_main_v77_apply, hi]

/-- The offset, copied down the rows, at (i, j). -/
theorem be_apply (i : Fin 100000) (j : Fin 128) : val_main_v81 (F := Ideal) x16 (ix2 i j) = at1 x16 j := by
  have hi : idx_main_v80 (idx_main_v81 (ix2 i j)) = ix1 j := funext fun a => match a with | ⟨0, _⟩ => rfl
  rw [val_main_v81_apply, val_main_v80_apply, hi]

/-- The reference's second hidden layer is one aggregated-form layer, normalised, of its first hidden layer. -/
theorem r2_apply (hsrc : ∀ e, 0 ≤ (srcR x1 e).toInt ∧ (srcR x1 e).toInt < (nodes : ℤ)) (H : Fin nodes → Fin 128 → EReal)
    (hH : ∀ i k, val_main_v43 (F := Ideal) x0 x1 x2 x3 x4 x11 x12 x13 x14 (ix2 i k) = H i k) (i : Fin 100000) (j : Fin 128) :
    val_main_v83 (F := Ideal) x0 x1 x2 x3 x4 x5 x6 x7 x11 x12 x13 x14 x15 x16 x17 x18 (ix2 i j)
      = bnRelu eps32 (at1 x15) (at1 x16) (at1 x17) (at1 x18) (rLayer (srcR x1) (dstR x1) H (at2 x5) (at2 x7) (at1 x6)) i j := by
  rw [val_main_v83_apply, val_main_v82_apply, val_main_v79_apply, val_main_v76_apply, val_main_v70_apply,
    pre_apply x0 x1 x2 x3 x4 x5 x6 x7 x11 x12 x13 x14 hsrc H hH, rm_apply, rstd_apply, g_apply, be_apply,
    val_main_call1_v0_apply, val_main_call1_cst_apply, Ideal.ofBits_def, Ideal.ofBits_zero_f32, Ideal.maximumf_def,
    Ideal.addf_def, Ideal.mulf_def, Ideal.mulf_def, Ideal.subf_def]
  unfold bnRelu relu
  rfl

end Cert.ReferenceIdeal.SageLayer1

end
-- ==== Proof.RLayer2.lean ====
/-
  The reference program's last layer, read one operation at a time over whatever its second hidden layer holds: gather,
  sum at the destination, divide by the in-degree (at least one), project to width 16, add the bias and the node's own
  projection.
-/
import proofs.«420429_j56581899157895_2_alg».proof.Proof.Gen.ReferenceIdeal.Read
import proofs.«420429_j56581899157895_2_alg».proof.Proof.RNames
import proofs.«420429_j56581899157895_2_alg».proof.Proof.Rows
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.IdealHost
import Idealize.ShloMosaic.PureOps.Ideal.Laws

set_option maxRecDepth 16384

noncomputable section

open scoped BigOperators

namespace Cert.ReferenceIdeal.SageLayer2

open Cert.ReferenceIdeal Cert.ReferenceIdeal.Gen Cert.ReferenceIdeal.Read Idealize.ShloMosaic Idealize.ShloMosaic.TcCoe
open Idealize.ShloMosaic.ValueIdx Idealize.SL.Sem Cert.Sage Cert.ReferenceIdeal.SageNames

variable (x0 : FVec Ideal S100000x128 .f32) (x1 : IVec S2x1600000 32) (x2 : FVec Ideal S128x128 .f32)
  (x3 : FVec Ideal S128 .f32) (x4 x5 : FVec Ideal S128x128 .f32) (x6 : FVec Ideal S128 .f32)
  (x7 : FVec Ideal S128x128 .f32) (x8 : FVec Ideal S128x16 .f32) (x9 : FVec Ideal S16 .f32)
  (x10 : FVec Ideal S128x16 .f32) (x11 x12 x13 x14 x15 x16 x17 x18 : FVec Ideal S128 .f32)

/-- A signed comparison "below zero" of a word that reads non-negative answers no. -/
theorem slt_zero_of_nonneg (s : BitVec 32) (h : 0 ≤ s.toInt) : IntOp.cmpi .slt s 0#32 = 0#1 := by
  unfold IntOp.cmpi
  have hs : s.slt 0#32 = false := by
    simp only [BitVec.slt, BitVec.toInt_zero, decide_eq_false_iff_not, not_lt]
    exact h
  show BitVec.ofBool (s.slt 0#32) = 0#1
  rw [hs]
  rfl

/-- The program's source column read at edge e is the source word of e. -/
theorem src_word (e : Fin edges) : val_main_v1 (F := Ideal) x1 (ix1 e) = srcR x1 e := by
  unfold val_main_v1 val_main_v0
  rfl

/-- The program's destination column read at edge e is the destination word of e. -/
theorem dst_word (e : Fin edges) : val_main_v3 (F := Ideal) x1 (ix1 e) = dstR x1 e := by
  unfold val_main_v3 val_main_v2
  rfl

/-- The wrapped source word (add the table height when negative) of an edge whose word reads non-negative is the word. -/
theorem src_wrapped (hsrc : ∀ e, 0 ≤ (srcR x1 e).toInt ∧ (srcR x1 e).toInt < (nodes : ℤ)) (e : Fin edges) :
    val_main_v89 (F := Ideal) x1 (ix2 e (0 : Fin 1)) = srcR x1 e := by
  have e89 : idx_main_v89 (ix2 e (0 : Fin 1)) = ix1 e := funext fun a => Fin.ext (by match a with | ⟨0, _⟩ => rfl)
  rw [val_main_v89_apply, e89, val_main_v88_apply, val_main_v85_apply, val_main_v84_apply, val_main_c_12_apply, src_word,
    slt_zero_of_nonneg _ (hsrc e).1, select_zero]

/-- The destination index column read at edge e is the destination word of e. -/
theorem dst_col (e : Fin edges) : val_main_v92 (F := Ideal) x1 (ix2 e (0 : Fin 1)) = dstR x1 e := by
  have e92 : idx_main_v92 (ix2 e (0 : Fin 1)) = ix1 e := funext fun a => Fin.ext (by match a with | ⟨0, _⟩ => rfl)
  rw [val_main_v92_apply, e92, dst_word]

/-- The same for the column the count uses. -/
theorem dst_col' (e : Fin edges) : val_main_v96 (F := Ideal) x1 (ix2 e (0 : Fin 1)) = dstR x1 e := by
  have e96 : idx_main_v96 (ix2 e (0 : Fin 1)) = ix1 e := funext fun a => Fin.ext (by match a with | ⟨0, _⟩ => rfl)
  rw [val_main_v96_apply, e96, dst_word]

/-- The accumulating row scatter of the host at the exact-sum instance: the operand's element plus the updates of the
    edges whose word reads, signed, as the row. -/
theorem host_scatterAdd_rows {N C E w : ℕ}
    (d : ScatterDims (⟨2, ![N, C]⟩ : Shape) ⟨2, ![E, 1]⟩ ⟨2, ![E, C]⟩)
    (huw : d.updateWindowDims = [1]) (hiw : d.insertedWindowDims = [0]) (hsd : d.scatterDimsToOperandDims = [0])
    (hivd : d.indexVectorDim = 1)
    (x : FVec Ideal (⟨2, ![N, C]⟩ : Shape) .f32) (idx : IVec (⟨2, ![E, 1]⟩ : Shape) w)
    (upd : FVec Ideal (⟨2, ![E, C]⟩ : Shape) .f32) (i : Fin N) (j : Fin C) :
    Host.scatterAdd (F := Ideal) d x idx upd (ix2 i j)
      = x (ix2 i j) + ∑ e ∈ Finset.univ.filter (fun e : Fin E => (idx (ix2 e (0 : Fin 1))).toInt = (i.val : ℤ)),
          upd (ix2 e j) :=
  scatterAdd_rows_apply d huw hiw hsd hivd x idx upd i j

/-- The gathered rows: at edge e and column k, the layer's input at the row the source word of e names. -/
theorem gathered_apply (hsrc : ∀ e, 0 ≤ (srcR x1 e).toInt ∧ (srcR x1 e).toInt < (nodes : ℤ)) (H : Fin nodes → Fin 128 → EReal)
    (hH : ∀ i k, val_main_v83 (F := Ideal) x0 x1 x2 x3 x4 x5 x6 x7 x11 x12 x13 x14 x15 x16 x17 x18 (ix2 i k) = H i k)
    (e : Fin edges) (k : Fin 128) :
    val_main_v90 (F := Ideal) x0 x1 x2 x3 x4 x5 x6 x7 x11 x12 x13 x14 x15 x16 x17 x18 (ix2 e k) = H (rowOf (srcR x1 e)) k := by
  unfold val_main_v90
  generalize val_main_v83 (F := Ideal) x0 x1 x2 x3 x4 x5 x6 x7 x11 x12 x13 x14 x15 x16 x17 x18 = T at hH ⊢
  rw [gather_rows_apply (by decide) gather_S100000x128_S1600000x1_S1600000x128_1_0_n_n_0_1_1128 rfl rfl rfl rfl rfl rfl rfl]
  refine (congrArg (fun r => T (ix2 r k)) (Fin.ext ?_)).trans (hH (rowOf (srcR x1 e)) k)
  show min (val_main_v89 (F := Ideal) x1 (ix2 e (0 : Fin 1))).toInt.toNat (100000 - 1) = min (srcR x1 e).toInt.toNat (nodes - 1)
  rw [src_wrapped x1 hsrc e]

/-- The summed rows: at node i and column k, the sum over the edges into i of the input at the source row. -/
theorem summed_apply (hsrc : ∀ e, 0 ≤ (srcR x1 e).toInt ∧ (srcR x1 e).toInt < (nodes : ℤ)) (H : Fin nodes → Fin 128 → EReal)
    (hH : ∀ i k, val_main_v83 (F := Ideal) x0 x1 x2 x3 x4 x5 x6 x7 x11 x12 x13 x14 x15 x16 x17 x18 (ix2 i k) = H i k)
    (i : Fin nodes) (k : Fin 128) :
    val_main_v93 (F := Ideal) x0 x1 x2 x3 x4 x5 x6 x7 x11 x12 x13 x14 x15 x16 x17 x18 (ix2 i k)
      = ∑ e ∈ into (dstR x1) i, H (rowOf (srcR x1 e)) k := by
  unfold val_main_v93
  generalize hU : val_main_v90 (F := Ideal) x0 x1 x2 x3 x4 x5 x6 x7 x11 x12 x13 x14 x15 x16 x17 x18 = U
  generalize hZ : val_main_v91 (F := Ideal) = Z
  generalize hD : val_main_v92 (F := Ideal) x1 = D
  rw [host_scatterAdd_rows scatter_S100000x128_S1600000x1_S1600000x128_1_0_0_1 rfl rfl rfl rfl]
  subst hU hZ hD
  rw [val_main_v91_apply, val_main_cst_14_apply, Ideal.ofBits_def, Ideal.ofBits_zero_f32, zero_add]
  unfold into
  simp only [dst_col]
  exact Finset.sum_congr rfl fun e _ => gathered_apply x0 x1 x2 x3 x4 x5 x6 x7 x11 x12 x13 x14 x15 x16 x17 x18 hsrc H hH e k

/-- The count: at node i, the in-degree. -/
theorem count_apply (i : Fin nodes) : val_main_v97 (F := Ideal) x1 (ix2 i (0 : Fin 1)) = deg (dstR x1) i := by
  unfold val_main_v97
  generalize hU : val_main_v94 (F := Ideal) = U
  generalize hZ : val_main_v95 (F := Ideal) = Z
  generalize hD : val_main_v96 (F := Ideal) x1 = D
  rw [host_scatterAdd_rows scatter_S100000x1_S1600000x1_S1600000x1_1_0_0_1 rfl rfl rfl rfl]
  subst hU hZ hD
  rw [val_main_v95_apply, val_main_cst_16_apply, Ideal.ofBits_def, Ideal.ofBits_zero_f32, zero_add]
  unfold deg into
  simp only [dst_col']
  exact Finset.sum_congr rfl fun e _ => by
    rw [val_main_v94_apply, val_main_cst_15_apply, Ideal.ofBits_def, Ideal.ofBits_one_f32]

/-- The divisor: at node i and any column, the in-degree or one, whichever is larger. -/
theorem divisor_apply (i : Fin nodes) (k : Fin 128) :
    val_main_v100 (F := Ideal) x1 (ix2 i k) = max (deg (dstR x1) i) 1 := by
  have e100 : idx_main_v100 (ix2 i k) = ix2 i (0 : Fin 1) :=
    funext fun a => Fin.ext (by match a with | ⟨0, _⟩ => rfl | ⟨1, _⟩ => rfl)
  rw [val_main_v100_apply, e100, val_main_v99_apply, count_apply, val_main_v98_apply, val_main_cst_17_apply,
    Ideal.ofBits_def, Ideal.ofBits_one_f32, Ideal.maximumf_def]

/-- The mean: at node i and column k. -/
theorem mean_apply (hsrc : ∀ e, 0 ≤ (srcR x1 e).toInt ∧ (srcR x1 e).toInt < (nodes : ℤ)) (H : Fin nodes → Fin 128 → EReal)
    (hH : ∀ i k, val_main_v83 (F := Ideal) x0 x1 x2 x3 x4 x5 x6 x7 x11 x12 x13 x14 x15 x16 x17 x18 (ix2 i k) = H i k)
    (i : Fin nodes) (k : Fin 128) :
    val_main_v101 (F := Ideal) x0 x1 x2 x3 x4 x5 x6 x7 x11 x12 x13 x14 x15 x16 x17 x18 (ix2 i k)
      = Ideal.div (∑ e ∈ into (dstR x1) i, H (rowOf (srcR x1 e)) k) (max (deg (dstR x1) i) 1) := by
  rw [val_main_v101_apply, Ideal.hostDivf_def,
    summed_apply x0 x1 x2 x3 x4 x5 x6 x7 x11 x12 x13 x14 x15 x16 x17 x18 hsrc H hH, divisor_apply]

/-- The projected mean: at node i and output column j. -/
theorem proj_mean_apply (hsrc : ∀ e, 0 ≤ (srcR x1 e).toInt ∧ (srcR x1 e).toInt < (nodes : ℤ)) (H : Fin nodes → Fin 128 → EReal)
    (hH : ∀ i k, val_main_v83 (F := Ideal) x0 x1 x2 x3 x4 x5 x6 x7 x11 x12 x13 x14 x15 x16 x17 x18 (ix2 i k) = H i k)
    (i : Fin nodes) (j : Fin 16) :
    val_main_v102 (F := Ideal) x0 x1 x2 x3 x4 x5 x6 x7 x8 x11 x12 x13 x14 x15 x16 x17 x18 (ix2 i j)
      = ∑ k : Fin 128, Ideal.div (∑ e ∈ into (dstR x1) i, H (rowOf (srcR x1 e)) k) (max (deg (dstR x1) i) 1) * at2 x8 k j := by
  rw [val_main_v102_apply]
  refine Finset.sum_congr rfl fun k _ => ?_
  have el : lidx_main_v102 (ix2 i j) k = ix2 i k :=
    funext fun a => Fin.ext (by match a with | ⟨0, _⟩ => rfl | ⟨1, _⟩ => rfl)
  have er : ridx_main_v102 (ix2 i j) k = ix2 k j :=
    funext fun a => Fin.ext (by match a with | ⟨0, _⟩ => rfl | ⟨1, _⟩ => rfl)
  rw [el, er, mean_apply x0 x1 x2 x3 x4 x5 x6 x7 x11 x12 x13 x14 x15 x16 x17 x18 hsrc H hH]

/-- The bias row: at any node and output column j. -/
theorem bias_apply (i : Fin nodes) (j : Fin 16) : val_main_v104 (F := Ideal) x9 (ix2 i j) = at1 x9 j := by
  have e104 : idx_main_v103 (idx_main_v104 (ix2 i j)) = ix1 j :=
    funext fun a => Fin.ext (by match a with | ⟨0, _⟩ => rfl)
  rw [val_main_v104_apply, val_main_v103_apply, e104]

/-- The node's own projection: at node i and output column j. -/
theorem proj_own_apply (H : Fin nodes → Fin 128 → EReal)
    (hH : ∀ i k, val_main_v83 (F := Ideal) x0 x1 x2 x3 x4 x5 x6 x7 x11 x12 x13 x14 x15 x16 x17 x18 (ix2 i k) = H i k)
    (i : Fin nodes) (j : Fin 16) :
    val_main_v106 (F := Ideal) x0 x1 x2 x3 x4 x5 x6 x7 x10 x11 x12 x13 x14 x15 x16 x17 x18 (ix2 i j)
      = ∑ k : Fin 128, H i k * at2 x10 k j := by
  rw [val_main_v106_apply]
  refine Finset.sum_congr rfl fun k _ => ?_
  have el : lidx_main_v106 (ix2 i j) k = ix2 i k :=
    funext fun a => Fin.ext (by match a with | ⟨0, _⟩ => rfl | ⟨1, _⟩ => rfl)
  have er : ridx_main_v106 (ix2 i j) k = ix2 k j :=
    funext fun a => Fin.ext (by match a with | ⟨0, _⟩ => rfl | ⟨1, _⟩ => rfl)
  rw [el, er, hH]

/-- The reference's result is one aggregated-form layer of its second hidden layer. -/
theorem r3_apply (hsrc : ∀ e, 0 ≤ (srcR x1 e).toInt ∧ (srcR x1 e).toInt < (nodes : ℤ)) (H : Fin nodes → Fin 128 → EReal)
    (hH : ∀ i k, val_main_v83 (F := Ideal) x0 x1 x2 x3 x4 x5 x6 x7 x11 x12 x13 x14 x15 x16 x17 x18 (ix2 i k) = H i k)
    (i : Fin 100000) (j : Fin 16) :
    val_main_v107 (F := Ideal) x0 x1 x2 x3 x4 x5 x6 x7 x8 x9 x10 x11 x12 x13 x14 x15 x16 x17 x18 (ix2 i j)
      = rLayer (srcR x1) (dstR x1) H (at2 x8) (at2 x10) (at1 x9) i j := by
  unfold rLayer
  rw [val_main_v107_apply, val_main_v105_apply, Ideal.addf_def, Ideal.addf_def,
    proj_mean_apply x0 x1 x2 x3 x4 x5 x6 x7 x8 x11 x12 x13 x14 x15 x16 x17 x18 hsrc H hH,
    bias_apply, proj_own_apply x0 x1 x2 x3 x4 x5 x6 x7 x10 x11 x12 x13 x14 x15 x16 x17 x18 H hH]

end Cert.ReferenceIdeal.SageLayer2

end
-- ==== Proof.lean ====
/-
  The certificate: the kernel program, its idealisation and the reference all run to the end leaving their arguments as
  they were; the idealisation changed nothing (its ledger is empty); and over the extended reals the idealised kernel and
  the reference, run from memories that agree on the nineteen arguments, end with the same 100000 × 16 array, whenever
  every float argument is finite, both running variances are non-negative and every source word of the edge list is a
  node number.

  Why the results agree. Both programs compute three layers of the same mean-aggregating graph network. The kernel
  projects each node's feature row by the two weight matrices first, gathers the projected row of every edge's source,
  sums the gathered rows at the edge's destination, and in a second pass divides by the in-degree, adds the node's own
  projection and the bias and applies the normalisation folded into one factor and one offset per column. The reference
  gathers and sums the unprojected rows, divides, and only then projects; it normalises by subtracting the running
  mean, multiplying by rsqrt(variance + ε) and by the gain, and adding the offset. Read element by element, each side is
  one of the two forms of the specification; the forms are equal because every quantity is a real number: the mean is
  linear, so it commutes with the projection, and the two normalisations differ by distributing the factor over a
  difference. Finiteness of the inputs, the variances' sign and ε > 0 are what make every quantity real: with a
  variance of −ε the factor would be infinite and the two normalisations would part; and the range of the source words
  matters because the kernel's gather fills a row it cannot find with a non-number where the reference's clamps.
-/
import proofs.«420429_j56581899157895_2_alg».proof.Defs
import proofs.«420429_j56581899157895_2_alg».proof.Proof.Gen.Kernel
import proofs.«420429_j56581899157895_2_alg».proof.Proof.Gen.Kernel.Skeleton
import proofs.«420429_j56581899157895_2_alg».proof.Proof.Gen.Kernel.Launch
import proofs.«420429_j56581899157895_2_alg».proof.Proof.Gen.Kernel.Points
import proofs.«420429_j56581899157895_2_alg».proof.Proof.Gen.Kernel.Frame
import proofs.«420429_j56581899157895_2_alg».proof.Proof.Gen.KernelIdeal
import proofs.«420429_j56581899157895_2_alg».proof.Proof.Gen.KernelIdeal.Skeleton
import proofs.«420429_j56581899157895_2_alg».proof.Proof.Gen.KernelIdeal.Launch
import proofs.«420429_j56581899157895_2_alg».proof.Proof.Gen.KernelIdeal.Points
import proofs.«420429_j56581899157895_2_alg».proof.Proof.Gen.KernelIdeal.Frame
import proofs.«420429_j56581899157895_2_alg».proof.Proof.Gen.ReferenceIdeal
import proofs.«420429_j56581899157895_2_alg».proof.Proof.Gen.ReferenceIdeal.Run
import proofs.«420429_j56581899157895_2_alg».proof.Proof.Gen.ReferenceIdeal.Read
import proofs.«420429_j56581899157895_2_alg».proof.Proof.Gen.Pre_finite_inputs
import proofs.«420429_j56581899157895_2_alg».proof.Proof.Spec
import proofs.«420429_j56581899157895_2_alg».proof.Proof.Eps
import proofs.«420429_j56581899157895_2_alg».proof.Proof.Algebra
import proofs.«420429_j56581899157895_2_alg».proof.Proof.PreFacts
import proofs.«420429_j56581899157895_2_alg».proof.Proof.KernelRun
import proofs.«420429_j56581899157895_2_alg».proof.Proof.KNames
import proofs.«420429_j56581899157895_2_alg».proof.Proof.KLayer0
import proofs.«420429_j56581899157895_2_alg».proof.Proof.KLayer1
import proofs.«420429_j56581899157895_2_alg».proof.Proof.KLayer2
import proofs.«420429_j56581899157895_2_alg».proof.Proof.RNames
import proofs.«420429_j56581899157895_2_alg».proof.Proof.RLayer0
import proofs.«420429_j56581899157895_2_alg».proof.Proof.RLayer1
import proofs.«420429_j56581899157895_2_alg».proof.Proof.RLayer2
import Idealize.ShloMosaic.Adequacy
import Idealize.ShloMosaic.Init

set_option maxRecDepth 16384

noncomputable section

namespace Cert.Proof

open Idealize.ShloMosaic Idealize.ShloMosaic.ValueIdx Idealize.SL.Sem Cert.Sage

/-- The word-level kernel runs to the end and leaves its arguments unchanged. -/
theorem frame_k : Cert.frame_Kernel := fun m ρ _ => Cert.Kernel.Gen.frame m ρ

/-- The idealised kernel runs to the end and leaves its arguments unchanged. -/
theorem frame_ki : Cert.frame_KernelIdeal := fun m ρ _ => Cert.KernelIdeal.Gen.frame m ρ

/-- The idealised reference runs to the end and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

section Value

open Cert.KernelIdeal Cert.KernelIdeal.SageNames

variable (m : (ℓ : Loc Cert.KernelIdeal.nD Cert.KernelIdeal.τ Cert.KernelIdeal.sig) → Buf (Elt Ideal) ℓ)
  (ρ : Dev Cert.KernelIdeal.nD → PrngReg)

/-- The kernel's result array at (i, j) is the projected form of the network, when every source word is a node number:
    the three layers chained, each reading the array the previous one left. -/
theorem kernel_value (c : Dev Cert.KernelIdeal.nD)
    (hsrc : ∀ e, 0 ≤ (srcW m c e).toInt ∧ (srcW m c e).toInt < (nodes : ℤ)) (i : Fin 100000) (j : Fin 16) :
    outA m ρ c (ix2 i j) = kNet (srcW m c) (dstW m c) eps32 (at2 (aX m c)) (at2 (aWn0 m c)) (at1 (aB0 m c)) (at2 (aWs0 m c)) (at2 (aWn1 m c)) (at1 (aB1 m c)) (at2 (aWs1 m c)) (at2 (aWn2 m c)) (at1 (aB2 m c)) (at2 (aWs2 m c)) (at1 (aG0 m c)) (at1 (aBe0 m c)) (at1 (aRm0 m c)) (at1 (aRv0 m c)) (at1 (aG1 m c)) (at1 (aBe1 m c)) (at1 (aRm1 m c)) (at1 (aRv1 m c)) i j :=
  Cert.KernelIdeal.SageLayer2.outA_apply m ρ c hsrc
    (kHidden2 (srcW m c) (dstW m c) eps32 (at2 (aX m c)) (at2 (aWn0 m c)) (at1 (aB0 m c)) (at2 (aWs0 m c)) (at2 (aWn1 m c)) (at1 (aB1 m c)) (at2 (aWs1 m c)) (at1 (aG0 m c)) (at1 (aBe0 m c)) (at1 (aRm0 m c)) (at1 (aRv0 m c)) (at1 (aG1 m c)) (at1 (aBe1 m c)) (at1 (aRm1 m c)) (at1 (aRv1 m c)))
    (fun i k => Cert.KernelIdeal.SageLayer1.h2A_apply m ρ c hsrc
      (kHidden1 (srcW m c) (dstW m c) eps32 (at2 (aX m c)) (at2 (aWn0 m c)) (at1 (aB0 m c)) (at2 (aWs0 m c)) (at1 (aG0 m c)) (at1 (aBe0 m c)) (at1 (aRm0 m c)) (at1 (aRv0 m c)))
      (fun i k => Cert.KernelIdeal.SageLayer0.h1A_apply m ρ c hsrc i k) i k) i j

/-- The reference's result array at (i, j), on the kernel's argument arrays, is the aggregated form of the network. -/
theorem reference_value (c : Dev Cert.KernelIdeal.nD)
    (hsrc : ∀ e, 0 ≤ (srcW m c e).toInt ∧ (srcW m c e).toInt < (nodes : ℤ)) (i : Fin 100000) (j : Fin 16) :
    Cert.ReferenceIdeal.Read.val_main_v107 (F := Ideal) (aX m c) (aE m c) (aWn0 m c) (aB0 m c) (aWs0 m c) (aWn1 m c) (aB1 m c) (aWs1 m c) (aWn2 m c) (aB2 m c) (aWs2 m c) (aG0 m c) (aBe0 m c) (aRm0 m c) (aRv0 m c) (aG1 m c) (aBe1 m c) (aRm1 m c) (aRv1 m c) (ix2 i j)
      = rNet (srcW m c) (dstW m c) eps32 (at2 (aX m c)) (at2 (aWn0 m c)) (at1 (aB0 m c)) (at2 (aWs0 m c)) (at2 (aWn1 m c)) (at1 (aB1 m c)) (at2 (aWs1 m c)) (at2 (aWn2 m c)) (at1 (aB2 m c)) (at2 (aWs2 m c)) (at1 (aG0 m c)) (at1 (aBe0 m c)) (at1 (aRm0 m c)) (at1 (aRv0 m c)) (at1 (aG1 m c)) (at1 (aBe1 m c)) (at1 (aRm1 m c)) (at1 (aRv1 m c)) i j :=
  Cert.ReferenceIdeal.SageLayer2.r3_apply (aX m c) (aE m c) (aWn0 m c) (aB0 m c) (aWs0 m c) (aWn1 m c) (aB1 m c) (aWs1 m c) (aWn2 m c) (aB2 m c) (aWs2 m c) (aG0 m c) (aBe0 m c) (aRm0 m c) (aRv0 m c) (aG1 m c) (aBe1 m c) (aRm1 m c) (aRv1 m c) hsrc
    (rHidden2 (srcW m c) (dstW m c) eps32 (at2 (aX m c)) (at2 (aWn0 m c)) (at1 (aB0 m c)) (at2 (aWs0 m c)) (at2 (aWn1 m c)) (at1 (aB1 m c)) (at2 (aWs1 m c)) (at1 (aG0 m c)) (at1 (aBe0 m c)) (at1 (aRm0 m c)) (at1 (aRv0 m c)) (at1 (aG1 m c)) (at1 (aBe1 m c)) (at1 (aRm1 m c)) (at1 (aRv1 m c)))
    (fun i k => Cert.ReferenceIdeal.SageLayer1.r2_apply (aX m c) (aE m c) (aWn0 m c) (aB0 m c) (aWs0 m c) (aWn1 m c) (aB1 m c) (aWs1 m c) (aG0 m c) (aBe0 m c) (aRm0 m c) (aRv0 m c) (aG1 m c) (aBe1 m c) (aRm1 m c) (aRv1 m c) hsrc
      (rHidden1 (srcW m c) (dstW m c) eps32 (at2 (aX m c)) (at2 (aWn0 m c)) (at1 (aB0 m c)) (at2 (aWs0 m c)) (at1 (aG0 m c)) (at1 (aBe0 m c)) (at1 (aRm0 m c)) (at1 (aRv0 m c)))
      (fun i k => Cert.ReferenceIdeal.SageLayer0.r1_apply (aX m c) (aE m c) (aWn0 m c) (aB0 m c) (aWs0 m c) (aG0 m c) (aBe0 m c) (aRm0 m c) (aRv0 m c) hsrc i k) i k) i j

end Value

/-- Over the extended reals, under the precondition, the idealised kernel and the reference end with equal results. -/
theorem algebraic : Cert.algebraic_KernelIdeal_ReferenceIdeal := by
  intro m ρ m' ρ' hpre hagree
  refine ⟨fun c => Cert.KernelIdeal.Gen.W13 (F := Ideal) m ρ c (Proc.devRef .tc Cert.KernelIdeal.main_v48),
    Cert.KernelIdeal.SageRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v107_eq]
  obtain ⟨e0, e1, e2, e3, e4, e5, e6, e7, e8, e9, e10, e11, e12, e13, e14, e15, e16, e17, e18⟩ := hagree c
  rw [e0, e1, e2, e3, e4, e5, e6, e7, e8, e9, e10, e11, e12, e13, e14, e15, e16, e17, e18]
  have hF := Cert.Sage.inputFacts_of_pre
    (Cert.KernelIdeal.SageNames.aX m c) (Cert.KernelIdeal.SageNames.aE m c) (Cert.KernelIdeal.SageNames.aWn0 m c) (Cert.KernelIdeal.SageNames.aB0 m c) (Cert.KernelIdeal.SageNames.aWs0 m c) (Cert.KernelIdeal.SageNames.aWn1 m c) (Cert.KernelIdeal.SageNames.aB1 m c) (Cert.KernelIdeal.SageNames.aWs1 m c) (Cert.KernelIdeal.SageNames.aWn2 m c) (Cert.KernelIdeal.SageNames.aB2 m c) (Cert.KernelIdeal.SageNames.aWs2 m c) (Cert.KernelIdeal.SageNames.aG0 m c) (Cert.KernelIdeal.SageNames.aBe0 m c) (Cert.KernelIdeal.SageNames.aRm0 m c) (Cert.KernelIdeal.SageNames.aRv0 m c) (Cert.KernelIdeal.SageNames.aG1 m c) (Cert.KernelIdeal.SageNames.aBe1 m c) (Cert.KernelIdeal.SageNames.aRm1 m c) (Cert.KernelIdeal.SageNames.aRv1 m c)
    Cert.KernelIdeal.Gen.slices_S2x1600000_S1x1600000_0_0 Cert.KernelIdeal.Gen.shapeCasts_S1x1600000_S1600000 (hpre c)
  show (Cert.ReferenceIdeal.Read.val_main_v107 (F := Ideal)
      (Cert.KernelIdeal.SageNames.aX m c) (Cert.KernelIdeal.SageNames.aE m c) (Cert.KernelIdeal.SageNames.aWn0 m c) (Cert.KernelIdeal.SageNames.aB0 m c) (Cert.KernelIdeal.SageNames.aWs0 m c) (Cert.KernelIdeal.SageNames.aWn1 m c) (Cert.KernelIdeal.SageNames.aB1 m c) (Cert.KernelIdeal.SageNames.aWs1 m c) (Cert.KernelIdeal.SageNames.aWn2 m c) (Cert.KernelIdeal.SageNames.aB2 m c) (Cert.KernelIdeal.SageNames.aWs2 m c) (Cert.KernelIdeal.SageNames.aG0 m c) (Cert.KernelIdeal.SageNames.aBe0 m c) (Cert.KernelIdeal.SageNames.aRm0 m c) (Cert.KernelIdeal.SageNames.aRv0 m c) (Cert.KernelIdeal.SageNames.aG1 m c) (Cert.KernelIdeal.SageNames.aBe1 m c) (Cert.KernelIdeal.SageNames.aRm1 m c) (Cert.KernelIdeal.SageNames.aRv1 m c) : FVec Ideal Cert.KernelIdeal.S100000x16 .f32)
    = Cert.KernelIdeal.SageNames.outA m ρ c
  funext idx
  obtain ⟨i, j, rfl⟩ : ∃ (i : Fin 100000) (j : Fin 16), idx = ix2 i j := ⟨idx 0, idx 1, eq_ix2 idx⟩
  rw [reference_value m c hF.hsrc i j, kernel_value m ρ c hF.hsrc i j]
  exact (congrFun (congrFun (kNet_eq_rNet _ _ eps32 eps32_pos _ _ _ _ _ _ _ _ _ _ _ _ _ _ _ _ _ _
    hF.hx hF.hWn0 hF.hb0 hF.hWs0 hF.hWn1 hF.hb1 hF.hWs1 hF.hWn2 hF.hb2 hF.hWs2 hF.hg0 hF.hbe0 hF.hrm0 hF.hrv0
    hF.hg1 hF.hbe1 hF.hrm1 hF.hrv1 hF.hrv0_nn hF.hrv1_nn) i) j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
